-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S64x128 : Shape := ⟨2, ![64, 128]⟩
abbrev S4x16 : Shape := ⟨2, ![4, 16]⟩
abbrev S1x4x16 : Shape := ⟨3, ![1, 4, 16]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S64x128 : S_.BroadcastsInDim S64x128 (![] : Fin 0 → Fin S64x128.rank)
  reducesTo_S64x128_S_d0_1 : S64x128.ReducesTo [0, 1] S_
  bcast_S_S4x16 : S_.BroadcastsInDim S4x16 (![] : Fin 0 → Fin S4x16.rank)
  reducesTo_S4x16_S_d0_1 : S4x16.ReducesTo [0, 1] S_
  bcast_S_S1x4x16 : S_.BroadcastsInDim S1x4x16 (![] : Fin 0 → Fin S1x4x16.rank)
  reducesTo_S1x4x16_S_d0_1_2 : S1x4x16.ReducesTo [0, 1, 2] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_v33 : IVec S_ 1) : IVec S_ 1 :=
  let main_c_12 : IVec S_ 32 := constantI S_ 32 0#32
  let main_v34 : IVec S2x1600000 32 := broadcastInDim S2x1600000 ![] bcast_S_S2x1600000 main_c_12
  let main_v35 : IVec S2x1600000 1 := cmpi .sge main_arg1 main_v34
  let main_c_13 : IVec S_ 1 := constantI S_ 1 1#1
  let main_v36 : IVec S_ 1 := (fun x v => Host.reduce IntOp.andi x v reducesTo_S2x1600000_S_d0_1 h_S_) main_v35 main_c_13
  let main_v37 : IVec S_ 1 := andi main_v33 main_v36
  let main_c_14 : IVec S_ 32 := constantI S_ 32 100000#32
  let main_v38 : IVec S2x1600000 32 := broadcastInDim S2x1600000 ![] bcast_S_S2x1600000 main_c_14
  let main_v39 : IVec S2x1600000 1 := cmpi .slt main_arg1 main_v38
  let main_c_15 : IVec S_ 1 := constantI S_ 1 1#1
  let main_v40 : IVec S_ 1 := (fun x v => Host.reduce IntOp.andi x v reducesTo_S2x1600000_S_d0_1 h_S_) main_v39 main_c_15
  let main_v41 : IVec S_ 1 := andi main_v37 main_v40
  main_v41

def fn_part1 {F : FTy → Type} [FloatOps F] (main_arg1 : IVec S2x1600000 32) (main_arg5 : FVec F S1x4x16 .f32) (main_arg6 : FVec F S1x4x16 .f32) (main_arg7 : FVec F S64 .f32) (main_v13 : IVec S_ 1) (main_v16 : IVec S4x16 1) : IVec S_ 1 :=
  let main_c_5 : IVec S_ 1 := constantI S_ 1 1#1
  let main_v17 : IVec S_ 1 := (fun x v => Host.reduce IntOp.andi x v reducesTo_S4x16_S_d0_1 h_S_) main_v16 main_c_5
  let main_v18 : IVec S_ 1 := andi main_v13 main_v17
  let main_v19 : FVec F S1x4x16 .f32 := Host.absf main_arg5
  let main_cst_6 : FVec F S_ .f32 := constant S_ .f32 0x7F800000#32
  let main_v20 : FVec F S1x4x16 .f32 := broadcastInDim S1x4x16 ![] bcast_S_S1x4x16 main_cst_6
  let main_v21 : IVec S1x4x16 1 := cmpf .olt main_v19 main_v20
  let main_c_7 : IVec S_ 1 := constantI S_ 1 1#1
  let main_v22 : IVec S_ 1 := (fun x v => Host.reduce IntOp.andi x v reducesTo_S1x4x16_S_d0_1_2 h_S_) main_v21 main_c_7
  let main_v23 : IVec S_ 1 := andi main_v18 main_v22
  let main_v24 : FVec F S1x4x16 .f32 := Host.absf main_arg6
  let main_cst_8 : FVec F S_ .f32 := constant S_ .f32 0x7F800000#32
  let main_v25 : FVec F S1x4x16 .f32 := broadcastInDim S1x4x16 ![] bcast_S_S1x4x16 main_cst_8
  let main_v26 : IVec S1x4x16 1 := cmpf .olt main_v24 main_v25
  let main_c_9 : IVec S_ 1 := constantI S_ 1 1#1
  let main_v27 : IVec S_ 1 := (fun x v => Host.reduce IntOp.andi x v reducesTo_S1x4x16_S_d0_1_2 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S1600000x16 .f32) (main_arg3 : FVec F S64x128 .f32) (main_arg4 : FVec F S4x16 .f32) (main_arg5 : FVec F S1x4x16 .f32) (main_arg6 : FVec F S1x4x16 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S4x16 .f32 := Host.absf main_arg4
  let main_cst_4 : FVec F S_ .f32 := constant S_ .f32 0x7F800000#32
  let main_v15 : FVec F S4x16 .f32 := broadcastInDim S4x16 ![] bcast_S_S4x16 main_cst_4
  let main_v16 : IVec S4x16 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S64x128 : Shape := ⟨2, ![64, 128]⟩
abbrev S4x16 : Shape := ⟨2, ![4, 16]⟩
abbrev S1x4x16 : Shape := ⟨3, ![1, 4, 16]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S4 : Shape := ⟨1, ![4]⟩
abbrev S64x1 : Shape := ⟨2, ![64, 1]⟩
abbrev S1x4 : Shape := ⟨2, ![1, 4]⟩
abbrev S64x4 : Shape := ⟨2, ![64, 4]⟩
abbrev S64x8 : Shape := ⟨2, ![64, 8]⟩
abbrev S100000x64 : Shape := ⟨2, ![100000, 64]⟩
abbrev S100000x8 : Shape := ⟨2, ![100000, 8]⟩
abbrev S5000x128 : Shape := ⟨2, ![5000, 128]⟩
abbrev S5000x64 : Shape := ⟨2, ![5000, 64]⟩
abbrev S5000x8 : Shape := ⟨2, ![5000, 8]⟩
abbrev S128x64 : Shape := ⟨2, ![128, 64]⟩
abbrev S100000x4 : Shape := ⟨2, ![100000, 4]⟩
abbrev S1600000x1 : Shape := ⟨2, ![1600000, 1]⟩
abbrev S1 : Shape := ⟨1, ![1]⟩
abbrev S1x1 : Shape := ⟨2, ![1, 1]⟩
abbrev S1600000x4 : Shape := ⟨2, ![1600000, 4]⟩
abbrev S16x4 : Shape := ⟨2, ![16, 4]⟩
abbrev S1x16x1x4 : Shape := ⟨4, ![1, 16, 1, 4]⟩
abbrev S32x16x32x4 : Shape := ⟨4, ![32, 16, 32, 4]⟩
abbrev S512x128 : Shape := ⟨2, ![512, 128]⟩
abbrev S50000x512 : Shape := ⟨2, ![50000, 512]⟩
abbrev S50000x128 : Shape := ⟨2, ![50000, 128]⟩
abbrev S2000x512 : Shape := ⟨2, ![2000, 512]⟩
abbrev S2000x128 : Shape := ⟨2, ![2000, 128]⟩
abbrev S1600000x64 : Shape := ⟨2, ![1600000, 64]⟩
abbrev S1600000x4x16 : Shape := ⟨3, ![1600000, 4, 16]⟩
abbrev S1600000x4x1 : Shape := ⟨3, ![1600000, 4, 1]⟩
abbrev S128 : Shape := ⟨1, ![128]⟩
abbrev S1x128 : Shape := ⟨2, ![1, 128]⟩

abbrev nBuf : Space → Nat
  | .hbm => 227
  | .vmem => 22
  | .smem => 0
  | _ => 0

abbrev hbmTy0_0 (i : Nat) : BufTy := match i % 128 with
  | 0 => ⟨S100000x128, .f32⟩
  | 1 => ⟨S2x1600000, .i32⟩
  | 2 => ⟨S1600000x16, .f32⟩
  | 3 => ⟨S64x128, .f32⟩
  | 4 => ⟨S4x16, .f32⟩
  | 5 => ⟨S1x4x16, .f32⟩
  | 6 => ⟨S1x4x16, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S64, .i32⟩
  | 13 => ⟨S_, .i32⟩
  | 14 => ⟨S_, .i32⟩
  | 15 => ⟨S64, .i32⟩
  | 16 => ⟨S64, .i32⟩
  | 17 => ⟨S64, .i32⟩
  | 18 => ⟨S_, .i32⟩
  | 19 => ⟨S64, .i32⟩
  | 20 => ⟨S64, .i1⟩
  | 21 => ⟨S64, .i32⟩
  | 22 => ⟨S64, .i32⟩
  | 23 => ⟨S_, .i32⟩
  | 24 => ⟨S64, .i32⟩
  | 25 => ⟨S64, .i1⟩
  | 26 => ⟨S64, .i1⟩
  | 27 => ⟨S_, .i32⟩
  | 28 => ⟨S64, .i32⟩
  | 29 => ⟨S64, .i32⟩
  | 30 => ⟨S64, .i32⟩
  | 31 => ⟨S4, .i32⟩
  | 32 => ⟨S64, .f32⟩
  | 33 => ⟨S64, .f32⟩
  | 34 => ⟨S64x1, .i32⟩
  | 35 => ⟨S1x4, .i32⟩
  | 36 => ⟨S64x4, .i32⟩
  | 37 => ⟨S64x4, .i32⟩
  | 38 => ⟨S64x4, .i1⟩
  | 39 => ⟨S64x1, .f32⟩
  | 40 => ⟨S_, .f32⟩
  | 41 => ⟨S_, .f32⟩
  | 42 => ⟨S64x4, .f32⟩
  | 43 => ⟨S64x4, .f32⟩
  | 44 => ⟨S64x4, .f32⟩
  | 45 => ⟨S64x1, .f32⟩
  | 46 => ⟨S_, .f32⟩
  | 47 => ⟨S_, .f32⟩
  | 48 => ⟨S64x4, .f32⟩
  | 49 => ⟨S64x4, .f32⟩
  | 50 => ⟨S64x4, .f32⟩
  | 51 => ⟨S64x8, .f32⟩
  | 52 => ⟨S100000x64, .f32⟩
  | 53 => ⟨S100000x8, .f32⟩
  | 54 => ⟨S100000x4, .f32⟩
  | 55 => ⟨S100000x4, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1, .i32⟩
  | 65 => ⟨S_, .i32⟩
  | 66 => ⟨S1600000x1, .i32⟩
  | 67 => ⟨S1600000x1, .i1⟩
  | 68 => ⟨S1x1, .i32⟩
  | 69 => ⟨S1600000x1, .i32⟩
  | 70 => ⟨S1600000x1, .i1⟩
  | 71 => ⟨S1600000x1, .i1⟩
  | 72 => ⟨S_, .i1⟩
  | 73 => ⟨S1600000, .i1⟩
  | 74 => ⟨S1600000x4, .f32⟩
  | 75 => ⟨S1600000x4, .i1⟩
  | 76 => ⟨S_, .f32⟩
  | 77 => ⟨S1600000x4, .f32⟩
  | 78 => ⟨S1600000x4, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1, .i32⟩
  | 88 => ⟨S_, .i32⟩
  | 89 => ⟨S1600000x1, .i32⟩
  | 90 => ⟨S1600000x1, .i1⟩
  | 91 => ⟨S1x1, .i32⟩
  | 92 => ⟨S1600000x1, .i32⟩
  | 93 => ⟨S1600000x1, .i1⟩
  | 94 => ⟨S1600000x1, .i1⟩
  | 95 => ⟨S_, .i1⟩
  | 96 => ⟨S1600000, .i1⟩
  | 97 => ⟨S1600000x4, .f32⟩
  | 98 => ⟨S1600000x4, .i1⟩
  | 99 => ⟨S_, .f32⟩
  | 100 => ⟨S1600000x4, .f32⟩
  | 101 => ⟨S1600000x4, .f32⟩
  | 102 => ⟨S16x4, .f32⟩
  | 103 => ⟨S1x16x1x4, .f32⟩
  | 104 => ⟨S32x16x32x4, .f32⟩
  | 105 => ⟨S512x128, .f32⟩
  | 106 => ⟨S512x128, .i32⟩
  | 107 => ⟨S_, .i32⟩
  | 108 => ⟨S_, .i32⟩
  | 109 => ⟨S512x128, .i32⟩
  | 110 => ⟨S512x128, .i32⟩
  | 111 => ⟨S512x128, .i32⟩
  | 112 => ⟨S_, .i32⟩
  | 113 => ⟨S512x128, .i32⟩
  | 114 => ⟨S512x128, .i1⟩
  | 115 => ⟨S512x128, .i32⟩
  | 116 => ⟨S512x128, .i32⟩
  | 117 => ⟨S_, .i32⟩
  | 118 => ⟨S512x128, .i32⟩
  | 119 => ⟨S512x128, .i1⟩
  | 120 => ⟨S512x128, .i1⟩
  | 121 => ⟨S_, .i32⟩
  | 122 => ⟨S512x128, .i32⟩
  | 123 => ⟨S512x128, .i32⟩
  | 124 => ⟨S512x128, .i32⟩
  | 125 => ⟨S512x128, .i32⟩
  | 126 => ⟨S_, .i32⟩
  | 127 => ⟨S_, .i32⟩
  | _ => ⟨S100000x128, .f32⟩

abbrev hbmTy0_1 (i : Nat) : BufTy := match i % 128 with
  | 0 => ⟨S512x128, .i32⟩
  | 1 => ⟨S512x128, .i32⟩
  | 2 => ⟨S512x128, .i32⟩
  | 3 => ⟨S_, .i32⟩
  | 4 => ⟨S512x128, .i32⟩
  | 5 => ⟨S512x128, .i1⟩
  | 6 => ⟨S512x128, .i32⟩
  | 7 => ⟨S512x128, .i32⟩
  | 8 => ⟨S_, .i32⟩
  | 9 => ⟨S512x128, .i32⟩
  | 10 => ⟨S512x128, .i1⟩
  | 11 => ⟨S512x128, .i1⟩
  | 12 => ⟨S_, .i32⟩
  | 13 => ⟨S512x128, .i32⟩
  | 14 => ⟨S512x128, .i32⟩
  | 15 => ⟨S512x128, .i32⟩
  | 16 => ⟨S512x128, .i1⟩
  | 17 => ⟨S_, .f32⟩
  | 18 => ⟨S_, .f32⟩
  | 19 => ⟨S512x128, .f32⟩
  | 20 => ⟨S512x128, .f32⟩
  | 21 => ⟨S50000x512, .f32⟩
  | 22 => ⟨S50000x128, .f32⟩
  | 23 => ⟨S50000x128, .f32⟩
  | 24 => ⟨S50000x128, .f32⟩
  | 25 => ⟨S1600000x4, .f32⟩
  | 26 => ⟨S_, .f32⟩
  | 27 => ⟨S_, .f32⟩
  | 28 => ⟨S1600000x4, .f32⟩
  | 29 => ⟨S1600000x4, .f32⟩
  | 30 => ⟨S1600000x4, .f32⟩
  | 31 => ⟨S_, .f32⟩
  | 32 => ⟨S100000x4, .f32⟩
  | 33 => ⟨S1600000x1, .i32⟩
  | 34 => ⟨S100000x4, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1, .i32⟩
  | 44 => ⟨S_, .i32⟩
  | 45 => ⟨S1600000x1, .i32⟩
  | 46 => ⟨S1600000x1, .i1⟩
  | 47 => ⟨S1x1, .i32⟩
  | 48 => ⟨S1600000x1, .i32⟩
  | 49 => ⟨S1600000x1, .i1⟩
  | 50 => ⟨S1600000x1, .i1⟩
  | 51 => ⟨S_, .i1⟩
  | 52 => ⟨S1600000, .i1⟩
  | 53 => ⟨S1600000x4, .f32⟩
  | 54 => ⟨S1600000x4, .i1⟩
  | 55 => ⟨S_, .f32⟩
  | 56 => ⟨S1600000x4, .f32⟩
  | 57 => ⟨S1600000x4, .f32⟩
  | 58 => ⟨S_, .f32⟩
  | 59 => ⟨S1600000x4, .f32⟩
  | 60 => ⟨S1600000x4, .f32⟩
  | 61 => ⟨S1600000x4, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1, .i32⟩
  | 71 => ⟨S_, .i32⟩
  | 72 => ⟨S1600000x1, .i32⟩
  | 73 => ⟨S1600000x1, .i1⟩
  | 74 => ⟨S1x1, .i32⟩
  | 75 => ⟨S1600000x1, .i32⟩
  | 76 => ⟨S1600000x1, .i1⟩
  | 77 => ⟨S1600000x1, .i1⟩
  | 78 => ⟨S_, .i1⟩
  | 79 => ⟨S1600000, .i1⟩
  | 80 => ⟨S1600000x64, .f32⟩
  | 81 => ⟨S1600000x64, .i1⟩
  | 82 => ⟨S_, .f32⟩
  | 83 => ⟨S1600000x64, .f32⟩
  | 84 => ⟨S1600000x64, .f32⟩
  | 85 => ⟨S1600000x4x16, .f32⟩
  | 86 => ⟨S1600000x4x1, .f32⟩
  | 87 => ⟨S1600000x4x16, .f32⟩
  | 88 => ⟨S1600000x4x16, .f32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S50000x128, .f32⟩
  | 95 => ⟨S128, .f32⟩
  | 96 => ⟨S1x128, .f32⟩
  | 97 => ⟨S50000x128, .f32⟩
  | 98 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S64x8, .f32⟩
  | .local _ .vmem, ⟨4, _⟩ => ⟨S5000x64, .f32⟩
  | .local _ .vmem, ⟨5, _⟩ => ⟨S5000x64, .f32⟩
  | .local _ .vmem, ⟨6, _⟩ => ⟨S5000x8, .f32⟩
  | .local _ .vmem, ⟨7, _⟩ => ⟨S5000x8, .f32⟩
  | .local _ .vmem, ⟨8, _⟩ => ⟨S2000x512, .f32⟩
  | .local _ .vmem, ⟨9, _⟩ => ⟨S2000x512, .f32⟩
  | .local _ .vmem, ⟨10, _⟩ => ⟨S512x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v15 : Ref sig .tc := ⟨.hbm, 44, rfl⟩
abbrev main_v16 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v17 : Ref sig .tc := ⟨.hbm, 50, rfl⟩
abbrev main_v18 : Ref sig .tc := ⟨.hbm, 51, rfl⟩
abbrev main_v19_0 : Ref sig .tc := ⟨.hbm, 52, rfl⟩
abbrev main_v19_1 : Ref sig .tc := ⟨.hbm, 53, rfl⟩
abbrev main_v20 : Ref sig .tc := ⟨.hbm, 54, rfl⟩
abbrev main_v21 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_c_2 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_3 : Ref sig .tc := ⟨.hbm, 72, rfl⟩
abbrev main_call3_v12 : Ref sig .tc := ⟨.hbm, 73, rfl⟩
abbrev main_call3_v13 : Ref sig .tc := ⟨.hbm, 74, rfl⟩
abbrev main_call3_v14 : Ref sig .tc := ⟨.hbm, 75, rfl⟩
abbrev main_call3_cst : Ref sig .tc := ⟨.hbm, 76, rfl⟩
abbrev main_call3_v15 : Ref sig .tc := ⟨.hbm, 77, rfl⟩
abbrev main_v22 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_v14 : Ref sig .tc := ⟨.hbm, 98, rfl⟩
abbrev main_call4_cst : Ref sig .tc := ⟨.hbm, 99, rfl⟩
abbrev main_call4_v15 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_c_1 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_call5_v5 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_c : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_call5_c_0 : Ref sig .tc := ⟨.hbm, 121, rfl⟩
abbrev main_call5_v12 : Ref sig .tc := ⟨.hbm, 122, rfl⟩
abbrev main_call5_v13 : Ref sig .tc := ⟨.hbm, 123, rfl⟩
abbrev main_v29 : Ref sig .tc := ⟨.hbm, 124, rfl⟩
abbrev main_v30 : Ref sig .tc := ⟨.hbm, 125, rfl⟩
abbrev main_c_2 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_v6 : Ref sig .tc := ⟨.hbm, 133, rfl⟩
abbrev main_call6_v7 : Ref sig .tc := ⟨.hbm, 134, rfl⟩
abbrev main_call6_v8 : Ref sig .tc := ⟨.hbm, 135, rfl⟩
abbrev main_call6_c : Ref sig .tc := ⟨.hbm, 136, rfl⟩
abbrev main_call6_v9 : Ref sig .tc := ⟨.hbm, 137, rfl⟩
abbrev main_call6_v10 : Ref sig .tc := ⟨.hbm, 138, rfl⟩
abbrev main_call6_v11 : Ref sig .tc := ⟨.hbm, 139, rfl⟩
abbrev main_call6_c_0 : Ref sig .tc := ⟨.hbm, 140, rfl⟩
abbrev main_call6_v12 : Ref sig .tc := ⟨.hbm, 141, rfl⟩
abbrev main_call6_v13 : Ref sig .tc := ⟨.hbm, 142, rfl⟩
abbrev main_v31 : Ref sig .tc := ⟨.hbm, 143, rfl⟩
abbrev main_v32 : Ref sig .tc := ⟨.hbm, 144, rfl⟩
abbrev main_cst_3 : Ref sig .tc := ⟨.hbm, 145, rfl⟩
abbrev main_call7_v0 : Ref sig .tc := ⟨.hbm, 146, rfl⟩
abbrev main_call7_v1 : Ref sig .tc := ⟨.hbm, 147, rfl⟩
abbrev main_v33 : Ref sig .tc := ⟨.hbm, 148, rfl⟩
abbrev main_v34 : Ref sig .tc := ⟨.hbm, 149, rfl⟩
abbrev main_v35 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_cst_4 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_cst_5 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_call8_c : Ref sig .tc := ⟨.hbm, 163, rfl⟩
abbrev main_call8_v0 : Ref sig .tc := ⟨.hbm, 164, rfl⟩
abbrev main_call8_v1 : Ref sig .tc := ⟨.hbm, 165, rfl⟩
abbrev main_call8_c_0 : Ref sig .tc := ⟨.hbm, 166, rfl⟩
abbrev main_call8_v2 : Ref sig .tc := ⟨.hbm, 167, rfl⟩
abbrev main_call8_v3 : Ref sig .tc := ⟨.hbm, 168, rfl⟩
abbrev main_call8_v4 : Ref sig .tc := ⟨.hbm, 169, rfl⟩
abbrev main_call8_v5 : Ref sig .tc := ⟨.hbm, 170, rfl⟩
abbrev main_call8_c_1 : Ref sig .tc := ⟨.hbm, 171, rfl⟩
abbrev main_call8_c_2 : Ref sig .tc := ⟨.hbm, 172, rfl⟩
abbrev main_call8_v6 : Ref sig .tc := ⟨.hbm, 173, rfl⟩
abbrev main_call8_v7 : Ref sig .tc := ⟨.hbm, 174, rfl⟩
abbrev main_call8_v8 : Ref sig .tc := ⟨.hbm, 175, rfl⟩
abbrev main_call8_v9 : Ref sig .tc := ⟨.hbm, 176, rfl⟩
abbrev main_call8_v10 : Ref sig .tc := ⟨.hbm, 177, rfl⟩
abbrev main_call8_v11 : Ref sig .tc := ⟨.hbm, 178, rfl⟩
abbrev main_call8_c_3 : Ref sig .tc := ⟨.hbm, 179, rfl⟩
abbrev main_call8_v12 : Ref sig .tc := ⟨.hbm, 180, rfl⟩
abbrev main_call8_v13 : Ref sig .tc := ⟨.hbm, 181, rfl⟩
abbrev main_call8_v14 : Ref sig .tc := ⟨.hbm, 182, rfl⟩
abbrev main_call8_cst : Ref sig .tc := ⟨.hbm, 183, rfl⟩
abbrev main_call8_v15 : Ref sig .tc := ⟨.hbm, 184, rfl⟩
abbrev main_v46 : Ref sig .tc := ⟨.hbm, 185, rfl⟩
abbrev main_cst_6 : Ref sig .tc := ⟨.hbm, 186, rfl⟩
abbrev main_v47 : Ref sig .tc := ⟨.hbm, 187, rfl⟩
abbrev main_v48 : Ref sig .tc := ⟨.hbm, 188, rfl⟩
abbrev main_v49 : Ref sig .tc := ⟨.hbm, 189, rfl⟩
abbrev main_call9_c : Ref sig .tc := ⟨.hbm, 190, rfl⟩
abbrev main_call9_v0 : Ref sig .tc := ⟨.hbm, 191, rfl⟩
abbrev main_call9_v1 : Ref sig .tc := ⟨.hbm, 192, rfl⟩
abbrev main_call9_c_0 : Ref sig .tc := ⟨.hbm, 193, rfl⟩
abbrev main_call9_v2 : Ref sig .tc := ⟨.hbm, 194, rfl⟩
abbrev main_call9_v3 : Ref sig .tc := ⟨.hbm, 195, rfl⟩
abbrev main_call9_v4 : Ref sig .tc := ⟨.hbm, 196, rfl⟩
abbrev main_call9_v5 : Ref sig .tc := ⟨.hbm, 197, rfl⟩
abbrev main_call9_c_1 : Ref sig .tc := ⟨.hbm, 198, rfl⟩
abbrev main_call9_c_2 : Ref sig .tc := ⟨.hbm, 199, rfl⟩
abbrev main_call9_v6 : Ref sig .tc := ⟨.hbm, 200, rfl⟩
abbrev main_call9_v7 : Ref sig .tc := ⟨.hbm, 201, rfl⟩
abbrev main_call9_v8 : Ref sig .tc := ⟨.hbm, 202, rfl⟩
abbrev main_call9_v9 : Ref sig .tc := ⟨.hbm, 203, rfl⟩
abbrev main_call9_v10 : Ref sig .tc := ⟨.hbm, 204, rfl⟩
abbrev main_call9_v11 : Ref sig .tc := ⟨.hbm, 205, rfl⟩
abbrev main_call9_c_3 : Ref sig .tc := ⟨.hbm, 206, rfl⟩
abbrev main_call9_v12 : Ref sig .tc := ⟨.hbm, 207, rfl⟩
abbrev main_call9_v13 : Ref sig .tc := ⟨.hbm, 208, rfl⟩
abbrev main_call9_v14 : Ref sig .tc := ⟨.hbm, 209, rfl⟩
abbrev main_call9_cst : Ref sig .tc := ⟨.hbm, 210, rfl⟩
abbrev main_call9_v15 : Ref sig .tc := ⟨.hbm, 211, rfl⟩
abbrev main_v50 : Ref sig .tc := ⟨.hbm, 212, rfl⟩
abbrev main_v51 : Ref sig .tc := ⟨.hbm, 213, rfl⟩
abbrev main_v52 : Ref sig .tc := ⟨.hbm, 214, rfl⟩
abbrev main_v53 : Ref sig .tc := ⟨.hbm, 215, rfl⟩
abbrev main_v54 : Ref sig .tc := ⟨.hbm, 216, rfl⟩
abbrev main_v55 : Ref sig .tc := ⟨.hbm, 217, rfl⟩
abbrev main_cst_7 : Ref sig .tc := ⟨.hbm, 218, rfl⟩
abbrev main_v56 : Ref sig .tc := ⟨.hbm, 219, rfl⟩
abbrev main_v57 : Ref sig .tc := ⟨.hbm, 220, rfl⟩
abbrev main_v58 : Ref sig .tc := ⟨.hbm, 221, rfl⟩
abbrev main_v59 : Ref sig .tc := ⟨.hbm, 222, rfl⟩
abbrev main_v60 : Ref sig .tc := ⟨.hbm, 223, rfl⟩
abbrev main_v61 : Ref sig .tc := ⟨.hbm, 224, rfl⟩
abbrev main_v62 : Ref sig .tc := ⟨.hbm, 225, rfl⟩
abbrev main_v63 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S64 : S_.BroadcastsInDim S64 (![] : Fin 0 → Fin S64.rank)
  shapeCasts_S1x4x16_S64 : S1x4x16.ShapeCasts S64
  bcast_S64_S64x1_0 : S64.BroadcastsInDim S64x1 (![0] : Fin 1 → Fin S64x1.rank)
  bcast_S4_S1x4_1 : S4.BroadcastsInDim S1x4 (![1] : Fin 1 → Fin S1x4.rank)
  bcast_S64x1_S64x4_0_1 : S64x1.BroadcastsInDim S64x4 (![0, 1] : Fin 2 → Fin S64x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  concatenates_S64x4_S64x4_S64x8_d1 : Shape.Concatenates [S64x4, S64x4] S64x8 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S5000x64_S5000x64_0_0 : ∀ a, (![0, 0] : Fin 2 → Nat) a + S5000x64.size a ≤ S5000x64.size a
  h_S5000x64 : 0 < S5000x64.numel
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S5000x8_S5000x8_0_0 : ∀ a, (![0, 0] : Fin 2 → Nat) a + S5000x8.size a ≤ S5000x8.size a
  h_S5000x8 : 0 < S5000x8.numel
  slices_S100000x8_S100000x4_0_0 : S100000x8.Slices ![0, 0] S100000x4
  slices_S100000x8_S100000x4_0_4 : S100000x8.Slices ![0, 4] S100000x4
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x4_0 : S1600000.BroadcastsInDim S1600000x4 (![0] : Fin 1 → Fin S1600000x4.rank)
  bcast_S_S1600000x4 : S_.BroadcastsInDim S1600000x4 (![] : Fin 0 → Fin S1600000x4.rank)
  transposes_S4x16_S16x4_1_0 : S4x16.Transposes [1, 0] S16x4
  shapeCasts_S16x4_S1x16x1x4 : S16x4.ShapeCasts S1x16x1x4
  bcast_S1x16x1x4_S32x16x32x4_0_1_2_3 : S1x16x1x4.BroadcastsInDim S32x16x32x4 (![0, 1, 2, 3] : Fin 4 → Fin S32x16x32x4.rank)
  shapeCasts_S32x16x32x4_S512x128 : S32x16x32x4.ShapeCasts S512x128
  bcast_S_S512x128 : S_.BroadcastsInDim S512x128 (![] : Fin 0 → Fin S512x128.rank)
  shapeCasts_S1600000x16_S50000x512 : S1600000x16.ShapeCasts S50000x512
  shapeCasts_S1600000x4_S50000x128 : S1600000x4.ShapeCasts S50000x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S50000x128_S1600000x4 : S50000x128.ShapeCasts S1600000x4
  reducesTo_S1600000x4_S_d0_1 : S1600000x4.ReducesTo [0, 1] S_
  bcast_S_S100000x4 : S_.BroadcastsInDim S100000x4 (![] : Fin 0 → Fin S100000x4.rank)
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S1600000x64_S1600000x4x16 : S1600000x64.ShapeCasts S1600000x4x16
  bcast_S1600000x4_S1600000x4x1_0_1 : S1600000x4.BroadcastsInDim S1600000x4x1 (![0, 1] : Fin 2 → Fin S1600000x4x1.rank)
  bcast_S1600000x4x1_S1600000x4x16_0_1_2 : S1600000x4x1.BroadcastsInDim S1600000x4x16 (![0, 1, 2] : Fin 3 → Fin S1600000x4x16.rank)
  shapeCasts_S1600000x4x16_S1600000x64 : S1600000x4x16.ShapeCasts S1600000x64
  bcast_S_S100000x64 : S_.BroadcastsInDim S100000x64 (![] : Fin 0 → Fin S100000x64.rank)
  shapeCasts_S100000x64_S50000x128 : S100000x64.ShapeCasts S50000x128
  concatenates_S64_S64_S128_d0 : Shape.Concatenates [S64, S64] S128 0
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  dot_S5000x128_S128x64_S5000x64_1_0_0_1_n_n_wf : DotDims.WF S5000x128 S128x64 S5000x64 [1] [0] [0] [1] [] []
  dot_S5000x64_S64x8_S5000x8_1_0_0_1_n_n_wf : DotDims.WF S5000x64 S64x8 S5000x8 [1] [0] [0] [1] [] []
  gather_S100000x4_S1600000x1_S1600000x4_1_0_n_n_0_1_14_wf : GatherDims.WF S100000x4 S1600000x1 S1600000x4 [1] [0] [] [0] [] 1 ![1, 4]
  dot_S2000x512_S512x128_S2000x128_1_0_0_1_n_n_wf : DotDims.WF S2000x512 S512x128 S2000x128 [1] [0] [0] [1] [] []
  scatter_S100000x4_S1600000x1_S1600000x4_1_0_0_1_wf : ScatterDims.WF S100000x4 S1600000x1 S1600000x4 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S64x8.size a
  hwx0_2 : ∀ i : grid0.Coords, EltTy.bits .f32 = 32 ∨ (Rect.block (s := S64x8) S64x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x8.size a ≤ S100000x8.size a
  hwx0_4 : ∀ i : grid0.Coords, EltTy.bits .f32 = 32 ∨ (Rect.block (s := S100000x8) S5000x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S5000x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v34) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v37) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S64x128 : Shape := ⟨2, ![64, 128]⟩
abbrev S4x16 : Shape := ⟨2, ![4, 16]⟩
abbrev S1x4x16 : Shape := ⟨3, ![1, 4, 16]⟩
abbrev S64 : Shape := ⟨1, ![64]⟩
abbrev S128x64 : Shape := ⟨2, ![128, 64]⟩
abbrev S100000x64 : Shape := ⟨2, ![100000, 64]⟩
abbrev S100000x4x16 : Shape := ⟨3, ![100000, 4, 16]⟩
abbrev S1x1600000 : Shape := ⟨2, ![1, 1600000]⟩
abbrev S1600000 : Shape := ⟨1, ![1600000]⟩
abbrev S_ : Shape := ⟨0, ![]⟩
abbrev S100000x4 : Shape := ⟨2, ![100000, 4]⟩
abbrev S1600000x1 : Shape := ⟨2, ![1600000, 1]⟩
abbrev S1600000x4 : Shape := ⟨2, ![1600000, 4]⟩
abbrev S16x4 : Shape := ⟨2, ![16, 4]⟩
abbrev S1600000x4x16 : Shape := ⟨3, ![1600000, 4, 16]⟩
abbrev S1600000x4x1 : Shape := ⟨3, ![1600000, 4, 1]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S64x128, .f32⟩
  | .hbm, ⟨4, _⟩ => ⟨S4x16, .f32⟩
  | .hbm, ⟨5, _⟩ => ⟨S1x4x16, .f32⟩
  | .hbm, ⟨6, _⟩ => ⟨S1x4x16, .f32⟩
  | .hbm, ⟨7, _⟩ => ⟨S64, .f32⟩
  | .hbm, ⟨8, _⟩ => ⟨S128x64, .f32⟩
  | .hbm, ⟨9, _⟩ => ⟨S100000x64, .f32⟩
  | .hbm, ⟨10, _⟩ => ⟨S100000x4x16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x4x16, .f32⟩
  | .hbm, ⟨16, _⟩ => ⟨S100000x4x16, .f32⟩
  | .hbm, ⟨17, _⟩ => ⟨S_, .f32⟩
  | .hbm, ⟨18, _⟩ => ⟨S100000x4, .f32⟩
  | .hbm, ⟨19, _⟩ => ⟨S100000x4x16, .f32⟩
  | .hbm, ⟨20, _⟩ => ⟨S100000x4x16, .f32⟩
  | .hbm, ⟨21, _⟩ => ⟨S_, .f32⟩
  | .hbm, ⟨22, _⟩ => ⟨S100000x4, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x4, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x4, .f32⟩
  | .hbm, ⟨41, _⟩ => ⟨S1600000x4, .f32⟩
  | .hbm, ⟨42, _⟩ => ⟨S16x4, .f32⟩
  | .hbm, ⟨43, _⟩ => ⟨S1600000x4, .f32⟩
  | .hbm, ⟨44, _⟩ => ⟨S1600000x4, .f32⟩
  | .hbm, ⟨45, _⟩ => ⟨S_, .f32⟩
  | .hbm, ⟨46, _⟩ => ⟨S_, .f32⟩
  | .hbm, ⟨47, _⟩ => ⟨S1600000x4, .f32⟩
  | .hbm, ⟨48, _⟩ => ⟨S1600000x4, .i1⟩
  | .hbm, ⟨49, _⟩ => ⟨S_, .f32⟩
  | .hbm, ⟨50, _⟩ => ⟨S1600000x4, .f32⟩
  | .hbm, ⟨51, _⟩ => ⟨S1600000x4, .f32⟩
  | .hbm, ⟨52, _⟩ => ⟨S1600000x4, .f32⟩
  | .hbm, ⟨53, _⟩ => ⟨S_, .f32⟩
  | .hbm, ⟨54, _⟩ => ⟨S_, .f32⟩
  | .hbm, ⟨55, _⟩ => ⟨S1600000x4, .f32⟩
  | .hbm, ⟨56, _⟩ => ⟨S1600000x4, .f32⟩
  | .hbm, ⟨57, _⟩ => ⟨S1600000x4, .f32⟩
  | .hbm, ⟨58, _⟩ => ⟨S_, .f32⟩
  | .hbm, ⟨59, _⟩ => ⟨S100000x4, .f32⟩
  | .hbm, ⟨60, _⟩ => ⟨S1600000x1, .i32⟩
  | .hbm, ⟨61, _⟩ => ⟨S100000x4, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x4, .f32⟩
  | .hbm, ⟨71, _⟩ => ⟨S_, .f32⟩
  | .hbm, ⟨72, _⟩ => ⟨S1600000x4, .f32⟩
  | .hbm, ⟨73, _⟩ => ⟨S1600000x4, .f32⟩
  | .hbm, ⟨74, _⟩ => ⟨S1600000x4, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x4x16, .f32⟩
  | .hbm, ⟨84, _⟩ => ⟨S1600000x4x1, .f32⟩
  | .hbm, ⟨85, _⟩ => ⟨S1600000x4x16, .f32⟩
  | .hbm, ⟨86, _⟩ => ⟨S1600000x4x16, .f32⟩
  | .hbm, ⟨87, _⟩ => ⟨S_, .f32⟩
  | .hbm, ⟨88, _⟩ => ⟨S100000x4x16, .f32⟩
  | .hbm, ⟨89, _⟩ => ⟨S1600000x1, .i32⟩
  | .hbm, ⟨90, _⟩ => ⟨S100000x4x16, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .i1⟩
  | .hbm, ⟨98, _⟩ => ⟨S_, .f32⟩
  | .hbm, ⟨99, _⟩ => ⟨S100000x64, .f32⟩
  | .hbm, ⟨100, _⟩ => ⟨S100000x64, .i1⟩
  | .hbm, ⟨101, _⟩ => ⟨S_, .f32⟩
  | .hbm, ⟨102, _⟩ => ⟨S_, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S100000x64, .f32⟩
  | .hbm, ⟨108, _⟩ => ⟨S100000x64, .f32⟩
  | .hbm, ⟨109, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_cst_1 : Ref sig .tc := ⟨.hbm, 101, rfl⟩
abbrev main_call1_call0_v0 : Ref sig .tc := ⟨.hbm, 102, rfl⟩
abbrev main_call1_call0_v1 : Ref sig .tc := ⟨.hbm, 103, rfl⟩
abbrev main_call1_v4 : Ref sig .tc := ⟨.hbm, 104, rfl⟩
abbrev main_call1_v5 : Ref sig .tc := ⟨.hbm, 105, rfl⟩
abbrev main_call1_cst_2 : Ref sig .tc := ⟨.hbm, 106, rfl⟩
abbrev main_call1_v6 : Ref sig .tc := ⟨.hbm, 107, rfl⟩
abbrev main_call1_v7 : Ref sig .tc := ⟨.hbm, 108, rfl⟩
abbrev main_v66 : Ref sig .tc := ⟨.hbm, 109, rfl⟩

abbrev nD : Nat := 1
abbrev τ : Topo := Topo.v7x

variable {F : FTy → Type} [FloatOps F]

class Facts₀ : Prop where
  transposes_S64x128_S128x64_1_0 : S64x128.Transposes [1, 0] S128x64
  shapeCasts_S100000x64_S100000x4x16 : S100000x64.ShapeCasts S100000x4x16
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1x4x16_S100000x4x16_0_1_2 : S1x4x16.BroadcastsInDim S100000x4x16 (![0, 1, 2] : Fin 3 → Fin S100000x4x16.rank)
  reducesTo_S100000x4x16_S100000x4_d2 : S100000x4x16.ReducesTo [2] S100000x4
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S4x16_S16x4_1_0 : S4x16.Transposes [1, 0] S16x4
  bcast_S_S1600000x4 : S_.BroadcastsInDim S1600000x4 (![] : Fin 0 → Fin S1600000x4.rank)
  reducesTo_S1600000x4_S_d0_1 : S1600000x4.ReducesTo [0, 1] S_
  bcast_S_S100000x4 : S_.BroadcastsInDim S100000x4 (![] : Fin 0 → Fin S100000x4.rank)
  bcast_S1600000x4_S1600000x4x1_0_1 : S1600000x4.BroadcastsInDim S1600000x4x1 (![0, 1] : Fin 2 → Fin S1600000x4x1.rank)
  bcast_S1600000x4x1_S1600000x4x16_0_1_2 : S1600000x4x1.BroadcastsInDim S1600000x4x16 (![0, 1, 2] : Fin 3 → Fin S1600000x4x16.rank)
  bcast_S_S100000x4x16 : S_.BroadcastsInDim S100000x4x16 (![] : Fin 0 → Fin S100000x4x16.rank)
  shapeCasts_S100000x4x16_S100000x64 : S100000x4x16.ShapeCasts S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x4_S1600000x1_S1600000x4_1_0_n_n_0_1_14_wf : GatherDims.WF S100000x4 S1600000x1 S1600000x4 [1] [0] [] [0] [] 1 ![1, 4]
  dot_S1600000x16_S16x4_S1600000x4_1_0_0_1_n_n_wf : DotDims.WF S1600000x16 S16x4 S1600000x4 [1] [0] [0] [1] [] []
  scatter_S100000x4_S1600000x1_S1600000x4_1_0_0_1_wf : ScatterDims.WF S100000x4 S1600000x1 S1600000x4 [1] [0] [0] 1
  gather_S100000x4x16_S1600000x1_S1600000x4x16_12_0_n_n_0_1_1416_wf : GatherDims.WF S100000x4x16 S1600000x1 S1600000x4x16 [1, 2] [0] [] [0] [] 1 ![1, 4, 16]
  scatter_S100000x4x16_S1600000x1_S1600000x4x16_12_0_0_1_wf : ScatterDims.WF S100000x4x16 S1600000x1 S1600000x4x16 [1, 2] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def dot_S1600000x16_S16x4_S1600000x4_1_0_0_1_n_n : DotDims S1600000x16 S16x4 S1600000x4 where
  lhsContracting := [1]
  rhsContracting := [0]
  lhsNonContracting := [0]
  rhsNonContracting := [1]
  lhsBatch := []
  rhsBatch := []
  wf := dot_S1600000x16_S16x4_S1600000x4_1_0_0_1_n_n_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x4x16_S1600000x1_S1600000x4x16_12_0_n_n_0_1_1416 : GatherDims S100000x4x16 S1600000x1 S1600000x4x16 where
  offsetDims := [1, 2]
  collapsedSliceDims := [0]
  operandBatchingDims := []
  startIndicesBatchingDims := []
  startIndexMap := [0]
  indexVectorDim := 1
  sliceSizes := ![1, 4, 16]
  wf := gather_S100000x4x16_S1600000x1_S1600000x4x16_12_0_n_n_0_1_1416_wf
def scatter_S100000x4x16_S1600000x1_S1600000x4x16_12_0_0_1 : ScatterDims S100000x4x16 S1600000x1 S1600000x4x16 where
  updateWindowDims := [1, 2]
  insertedWindowDims := [0]
  scatterDimsToOperandDims := [0]
  indexVectorDim := 1
  wf := scatter_S100000x4x16_S1600000x1_S1600000x4x16_12_0_0_1_wf

class Facts : Prop extends Facts₀ where

variable [Facts]
-- ==== Proof.KHost.lean ====
/-
  The host side of the kernel's program, stage by stage. Each definition is the composition of the operations
  @main prints for that stage, as a function of the arrays the stage reads — the edge index split into source
  and destination nodes; the (64, 8) selector that carries both attention vectors; jnp's `take` along axis 0
  (negative wrap, range mask, gather, fill); the block-diagonal (512, 128) copy of the edge weights; the lane-dense
  reshapes; the softmax over each destination's incoming edges (global shift, exponential, segment sum, gather,
  quotient); the weighted messages and their segment sum; the doubled bias row. Stated at any float family.
-/
import proofs.«430437_j45698452029991_2_alg».proof.KernelIdeal

noncomputable section

namespace Cert.KHost

open Idealize.ShloMosaic Cert.KernelIdeal Cert.KernelIdeal.Facts₀ Cert.KernelIdeal.Facts

variable {F : FTy → Type} [FloatOps F] [Cert.KernelIdeal.Facts]

/-- Row 0 of the edge index: each edge's source node. -/
def src (ei : IVec S2x1600000 32) : IVec S1600000 32 :=
  shapeCast S1600000 (extractStridedSlice S1x1600000 ![0, 0] ei slices_S2x1600000_S1x1600000_0_0) shapeCasts_S1x1600000_S1600000

/-- Row 1 of the edge index: each edge's destination node. -/
def dst (ei : IVec S2x1600000 32) : IVec S1600000 32 :=
  shapeCast S1600000 (extractStridedSlice S1x1600000 ![1, 0] ei slices_S2x1600000_S1x1600000_1_0) shapeCasts_S1x1600000_S1600000

/-- jnp's `a // b` on 32-bit words, `b` a scalar: the truncated quotient, less one where the signs differ and the
    remainder is not zero. -/
def floorDiv (S : Shape) (hb : S_.BroadcastsInDim S (![] : Fin 0 → Fin S.rank)) (a : IVec S 32) (b : IVec S_ 32) : IVec S 32 :=
  select
    (andi (cmpi .ne (signi a) (broadcastInDim S ![] hb (signi b)))
          (cmpi .ne (Host.remsi a (broadcastInDim S ![] hb b)) (broadcastInDim S ![] hb (constantI S_ 32 0#32))))
    (subi (Host.divsi a (broadcastInDim S ![] hb b)) (broadcastInDim S ![] hb (constantI S_ 32 1#32)))
    (Host.divsi a (broadcastInDim S ![] hb b))

/-- One attention vector laid out as a (64, 4) selector: entry (c, h) is the vector's weight at channel c when
    channel c belongs to head h (c // 16 = h), zero otherwise. -/
def attCols (att : FVec F S1x4x16 .f32) : FVec F S64x4 .f32 :=
  select
    (cmpi .eq
      (broadcastInDim S64x4 ![0, 1] bcast_S64x1_S64x4_0_1 (broadcastInDim S64x1 ![0] bcast_S64_S64x1_0
        (floorDiv S64 bcast_S_S64 (iotaInDim S64 32 0) (constantI S_ 32 16#32))))
      (broadcastInDim S64x4 ![0, 1] bcast_S1x4_S64x4_0_1 (broadcastInDim S1x4 ![1] bcast_S4_S1x4_1 (iotaInDim S4 32 0))))
    (broadcastInDim S64x4 ![0, 1] bcast_S64x1_S64x4_0_1 (broadcastInDim S64x1 ![0] bcast_S64_S64x1_0
      (shapeCast S64 att shapeCasts_S1x4x16_S64)))
    (broadcastInDim S64x4 ![] bcast_S_S64x4 (constant S_ .f32 0x00000000#32))

/-- The (64, 8) selector: the source vector's four columns, then the destination vector's. -/
def mComb (asrc adst : FVec F S1x4x16 .f32) : FVec F S64x8 .f32 :=
  concatenate S64x8 1 [⟨S64x4, attCols asrc⟩, ⟨S64x4, attCols adst⟩] concatenates_S64x4_S64x4_S64x8_d1

/-- Columns 0 … 3 of the merged attention scalars: the source side. -/
def aSrc (ac : FVec F S100000x8 .f32) : FVec F S100000x4 .f32 :=
  extractStridedSlice S100000x4 ![0, 0] ac slices_S100000x8_S100000x4_0_0

/-- Columns 4 … 7 of the merged attention scalars: the destination side. -/
def aDst (ac : FVec F S100000x8 .f32) : FVec F S100000x4 .f32 :=
  extractStridedSlice S100000x4 ![0, 4] ac slices_S100000x8_S100000x4_0_4

/-- An index vector after jnp's negative wrap (i < 0 ↦ i + 100000), as a column of start indices. -/
def wrapCol (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- Whether each wrapped index lies in [0, 99999]: `take`'s fill mask. -/
def inRange (i : IVec S1600000 32) : IVec S1600000 1 :=
  Host.reduce IntOp.andi
    (andi (cmpi .sge (wrapCol i) (broadcastInDim S1600000x1 ![] bcast_S_S1600000x1 (constantI S_ 32 0#32)))
          (cmpi .sle (wrapCol i) (broadcastInDim S1600000x1 ![0, 1] bcast_S1x1_S1600000x1_0_1
            (broadcastInDim S1x1 ![1] bcast_S1_S1x1_1 (constantI S1 32 99999#32)))))
    (constantI S_ 1 1#1) reducesTo_S1600000x1_S1600000_d1 h_S_

/-- jnp's `take(x, i, axis=0)` of a (100000, 4) table: the gathered rows where the index is in range, the NaN word elsewhere. -/
def take4 (x : FVec F S100000x4 .f32) (i : IVec S1600000 32) : FVec F S1600000x4 .f32 :=
  select (broadcastInDim S1600000x4 ![0] bcast_S1600000_S1600000x4_0 (inRange i))
    (Host.gather gather_S100000x4_S1600000x1_S1600000x4_1_0_n_n_0_1_14 x (wrapCol i))
    (broadcastInDim S1600000x4 ![] bcast_S_S1600000x4 (constant S_ .f32 0x7FC00000#32))

/-- jnp's `take(x, i, axis=0)` of a (100000, 64) table. -/
def take64 (x : FVec F S100000x64 .f32) (i : IVec S1600000 32) : FVec F S1600000x64 .f32 :=
  select (broadcastInDim S1600000x64 ![0] bcast_S1600000_S1600000x64_0 (inRange i))
    (Host.gather gather_S100000x64_S1600000x1_S1600000x64_1_0_n_n_0_1_164 x (wrapCol i))
    (broadcastInDim S1600000x64 ![] bcast_S_S1600000x64 (constant S_ .f32 0x7FC00000#32))

/-- The (512, 128) block-diagonal matrix: entry (r, c) is W_edge[c mod 4, r mod 16] on the diagonal blocks
    (r // 16 = c // 4), zero elsewhere. -/
def wBlock (we : FVec F S4x16 .f32) : FVec F S512x128 .f32 :=
  select
    (cmpi .eq (floorDiv S512x128 bcast_S_S512x128 (iotaInDim S512x128 32 0) (constantI S_ 32 16#32))
              (floorDiv S512x128 bcast_S_S512x128 (iotaInDim S512x128 32 1) (constantI S_ 32 4#32)))
    (shapeCast S512x128 (broadcastInDim S32x16x32x4 ![0, 1, 2, 3] bcast_S1x16x1x4_S32x16x32x4_0_1_2_3
        (shapeCast S1x16x1x4 (transpose S16x4 [1, 0] we transposes_S4x16_S16x4_1_0) shapeCasts_S16x4_S1x16x1x4))
      shapeCasts_S32x16x32x4_S512x128)
    (broadcastInDim S512x128 ![] bcast_S_S512x128 (constant S_ .f32 0x00000000#32))

/-- The edge attributes with 32 edges per row. -/
def eaRows (ea : FVec F S1600000x16 .f32) : FVec F S50000x512 .f32 := shapeCast S50000x512 ea shapeCasts_S1600000x16_S50000x512

/-- A per-edge, per-head array with 32 edges per row. -/
def lanes (g : FVec F S1600000x4 .f32) : FVec F S50000x128 .f32 := shapeCast S50000x128 g shapeCasts_S1600000x4_S50000x128

/-- Back from 32 edges per row to one edge per row. -/
def unlanes (e : FVec F S50000x128 .f32) : FVec F S1600000x4 .f32 := shapeCast S1600000x4 e shapeCasts_S50000x128_S1600000x4

/-- The logits shifted by their global maximum, exponentiated. -/
def expShift (e : FVec F S1600000x4 .f32) : FVec F S1600000x4 .f32 :=
  Host.exp (subf e (broadcastInDim S1600000x4 ![] bcast_S_S1600000x4
    (Host.reduce FloatOps.maximumf e (constant S_ .f32 0xFF800000#32) reducesTo_S1600000x4_S_d0_1 h_S_)))

/-- The destination nodes as a column of scatter indices. -/
def dstCol (d : IVec S1600000 32) : IVec S1600000x1 32 := broadcastInDim S1600000x1 ![0] bcast_S1600000_S1600000x1_0 d

/-- Per node and head, the sum of the exponentials over the node's incoming edges. -/
def den (ex : FVec F S1600000x4 .f32) (d : IVec S1600000 32) : FVec F S100000x4 .f32 :=
  Host.scatterAdd scatter_S100000x4_S1600000x1_S1600000x4_1_0_0_1
    (broadcastInDim S100000x4 ![] bcast_S_S100000x4 (constant S_ .f32 0x00000000#32)) (dstCol d) ex

/-- The attention weights: each edge's exponential over its destination's sum plus 1e-9. -/
def alpha (e : FVec F S1600000x4 .f32) (d : IVec S1600000 32) : FVec F S1600000x4 .f32 :=
  Host.divf (expShift e) (addf (take4 (den (expShift e) d) d)
    (broadcastInDim S1600000x4 ![] bcast_S_S1600000x4 (constant S_ .f32 0x3089705F#32)))

/-- Per node, the sum over its incoming edges of the source's features weighted head by head. -/
def out (wh : FVec F S100000x64 .f32) (al : FVec F S1600000x4 .f32) (s d : IVec S1600000 32) : FVec F S100000x64 .f32 :=
  Host.scatterAdd scatter_S100000x64_S1600000x1_S1600000x64_1_0_0_1
    (broadcastInDim S100000x64 ![] bcast_S_S100000x64 (constant S_ .f32 0x00000000#32)) (dstCol d)
    (shapeCast S1600000x64
      (mulf (shapeCast S1600000x4x16 (take64 wh s) shapeCasts_S1600000x64_S1600000x4x16)
        (broadcastInDim S1600000x4x16 ![0, 1, 2] bcast_S1600000x4x1_S1600000x4x16_0_1_2
          (broadcastInDim S1600000x4x1 ![0, 1] bcast_S1600000x4_S1600000x4x1_0_1 al)))
      shapeCasts_S1600000x4x16_S1600000x64)

/-- The node features with two nodes per row. -/
def outRows (o : FVec F S100000x64 .f32) : FVec F S50000x128 .f32 := shapeCast S50000x128 o shapeCasts_S100000x64_S50000x128

/-- The bias twice over, as one row of 128. -/
def bias2 (b : FVec F S64 .f32) : FVec F S1x128 .f32 :=
  shapeCast S1x128 (concatenate S128 0 [⟨S64, b⟩, ⟨S64, b⟩] concatenates_S64_S64_S128_d0) shapeCasts_S128_S1x128

/-- Back from two nodes per row to one node per row. -/
def unrows (r : FVec F S50000x128 .f32) : FVec F S100000x64 .f32 := shapeCast S100000x64 r shapeCasts_S50000x128_S100000x64

/-- The kernel program's result as one function of its eight arguments, given what its three pallas_calls compute as
    whole-array functions: `wh` and `ac` (the node transform's two outputs, of x, W_node and the selector), `er` (the
    edge logits, 32 edges per row, of the edge attributes, the block-diagonal weights and the two gathered scalars) and
    `rr` (the final activation, two nodes per row, of the aggregated features and the doubled bias). -/
def kval
    (wh : FVec F S100000x128 .f32 → FVec F S64x128 .f32 → FVec F S100000x64 .f32)
    (ac : FVec F S100000x128 .f32 → FVec F S64x128 .f32 → FVec F S64x8 .f32 → FVec F S100000x8 .f32)
    (er : FVec F S50000x512 .f32 → FVec F S512x128 .f32 → FVec F S50000x128 .f32 → FVec F S50000x128 .f32 → FVec F S50000x128 .f32)
    (rr : FVec F S50000x128 .f32 → FVec F S1x128 .f32 → FVec F S50000x128 .f32)
    (x : FVec F S100000x128 .f32) (ei : IVec S2x1600000 32) (ea : FVec F S1600000x16 .f32) (wn : FVec F S64x128 .f32)
    (we : FVec F S4x16 .f32) (asrc adst : FVec F S1x4x16 .f32) (b : FVec F S64 .f32) : FVec F S100000x64 .f32 :=
  unrows (rr (outRows (out (wh x wn)
    (alpha (unlanes (er (eaRows ea) (wBlock we)
      (lanes (take4 (aSrc (ac x wn (mComb asrc adst))) (src ei)))
      (lanes (take4 (aDst (ac x wn (mComb asrc adst))) (dst ei))))) (dst ei))
    (src ei) (dst ei))) (bias2 b))

end Cert.KHost

end
-- ==== Proof.KFoldA.lean ====
/-
  The buffer contents when the second pallas_call is entered, for the buffers the rest of the run reads: the fold of
  @main's host stretches and its first pallas_call from the launch memory, read buffer by buffer. Each host stretch
  is the composition of the operations it lists, so a buffer it writes holds that composition of the stretch's input
  buffers, and a buffer it does not write holds what it held before; the first pallas_call leaves its two output
  arrays at what it computes (the hypotheses `h03`, `h04`: whole-array functions of its three input arrays) and
  every other buffer as entered. Walking each buffer back to the launch memory gives it as a stage of the host side
  (`Cert.KHost`) applied to the program's arguments.
-/
import proofs.«430437_j45698452029991_2_alg».proof.Proof.KernelIdealFrame
import proofs.«430437_j45698452029991_2_alg».proof.Proof.KHost

set_option Elab.async false

noncomputable section

namespace Cert.KFoldA

open Idealize.ShloMosaic Idealize.ShloMosaic.TcCoe
open Cert.KernelIdeal Cert.KernelIdeal.Gen

variable {F : FTy → Type} [FloatOps F] [Cert.KernelIdeal.Facts]
variable (m : (ℓ : Loc nD τ sig) → Buf (Elt F) ℓ) (ρ : Dev nD → PrngReg)

/-- A stretch none of whose operations writes the buffer `b` leaves it as it was: every operation's one written
    reference differs from `b`. -/
local macro "unwritten% " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- A run of stretches none of which writes `b`: the steps chained, the latest stretch first. -/
local syntax "walk% " "[" ident,+ "]" ident : term
macro_rules
  | `(walk% [$o:ident] $b:ident) => `(unwritten% $o $b)
  | `(walk% [$o:ident, $os:ident,*] $b:ident) => `(Eq.trans (unwritten% $o $b) (walk% [$os,*] $b))

/-- Inside an outlined function every value is moved to its buffer's type and back; at a literal buffer both moves
    are along an equation of a type with itself, so each is the identity: first the outermost, then every one
    inside it. -/
local macro "drop_moves" : tactic =>
  `(tactic| (refine (cast_eq _ _).trans ?_; repeat rw [cast_eq]))

/-! ## The host stretches, each over an arbitrary valuation and arbitrary input arrays

A stretch's fold at a buffer it writes is the composition of its operations applied to what the stretch's input
buffers held; with the inputs as variables that composition is, by unfolding, the stage of the host side named on the
right. -/

section Stretches

variable (V : Valuation τ sig (Elt F))

/-- The first stretch: row 0 of the edge index, flattened. -/
theorem s0_v1 (ei : IVec S2x1600000 32) (h : V (Proc.devRef .tc main_arg1) = ei) :
    StableHlo.after hostOps0 V (Proc.devRef .tc main_v1) = KHost.src ei := by
  subst h; after_results_simp; rfl

/-- The first stretch: row 1 of the edge index, flattened. -/
theorem s0_v3 (ei : IVec S2x1600000 32) (h : V (Proc.devRef .tc main_arg1) = ei) :
    StableHlo.after hostOps0 V (Proc.devRef .tc main_v3) = KHost.dst ei := by
  subst h; after_results_simp; rfl

/-- The first stretch: the channel numbers 0 … 63. -/
theorem s0_v4 : StableHlo.after hostOps0 V (Proc.devRef .tc main_v4) = iotaInDim S64 32 0 := by
  after_results_simp

/-- The first stretch: the head size 16. -/
theorem s0_c : StableHlo.after hostOps0 V (Proc.devRef .tc main_c) = constantI S_ 32 16#32 := by
  after_results_simp

/-- The floored quotient of 64 words by a scalar. -/
theorem s0_1_v5 (a : IVec S64 32) (b : IVec S_ 32)
    (ha : V (Proc.devRef .tc main_v4) = a) (hb : V (Proc.devRef .tc main_c) = b) :
    StableHlo.after hostOps0_1 V (Proc.devRef .tc main_v5)
      = KHost.floorDiv S64 bcast_S_S64 a b := by
  subst ha hb
  after_results_simp
  simp only [StableHlo.TRef.ofBuf, StableHlo.TRef.toBuf, cast_cast]
  have e0 : ((.of main_v4 : StableHlo.TRef sig ⟨S64, .i32⟩)).ofBuf (V (Proc.devRef .tc main_v4)) = V (Proc.devRef .tc main_v4) := rfl
  have e1 : ((.of main_c : StableHlo.TRef sig ⟨S_, .i32⟩)).ofBuf (V (Proc.devRef .tc main_c)) = V (Proc.devRef .tc main_c) := rfl
  simp only [StableHlo.TRef.ofBuf] at e0 e1
  rw [e0, e1]
  clear e0 e1
  drop_moves
  unfold KHost.floorDiv
  simp only [id_eq] <;> with_reducible rfl

/-- The third stretch: whether channel c belongs to head h, each channel's head against the head numbers 0 … 3. -/
theorem s0_2_v13 (q : IVec S64 32) (h : V (Proc.devRef .tc main_v5) = q) :
    StableHlo.after hostOps0_2 V (Proc.devRef .tc main_v13)
      = cmpi .eq (broadcastInDim S64x4 ![0, 1] bcast_S64x1_S64x4_0_1 (broadcastInDim S64x1 ![0] bcast_S64_S64x1_0 q))
          (broadcastInDim S64x4 ![0, 1] bcast_S1x4_S64x4_0_1 (broadcastInDim S1x4 ![1] bcast_S4_S1x4_1 (iotaInDim S4 32 0))) := by
  subst h; after_results_simp

/-- The third stretch: the source attention vector as a column of 64 channel weights. -/
theorem s0_2_v14 (att : FVec F S1x4x16 .f32) (h : V (Proc.devRef .tc main_arg5) = att) :
    StableHlo.after hostOps0_2 V (Proc.devRef .tc main_v14)
      = broadcastInDim S64x1 ![0] bcast_S64_S64x1_0 (shapeCast S64 att shapeCasts_S1x4x16_S64) := by
  subst h; after_results_simp; rfl

/-- The third stretch: the destination attention vector as 64 channel weights. -/
theorem s0_2_v8 (att : FVec F S1x4x16 .f32) (h : V (Proc.devRef .tc main_arg6) = att) :
    StableHlo.after hostOps0_2 V (Proc.devRef .tc main_v8) = shapeCast S64 att shapeCasts_S1x4x16_S64 := by
  subst h; after_results_simp; rfl

/-- The third stretch: the zero the selector holds off its heads. -/
theorem s0_2_cst : StableHlo.after hostOps0_2 V (Proc.devRef .tc main_cst) = constant S_ .f32 0x00000000#32 := by
  after_results_simp

/-- The first `where`: a column's weights where the mask holds, the scalar elsewhere. -/
theorem s0_3_v15 (k : IVec S64x4 1) (col : FVec F S64x1 .f32) (z : FVec F S_ .f32)
    (hk : V (Proc.devRef .tc main_v13) = k) (hcol : V (Proc.devRef .tc main_v14) = col) (hz : V (Proc.devRef .tc main_cst) = z) :
    StableHlo.after hostOps0_3 V (Proc.devRef .tc main_v15)
      = select k (broadcastInDim S64x4 ![0, 1] bcast_S64x1_S64x4_0_1 col) (broadcastInDim S64x4 ![] bcast_S_S64x4 z) := by
  subst hk hcol hz
  after_results_simp
  simp only [StableHlo.TRef.ofBuf, StableHlo.TRef.toBuf, cast_cast]
  have e0 : ((.of main_v13 : StableHlo.TRef sig ⟨S64x4, .i1⟩)).ofBuf (V (Proc.devRef .tc main_v13)) = V (Proc.devRef .tc main_v13) := rfl
  have e1 : ((.of main_v14 : StableHlo.TRef sig ⟨S64x1, .f32⟩)).ofBuf (V (Proc.devRef .tc main_v14)) = V (Proc.devRef .tc main_v14) := rfl
  have e2 : ((.of main_cst : StableHlo.TRef sig ⟨S_, .f32⟩)).ofBuf (V (Proc.devRef .tc main_cst)) = V (Proc.devRef .tc main_cst) := rfl
  simp only [StableHlo.TRef.ofBuf] at e0 e1 e2
  rw [e0, e1, e2]
  clear e0 e1 e2
  drop_moves
  simp only [id_eq] <;> with_reducible rfl

/-- The fifth stretch: the destination attention vector as a column of 64 channel weights. -/
theorem s0_4_v16 (w : FVec F S64 .f32) (h : V (Proc.devRef .tc main_v8) = w) :
    StableHlo.after hostOps0_4 V (Proc.devRef .tc main_v16) = broadcastInDim S64x1 ![0] bcast_S64_S64x1_0 w := by
  subst h; after_results_simp

/-- The fifth stretch: the second zero. -/
theorem s0_4_cst_0 : StableHlo.after hostOps0_4 V (Proc.devRef .tc main_cst_0) = constant S_ .f32 0x00000000#32 := by
  after_results_simp

/-- The second `where`. -/
theorem s0_5_v17 (k : IVec S64x4 1) (col : FVec F S64x1 .f32) (z : FVec F S_ .f32)
    (hk : V (Proc.devRef .tc main_v13) = k) (hcol : V (Proc.devRef .tc main_v16) = col) (hz : V (Proc.devRef .tc main_cst_0) = z) :
    StableHlo.after hostOps0_5 V (Proc.devRef .tc main_v17)
      = select k (broadcastInDim S64x4 ![0, 1] bcast_S64x1_S64x4_0_1 col) (broadcastInDim S64x4 ![] bcast_S_S64x4 z) := by
  subst hk hcol hz
  after_results_simp
  simp only [StableHlo.TRef.ofBuf, StableHlo.TRef.toBuf, cast_cast]
  have e0 : ((.of main_v13 : StableHlo.TRef sig ⟨S64x4, .i1⟩)).ofBuf (V (Proc.devRef .tc main_v13)) = V (Proc.devRef .tc main_v13) := rfl
  have e1 : ((.of main_v16 : StableHlo.TRef sig ⟨S64x1, .f32⟩)).ofBuf (V (Proc.devRef .tc main_v16)) = V (Proc.devRef .tc main_v16) := rfl
  have e2 : ((.of main_cst_0 : StableHlo.TRef sig ⟨S_, .f32⟩)).ofBuf (V (Proc.devRef .tc main_cst_0)) = V (Proc.devRef .tc main_cst_0) := rfl
  simp only [StableHlo.TRef.ofBuf] at e0 e1 e2
  rw [e0, e1, e2]
  clear e0 e1 e2
  drop_moves
  simp only [id_eq] <;> with_reducible rfl

/-- The seventh stretch: the two halves of the selector side by side. -/
theorem s0_6_v18 (p q : FVec F S64x4 .f32) (hp : V (Proc.devRef .tc main_v15) = p) (hq : V (Proc.devRef .tc main_v17) = q) :
    StableHlo.after hostOps0_6 V (Proc.devRef .tc main_v18)
      = concatenate S64x8 1 [⟨S64x4, p⟩, ⟨S64x4, q⟩] concatenates_S64x4_S64x4_S64x8_d1 := by
  subst hp hq; after_results_simp

/-- The eighth stretch: columns 0 … 3 of the merged attention scalars. -/
theorem s1_v20 (a : FVec F S100000x8 .f32) (h : V (Proc.devRef .tc main_v19_1) = a) :
    StableHlo.after hostOps1 V (Proc.devRef .tc main_v20) = KHost.aSrc a := by
  subst h; after_results_simp; rfl

/-- The eighth stretch: columns 4 … 7 of the merged attention scalars. -/
theorem s1_v21 (a : FVec F S100000x8 .f32) (h : V (Proc.devRef .tc main_v19_1) = a) :
    StableHlo.after hostOps1 V (Proc.devRef .tc main_v21) = KHost.aDst a := by
  subst h; after_results_simp; rfl

set_option maxHeartbeats 400000 in
/-- The first gather: `take` of a (100000, 4) table along axis 0 (the negative wrap, the range mask, the gather, the fill). -/
theorem s1_1_v22 (x : FVec F S100000x4 .f32) (i : IVec S1600000 32)
    (hx : V (Proc.devRef .tc main_v20) = x) (hi : V (Proc.devRef .tc main_v1) = i) :
    StableHlo.after hostOps1_1 V (Proc.devRef .tc main_v22)
      = KHost.take4 x i := by
  subst hx hi
  after_results_simp
  simp only [StableHlo.TRef.ofBuf, StableHlo.TRef.toBuf, cast_cast]
  have e0 : ((.of main_v20 : StableHlo.TRef sig ⟨S100000x4, .f32⟩)).ofBuf (V (Proc.devRef .tc main_v20)) = V (Proc.devRef .tc main_v20) := rfl
  have e1 : ((.of main_v1 : StableHlo.TRef sig ⟨S1600000, .i32⟩)).ofBuf (V (Proc.devRef .tc main_v1)) = V (Proc.devRef .tc main_v1) := rfl
  simp only [StableHlo.TRef.ofBuf] at e0 e1
  rw [e0, e1]
  clear e0 e1
  drop_moves
  unfold KHost.take4 KHost.inRange KHost.wrapCol
  simp only [id_eq] <;> with_reducible rfl

set_option maxHeartbeats 400000 in
/-- The second gather. -/
theorem s1_2_v23 (x : FVec F S100000x4 .f32) (i : IVec S1600000 32)
    (hx : V (Proc.devRef .tc main_v21) = x) (hi : V (Proc.devRef .tc main_v3) = i) :
    StableHlo.after hostOps1_2 V (Proc.devRef .tc main_v23)
      = KHost.take4 x i := by
  subst hx hi
  after_results_simp
  simp only [StableHlo.TRef.ofBuf, StableHlo.TRef.toBuf, cast_cast]
  have e0 : ((.of main_v21 : StableHlo.TRef sig ⟨S100000x4, .f32⟩)).ofBuf (V (Proc.devRef .tc main_v21)) = V (Proc.devRef .tc main_v21) := rfl
  have e1 : ((.of main_v3 : StableHlo.TRef sig ⟨S1600000, .i32⟩)).ofBuf (V (Proc.devRef .tc main_v3)) = V (Proc.devRef .tc main_v3) := rfl
  simp only [StableHlo.TRef.ofBuf] at e0 e1
  rw [e0, e1]
  clear e0 e1
  drop_moves
  unfold KHost.take4 KHost.inRange KHost.wrapCol
  simp only [id_eq] <;> with_reducible rfl

/-- The eleventh stretch: the edge weights transposed and repeated over the 32 × 32 blocks. -/
theorem s1_3_v27 (we : FVec F S4x16 .f32) (h : V (Proc.devRef .tc main_arg4) = we) :
    StableHlo.after hostOps1_3 V (Proc.devRef .tc main_v27)
      = shapeCast S512x128 (broadcastInDim S32x16x32x4 ![0, 1, 2, 3] bcast_S1x16x1x4_S32x16x32x4_0_1_2_3
          (shapeCast S1x16x1x4 (transpose S16x4 [1, 0] we transposes_S4x16_S16x4_1_0) shapeCasts_S16x4_S1x16x1x4))
        shapeCasts_S32x16x32x4_S512x128 := by
  subst h; after_results_simp; rfl

/-- The eleventh stretch: the row numbers of the (512, 128) matrix. -/
theorem s1_3_v28 : StableHlo.after hostOps1_3 V (Proc.devRef .tc main_v28) = iotaInDim S512x128 32 0 := by
  after_results_simp

/-- The eleventh stretch: the row block size 16. -/
theorem s1_3_c_1 : StableHlo.after hostOps1_3 V (Proc.devRef .tc main_c_1) = constantI S_ 32 16#32 := by
  after_results_simp

/-- The floored quotient of the (512, 128) row numbers by a scalar. -/
theorem s1_4_v29 (a : IVec S512x128 32) (b : IVec S_ 32)
    (ha : V (Proc.devRef .tc main_v28) = a) (hb : V (Proc.devRef .tc main_c_1) = b) :
    StableHlo.after hostOps1_4 V (Proc.devRef .tc main_v29)
      = KHost.floorDiv S512x128 bcast_S_S512x128 a b := by
  subst ha hb
  after_results_simp
  simp only [StableHlo.TRef.ofBuf, StableHlo.TRef.toBuf, cast_cast]
  have e0 : ((.of main_v28 : StableHlo.TRef sig ⟨S512x128, .i32⟩)).ofBuf (V (Proc.devRef .tc main_v28)) = V (Proc.devRef .tc main_v28) := rfl
  have e1 : ((.of main_c_1 : StableHlo.TRef sig ⟨S_, .i32⟩)).ofBuf (V (Proc.devRef .tc main_c_1)) = V (Proc.devRef .tc main_c_1) := rfl
  simp only [StableHlo.TRef.ofBuf] at e0 e1
  rw [e0, e1]
  clear e0 e1
  drop_moves
  unfold KHost.floorDiv
  simp only [id_eq] <;> with_reducible rfl

/-- The thirteenth stretch: the column numbers of the (512, 128) matrix. -/
theorem s1_5_v30 : StableHlo.after hostOps1_5 V (Proc.devRef .tc main_v30) = iotaInDim S512x128 32 1 := by
  after_results_simp

/-- The thirteenth stretch: the column block size 4. -/
theorem s1_5_c_2 : StableHlo.after hostOps1_5 V (Proc.devRef .tc main_c_2) = constantI S_ 32 4#32 := by
  after_results_simp

/-- The floored quotient of the (512, 128) column numbers by a scalar. -/
theorem s1_6_v31 (a : IVec S512x128 32) (b : IVec S_ 32)
    (ha : V (Proc.devRef .tc main_v30) = a) (hb : V (Proc.devRef .tc main_c_2) = b) :
    StableHlo.after hostOps1_6 V (Proc.devRef .tc main_v31)
      = KHost.floorDiv S512x128 bcast_S_S512x128 a b := by
  subst ha hb
  after_results_simp
  simp only [StableHlo.TRef.ofBuf, StableHlo.TRef.toBuf, cast_cast]
  have e0 : ((.of main_v30 : StableHlo.TRef sig ⟨S512x128, .i32⟩)).ofBuf (V (Proc.devRef .tc main_v30)) = V (Proc.devRef .tc main_v30) := rfl
  have e1 : ((.of main_c_2 : StableHlo.TRef sig ⟨S_, .i32⟩)).ofBuf (V (Proc.devRef .tc main_c_2)) = V (Proc.devRef .tc main_c_2) := rfl
  simp only [StableHlo.TRef.ofBuf] at e0 e1
  rw [e0, e1]
  clear e0 e1
  drop_moves
  unfold KHost.floorDiv
  simp only [id_eq] <;> with_reducible rfl

/-- The fifteenth stretch: whether the row block is the column block. -/
theorem s1_7_v32 (p q : IVec S512x128 32) (hp : V (Proc.devRef .tc main_v29) = p) (hq : V (Proc.devRef .tc main_v31) = q) :
    StableHlo.after hostOps1_7 V (Proc.devRef .tc main_v32) = cmpi .eq p q := by
  subst hp hq; after_results_simp

/-- The fifteenth stretch: the zero off the diagonal blocks. -/
theorem s1_7_cst_3 : StableHlo.after hostOps1_7 V (Proc.devRef .tc main_cst_3) = constant S_ .f32 0x00000000#32 := by
  after_results_simp

/-- The last `where`: the repeated weights on the diagonal blocks, the scalar elsewhere. -/
theorem s1_8_v33 (k : IVec S512x128 1) (r : FVec F S512x128 .f32) (z : FVec F S_ .f32)
    (hk : V (Proc.devRef .tc main_v32) = k) (hr : V (Proc.devRef .tc main_v27) = r) (hz : V (Proc.devRef .tc main_cst_3) = z) :
    StableHlo.after hostOps1_8 V (Proc.devRef .tc main_v33)
      = select k r (broadcastInDim S512x128 ![] bcast_S_S512x128 z) := by
  subst hk hr hz
  after_results_simp
  simp only [StableHlo.TRef.ofBuf, StableHlo.TRef.toBuf, cast_cast]
  have e0 : ((.of main_v32 : StableHlo.TRef sig ⟨S512x128, .i1⟩)).ofBuf (V (Proc.devRef .tc main_v32)) = V (Proc.devRef .tc main_v32) := rfl
  have e1 : ((.of main_v27 : StableHlo.TRef sig ⟨S512x128, .f32⟩)).ofBuf (V (Proc.devRef .tc main_v27)) = V (Proc.devRef .tc main_v27) := rfl
  have e2 : ((.of main_cst_3 : StableHlo.TRef sig ⟨S_, .f32⟩)).ofBuf (V (Proc.devRef .tc main_cst_3)) = V (Proc.devRef .tc main_cst_3) := rfl
  simp only [StableHlo.TRef.ofBuf] at e0 e1 e2
  rw [e0, e1, e2]
  clear e0 e1 e2
  drop_moves
  simp only [id_eq] <;> with_reducible rfl

/-- The last stretch before the second pallas_call: the edge attributes, 32 edges per row. -/
theorem s1_9_v34 (ea : FVec F S1600000x16 .f32) (h : V (Proc.devRef .tc main_arg2) = ea) :
    StableHlo.after hostOps1_9 V (Proc.devRef .tc main_v34) = KHost.eaRows ea := by
  subst h; after_results_simp; rfl

/-- The last stretch before the second pallas_call: the first gather's result, 32 edges per row. -/
theorem s1_9_v35 (g : FVec F S1600000x4 .f32) (h : V (Proc.devRef .tc main_v22) = g) :
    StableHlo.after hostOps1_9 V (Proc.devRef .tc main_v35) = KHost.lanes g := by
  subst h; after_results_simp; rfl

/-- The last stretch before the second pallas_call: the second gather's result, 32 edges per row. -/
theorem s1_9_v36 (g : FVec F S1600000x4 .f32) (h : V (Proc.devRef .tc main_v23) = g) :
    StableHlo.after hostOps1_9 V (Proc.devRef .tc main_v36) = KHost.lanes g := by
  subst h; after_results_simp; rfl

end Stretches

/-! ## The fold from the launch memory to the second pallas_call's entry, buffer by buffer -/

section Fold

variable (c : Dev nD)

set_option quotPrecheck false

local notation "aX" => m ((c : Thread nD τ).loc main_arg0)
local notation "aEI" => m ((c : Thread nD τ).loc main_arg1)
local notation "aEA" => m ((c : Thread nD τ).loc main_arg2)
local notation "aWN" => m ((c : Thread nD τ).loc main_arg3)
local notation "aWE" => m ((c : Thread nD τ).loc main_arg4)
local notation "aAS" => m ((c : Thread nD τ).loc main_arg5)
local notation "aAD" => m ((c : Thread nD τ).loc main_arg6)
local notation "aB" => m ((c : Thread nD τ).loc main_arg7)

/-! ### The edge index split -/

/-- After the first stretch `main_v1` holds each edge's source node. -/
theorem W1_v1 : Gen.W1 m ρ c (Proc.devRef .tc main_v1) = KHost.src aEI := s0_v1 _ _ rfl

/-- After the first stretch `main_v3` holds each edge's destination node. -/
theorem W1_v3 : Gen.W1 m ρ c (Proc.devRef .tc main_v3) = KHost.dst aEI := s0_v3 _ _ rfl

/-! ### The selector of the two attention vectors (stretches 1 … 7) -/

/-- After the floored-division stretch `main_v5` holds each channel's head, c // 16. -/
theorem W2_v5 : Gen.W2 m ρ c (Proc.devRef .tc main_v5)
    = KHost.floorDiv S64 bcast_S_S64 (iotaInDim S64 32 0) (constantI S_ 32 16#32) :=
  s0_1_v5 _ _ _ (s0_v4 _) (s0_c _)

/-- Neither of the first two stretches writes the source attention vector. -/
theorem W2_arg5 : Gen.W2 m ρ c (Proc.devRef .tc main_arg5) = aAS :=
  walk% [hostOps0_1, hostOps0] main_arg5

/-- Neither of the first two stretches writes the destination attention vector. -/
theorem W2_arg6 : Gen.W2 m ρ c (Proc.devRef .tc main_arg6) = aAD :=
  walk% [hostOps0_1, hostOps0] main_arg6

/-- The head mask: entry (c, h) says whether channel c belongs to head h, c // 16 = h. -/
def headMask : IVec S64x4 1 :=
  cmpi .eq
    (broadcastInDim S64x4 ![0, 1] bcast_S64x1_S64x4_0_1 (broadcastInDim S64x1 ![0] bcast_S64_S64x1_0
      (KHost.floorDiv S64 bcast_S_S64 (iotaInDim S64 32 0) (constantI S_ 32 16#32))))
    (broadcastInDim S64x4 ![0, 1] bcast_S1x4_S64x4_0_1 (broadcastInDim S1x4 ![1] bcast_S4_S1x4_1 (iotaInDim S4 32 0)))

/-- The third stretch leaves the head mask in `main_v13`. -/
theorem W3_v13 : Gen.W3 m ρ c (Proc.devRef .tc main_v13) = headMask := s0_2_v13 _ _ (W2_v5 m ρ c)

/-- The first `where`: the source vector's four columns of the selector. -/
theorem W4_v15 : Gen.W4 m ρ c (Proc.devRef .tc main_v15) = KHost.attCols aAS :=
  s0_3_v15 _ _ _ _ (W3_v13 m ρ c) (s0_2_v14 _ _ (W2_arg5 m ρ c)) (s0_2_cst _)

/-- The first `where` leaves the destination vector's channel weights alone. -/
theorem W4_v8 : Gen.W4 m ρ c (Proc.devRef .tc main_v8) = shapeCast S64 aAD shapeCasts_S1x4x16_S64 :=
  (walk% [hostOps0_3] main_v8).trans (s0_2_v8 _ _ (W2_arg6 m ρ c))

/-- The head mask is still there when the second `where` reads it. -/
theorem W5_v13 : Gen.W5 m ρ c (Proc.devRef .tc main_v13) = headMask :=
  (walk% [hostOps0_4, hostOps0_3] main_v13).trans (W3_v13 m ρ c)

/-- The second `where`: the destination vector's four columns of the selector. -/
theorem W6_v17 : Gen.W6 m ρ c (Proc.devRef .tc main_v17) = KHost.attCols aAD :=
  s0_5_v17 _ _ _ _ (W5_v13 m ρ c) (s0_4_v16 _ _ (W4_v8 m ρ c)) (s0_4_cst_0 _)

/-- The source columns are still there when the two halves are joined. -/
theorem W6_v15 : Gen.W6 m ρ c (Proc.devRef .tc main_v15) = KHost.attCols aAS :=
  (walk% [hostOps0_5, hostOps0_4] main_v15).trans (W4_v15 m ρ c)

/-- When the first pallas_call is entered `main_v18` holds the (64, 8) selector of the two attention vectors. -/
theorem W7_v18 : Gen.W7 m ρ c (Proc.devRef .tc main_v18) = KHost.mComb aAS aAD :=
  s0_6_v18 _ _ _ (W6_v15 m ρ c) (W6_v17 m ρ c)

/-- No host operation before the first pallas_call writes the node features. -/
theorem W7_arg0 : Gen.W7 m ρ c (Proc.devRef .tc main_arg0) = aX :=
  walk% [hostOps0_6, hostOps0_5, hostOps0_4, hostOps0_3, hostOps0_2, hostOps0_1, hostOps0] main_arg0

/-- No host operation before the first pallas_call writes the node weights. -/
theorem W7_arg3 : Gen.W7 m ρ c (Proc.devRef .tc main_arg3) = aWN :=
  walk% [hostOps0_6, hostOps0_5, hostOps0_4, hostOps0_3, hostOps0_2, hostOps0_1, hostOps0] main_arg3

/-! ### The first pallas_call: its two output arrays -/

variable (wh : FVec F S100000x128 .f32 → FVec F S64x128 .f32 → FVec F S100000x64 .f32)
  (ac : FVec F S100000x128 .f32 → FVec F S64x128 .f32 → FVec F S64x8 .f32 → FVec F S100000x8 .f32)
  (h03 : ∀ (V : (c : Dev nD) → (b : Ref sig .tc) → Buf (Elt F) ((c : Thread nD τ).loc b)) (c : Dev nD),
    (Gen.dat0 V c).arrAt 3 cfg0.N = wh (V c main_arg0) (V c main_arg3))
  (h04 : ∀ (V : (c : Dev nD) → (b : Ref sig .tc) → Buf (Elt F) ((c : Thread nD τ).loc b)) (c : Dev nD),
    (Gen.dat0 V c).arrAt 4 cfg0.N = ac (V c main_arg0) (V c main_arg3) (V c main_v18))

local notation "aAC" => ac aX aWN (KHost.mComb aAS aAD)

include h03 in
/-- The first pallas_call leaves the transformed node features in `main_v19_0`. -/
theorem W8_v19_0 : Gen.W8 m ρ c (Proc.devRef .tc main_v19_0) = wh aX aWN := by
  have h := (Gen.W8_arr m ρ c 3).trans (h03 (Gen.V7 m ρ) c)
  rw [show Gen.V7 m ρ c main_arg0 = aX from W7_arg0 m ρ c,
    show Gen.V7 m ρ c main_arg3 = aWN from W7_arg3 m ρ c] at h
  exact h

include h04 in
/-- The first pallas_call leaves the merged attention scalars in `main_v19_1`. -/
theorem W8_v19_1 : Gen.W8 m ρ c (Proc.devRef .tc main_v19_1) = aAC := by
  have h := (Gen.W8_arr m ρ c 4).trans (h04 (Gen.V7 m ρ) c)
  rw [show Gen.V7 m ρ c main_arg0 = aX from W7_arg0 m ρ c,
    show Gen.V7 m ρ c main_arg3 = aWN from W7_arg3 m ρ c,
    show Gen.V7 m ρ c main_v18 = KHost.mComb aAS aAD from W7_v18 m ρ c] at h
  exact h

/-! ### The two gathers of the attention scalars (stretches 8 … 10) -/

/-- The source nodes are still in `main_v1` when the first gather reads them: no stretch since the first writes
    them, and they are no array of the first pallas_call. -/
theorem W9_v1 : Gen.W9 m ρ c (Proc.devRef .tc main_v1) = KHost.src aEI :=
  (walk% [hostOps1] main_v1).trans <| (Gen.W8_of_ne m ρ c main_v1 (by decide)).trans <|
    (walk% [hostOps0_6, hostOps0_5, hostOps0_4, hostOps0_3, hostOps0_2, hostOps0_1] main_v1).trans (W1_v1 m ρ c)

include h04 in
/-- The first gather: the source scalars at each edge's source node. -/
theorem W10_v22 : Gen.W10 m ρ c (Proc.devRef .tc main_v22) = KHost.take4 (KHost.aSrc aAC) (KHost.src aEI) :=
  s1_1_v22 _ _ _ (s1_v20 _ _ (W8_v19_1 m ρ c ac h04)) (W9_v1 m ρ c)

include h04 in
/-- The first gather leaves the destination scalars alone. -/
theorem W10_v21 : Gen.W10 m ρ c (Proc.devRef .tc main_v21) = KHost.aDst aAC :=
  (walk% [hostOps1_1] main_v21).trans (s1_v21 _ _ (W8_v19_1 m ρ c ac h04))

/-- The destination nodes are still in `main_v3` when the second gather reads them. -/
theorem W10_v3 : Gen.W10 m ρ c (Proc.devRef .tc main_v3) = KHost.dst aEI :=
  (walk% [hostOps1_1, hostOps1] main_v3).trans <| (Gen.W8_of_ne m ρ c main_v3 (by decide)).trans <|
    (walk% [hostOps0_6, hostOps0_5, hostOps0_4, hostOps0_3, hostOps0_2, hostOps0_1] main_v3).trans (W1_v3 m ρ c)

include h04 in
/-- The second gather: the destination scalars at each edge's destination node. -/
theorem W11_v23 : Gen.W11 m ρ c (Proc.devRef .tc main_v23) = KHost.take4 (KHost.aDst aAC) (KHost.dst aEI) :=
  s1_2_v23 _ _ _ (W10_v21 m ρ c ac h04) (W10_v3 m ρ c)

/-! ### The block-diagonal edge weights (stretches 11 … 16) -/

/-- The edge weights are as launched when the block-diagonal copy is built. -/
theorem W11_arg4 : Gen.W11 m ρ c (Proc.devRef .tc main_arg4) = aWE :=
  (walk% [hostOps1_2, hostOps1_1, hostOps1] main_arg4).trans <| (Gen.W8_of_ne m ρ c main_arg4 (by decide)).trans <|
    walk% [hostOps0_6, hostOps0_5, hostOps0_4, hostOps0_3, hostOps0_2, hostOps0_1, hostOps0] main_arg4

/-- The edge weights transposed and repeated over the 32 × 32 blocks. -/
def weRep (we : FVec F S4x16 .f32) : FVec F S512x128 .f32 :=
  shapeCast S512x128 (broadcastInDim S32x16x32x4 ![0, 1, 2, 3] bcast_S1x16x1x4_S32x16x32x4_0_1_2_3
      (shapeCast S1x16x1x4 (transpose S16x4 [1, 0] we transposes_S4x16_S16x4_1_0) shapeCasts_S16x4_S1x16x1x4))
    shapeCasts_S32x16x32x4_S512x128

/-- The eleventh stretch leaves the repeated weights in `main_v27`. -/
theorem W12_v27 : Gen.W12 m ρ c (Proc.devRef .tc main_v27) = weRep aWE := s1_3_v27 _ _ (W11_arg4 m ρ c)

/-- Each row's block, r // 16. -/
theorem W13_v29 : Gen.W13 m ρ c (Proc.devRef .tc main_v29)
    = KHost.floorDiv S512x128 bcast_S_S512x128 (iotaInDim S512x128 32 0) (constantI S_ 32 16#32) :=
  s1_4_v29 _ _ _ (s1_3_v28 _) (s1_3_c_1 _)

/-- Each column's block, c // 4. -/
theorem W15_v31 : Gen.W15 m ρ c (Proc.devRef .tc main_v31)
    = KHost.floorDiv S512x128 bcast_S_S512x128 (iotaInDim S512x128 32 1) (constantI S_ 32 4#32) :=
  s1_6_v31 _ _ _ (s1_5_v30 _) (s1_5_c_2 _)

/-- The row blocks are still there when the two block numbers are compared. -/
theorem W15_v29 : Gen.W15 m ρ c (Proc.devRef .tc main_v29)
    = KHost.floorDiv S512x128 bcast_S_S512x128 (iotaInDim S512x128 32 0) (constantI S_ 32 16#32) :=
  (walk% [hostOps1_6, hostOps1_5] main_v29).trans (W13_v29 m ρ c)

/-- The repeated weights are still there when the last `where` reads them. -/
theorem W16_v27 : Gen.W16 m ρ c (Proc.devRef .tc main_v27) = weRep aWE :=
  (walk% [hostOps1_7, hostOps1_6, hostOps1_5, hostOps1_4] main_v27).trans (W12_v27 m ρ c)

/-- The last `where`: the block-diagonal (512, 128) copy of the edge weights. -/
theorem W17_v33 : Gen.W17 m ρ c (Proc.devRef .tc main_v33) = KHost.wBlock aWE :=
  s1_8_v33 _ _ _ _ (s1_7_v32 _ _ _ (W15_v29 m ρ c) (W15_v31 m ρ c)) (W16_v27 m ρ c) (s1_7_cst_3 _)

/-! ### The lane-dense reshapes, and what the second pallas_call finds -/

/-- The edge attributes are as launched when they are reshaped. -/
theorem W17_arg2 : Gen.W17 m ρ c (Proc.devRef .tc main_arg2) = aEA :=
  (walk% [hostOps1_8, hostOps1_7, hostOps1_6, hostOps1_5, hostOps1_4, hostOps1_3, hostOps1_2, hostOps1_1, hostOps1] main_arg2).trans <| (Gen.W8_of_ne m ρ c main_arg2 (by decide)).trans <|
    walk% [hostOps0_6, hostOps0_5, hostOps0_4, hostOps0_3, hostOps0_2, hostOps0_1, hostOps0] main_arg2

/-- At the second pallas_call's entry `main_v34` holds the edge attributes, 32 edges per row. -/
theorem W18_v34 : Gen.W18 m ρ c (Proc.devRef .tc main_v34) = KHost.eaRows aEA := s1_9_v34 _ _ (W17_arg2 m ρ c)

/-- At the second pallas_call's entry `main_v33` holds the block-diagonal edge weights. -/
theorem W18_v33 : Gen.W18 m ρ c (Proc.devRef .tc main_v33) = KHost.wBlock aWE :=
  (walk% [hostOps1_9] main_v33).trans (W17_v33 m ρ c)

include h04 in
/-- The gathered source scalars are still there when they are reshaped. -/
theorem W17_v22 : Gen.W17 m ρ c (Proc.devRef .tc main_v22) = KHost.take4 (KHost.aSrc aAC) (KHost.src aEI) :=
  (walk% [hostOps1_8, hostOps1_7, hostOps1_6, hostOps1_5, hostOps1_4, hostOps1_3, hostOps1_2] main_v22).trans (W10_v22 m ρ c ac h04)

include h04 in
/-- The gathered destination scalars are still there when they are reshaped. -/
theorem W17_v23 : Gen.W17 m ρ c (Proc.devRef .tc main_v23) = KHost.take4 (KHost.aDst aAC) (KHost.dst aEI) :=
  (walk% [hostOps1_8, hostOps1_7, hostOps1_6, hostOps1_5, hostOps1_4, hostOps1_3] main_v23).trans (W11_v23 m ρ c ac h04)

include h04 in
/-- At the second pallas_call's entry `main_v35` holds the gathered source scalars, 32 edges per row. -/
theorem W18_v35 : Gen.W18 m ρ c (Proc.devRef .tc main_v35) = KHost.lanes (KHost.take4 (KHost.aSrc aAC) (KHost.src aEI)) :=
  s1_9_v35 _ _ (W17_v22 m ρ c ac h04)

include h04 in
/-- At the second pallas_call's entry `main_v36` holds the gathered destination scalars, 32 edges per row. -/
theorem W18_v36 : Gen.W18 m ρ c (Proc.devRef .tc main_v36) = KHost.lanes (KHost.take4 (KHost.aDst aAC) (KHost.dst aEI)) :=
  s1_9_v36 _ _ (W17_v23 m ρ c ac h04)

include h03 in
/-- The transformed node features are still in `main_v19_0` at the second pallas_call's entry. -/
theorem W18_v19_0 : Gen.W18 m ρ c (Proc.devRef .tc main_v19_0) = wh aX aWN :=
  (walk% [hostOps1_9, hostOps1_8, hostOps1_7, hostOps1_6, hostOps1_5, hostOps1_4, hostOps1_3, hostOps1_2, hostOps1_1, hostOps1] main_v19_0).trans (W8_v19_0 m ρ c wh h03)

/-- The source nodes are still in `main_v1` at the second pallas_call's entry. -/
theorem W18_v1 : Gen.W18 m ρ c (Proc.devRef .tc main_v1) = KHost.src aEI :=
  (walk% [hostOps1_9, hostOps1_8, hostOps1_7, hostOps1_6, hostOps1_5, hostOps1_4, hostOps1_3, hostOps1_2, hostOps1_1] main_v1).trans (W9_v1 m ρ c)

/-- The destination nodes are still in `main_v3` at the second pallas_call's entry. -/
theorem W18_v3 : Gen.W18 m ρ c (Proc.devRef .tc main_v3) = KHost.dst aEI :=
  (walk% [hostOps1_9, hostOps1_8, hostOps1_7, hostOps1_6, hostOps1_5, hostOps1_4, hostOps1_3, hostOps1_2] main_v3).trans (W10_v3 m ρ c)

/-- The bias is as launched at the second pallas_call's entry. -/
theorem W18_arg7 : Gen.W18 m ρ c (Proc.devRef .tc main_arg7) = aB :=
  (walk% [hostOps1_9, hostOps1_8, hostOps1_7, hostOps1_6, hostOps1_5, hostOps1_4, hostOps1_3, hostOps1_2, hostOps1_1, hostOps1] main_arg7).trans <| (Gen.W8_of_ne m ρ c main_arg7 (by decide)).trans <|
    walk% [hostOps0_6, hostOps0_5, hostOps0_4, hostOps0_3, hostOps0_2, hostOps0_1, hostOps0] main_arg7

end Fold

end Cert.KFoldA

end
-- ==== Proof.KFoldB.lean ====
/-
  The kernel program's buffers from the entry of the second pallas_call to the result. Given what the second and
  third pallas_calls compute as whole-array functions (`er`: the edge logits, 32 edges per row; `rr`: the final
  activation, two nodes per row) and what the buffers they and the later host stages read hold at the second call's
  entry, each later boundary is read stage by stage: the logits back at one edge per row, shifted by their global
  maximum and exponentiated; the per-destination sums; those sums gathered back along the edges; the quotient; the
  source features gathered along the edges, weighted head by head and summed per destination; the doubled bias row;
  the activation; and the result back at one node per row.
-/
import proofs.«430437_j45698452029991_2_alg».proof.Proof.KernelIdealFrame
import proofs.«430437_j45698452029991_2_alg».proof.Proof.KHost

noncomputable section

namespace Cert.KFoldB

open Idealize.ShloMosaic Idealize.ShloMosaic.TcCoe
open Cert.KernelIdeal Cert.KernelIdeal.Gen Cert.KernelIdeal.Facts₀ Cert.KernelIdeal.Facts

variable {F : FTy → Type} [FloatOps F] [Cert.KernelIdeal.Facts]

/-- A stage none of whose operations writes the buffer `b` leaves it as it was: every operation's one written
    reference differs from `b`. -/
local macro "unwritten% " ops:ident b:ident : term =>
  `(StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- A run of stages none of which writes `b`: the steps chained, the latest stage first. -/
local syntax "walk% " "[" ident,+ "]" ident : term
macro_rules
  | `(walk% [$o:ident] $b:ident) => `(unwritten% $o $b)
  | `(walk% [$o:ident, $os:ident,*] $b:ident) => `(Eq.trans (unwritten% $o $b) (walk% [$os,*] $b))

/-- Inside an outlined function every value is moved to its buffer's type and back; at a literal buffer both
    moves are along an equation of a type with itself, so each is the identity: first the outermost, then every
    one inside it. -/
local macro "drop_moves" : tactic =>
  `(tactic| (refine (cast_eq _ _).trans ?_; repeat rw [cast_eq]))

/-! ## Each host stage, from any contents `V` of the buffers it reads -/

section Stages

variable (V : Valuation τ sig (Elt F))

/-- The logits at one edge per row, less their global maximum, exponentiated. -/
theorem stage2_v42 (e : FVec F S50000x128 .f32) (h37 : V (Proc.devRef .tc main_v37) = e) :
    StableHlo.after hostOps2 V (Proc.devRef .tc main_v42) = KHost.expShift (KHost.unlanes e) := by
  subst h37
  after_results
  rfl

/-- The exponentials summed per destination node. -/
theorem stage2_v45 (e : FVec F S50000x128 .f32) (d : IVec S1600000 32)
    (h37 : V (Proc.devRef .tc main_v37) = e) (h3 : V (Proc.devRef .tc main_v3) = d) :
    StableHlo.after hostOps2 V (Proc.devRef .tc main_v45) = KHost.den (KHost.expShift (KHost.unlanes e)) d := by
  subst h37 h3
  after_results
  rfl

set_option maxHeartbeats 400000 in
/-- The rows of a (100000, 4) table at the given indices: a negative index is wrapped by 100000, and a row whose
    wrapped index still lies outside [0, 99999] is filled with the NaN word. -/
theorem stage2_1_v46 (x : FVec F S100000x4 .f32) (i : IVec S1600000 32)
    (h45 : V (Proc.devRef .tc main_v45) = x) (h3 : V (Proc.devRef .tc main_v3) = i) :
    StableHlo.after hostOps2_1 V (Proc.devRef .tc main_v46) = KHost.take4 x i := by
  subst h45 h3
  after_results_simp
  simp only [StableHlo.TRef.ofBuf, StableHlo.TRef.toBuf, cast_cast]
  have e45 : ((.of main_v45 : StableHlo.TRef sig ⟨S100000x4, .f32⟩)).ofBuf (V (Proc.devRef .tc main_v45))
      = V (Proc.devRef .tc main_v45) := rfl
  have e3 : ((.of main_v3 : StableHlo.TRef sig ⟨S1600000, .i32⟩)).ofBuf (V (Proc.devRef .tc main_v3))
      = V (Proc.devRef .tc main_v3) := rfl
  simp only [StableHlo.TRef.ofBuf] at e45 e3
  rw [e45, e3]
  clear e45 e3
  drop_moves
  unfold KHost.take4 KHost.inRange KHost.wrapCol
  with_reducible rfl

/-- The attention weights: each edge's exponential over its destination's sum plus 1e-9. -/
theorem stage2_2_v49 (e : FVec F S1600000x4 .f32) (d : IVec S1600000 32)
    (h42 : V (Proc.devRef .tc main_v42) = KHost.expShift e)
    (h46 : V (Proc.devRef .tc main_v46) = KHost.take4 (KHost.den (KHost.expShift e) d) d) :
    StableHlo.after hostOps2_2 V (Proc.devRef .tc main_v49) = KHost.alpha e d := by
  after_results
  rw [h42, h46]
  rfl

set_option maxHeartbeats 400000 in
/-- The rows of a (100000, 64) table at the given indices, wrapped and filled in the same way. -/
theorem stage2_3_v50 (x : FVec F S100000x64 .f32) (i : IVec S1600000 32)
    (h19 : V (Proc.devRef .tc main_v19_0) = x) (h1 : V (Proc.devRef .tc main_v1) = i) :
    StableHlo.after hostOps2_3 V (Proc.devRef .tc main_v50) = KHost.take64 x i := by
  subst h19 h1
  after_results_simp
  simp only [StableHlo.TRef.ofBuf, StableHlo.TRef.toBuf, cast_cast]
  have e19 : ((.of main_v19_0 : StableHlo.TRef sig ⟨S100000x64, .f32⟩)).ofBuf (V (Proc.devRef .tc main_v19_0))
      = V (Proc.devRef .tc main_v19_0) := rfl
  have e1 : ((.of main_v1 : StableHlo.TRef sig ⟨S1600000, .i32⟩)).ofBuf (V (Proc.devRef .tc main_v1))
      = V (Proc.devRef .tc main_v1) := rfl
  simp only [StableHlo.TRef.ofBuf] at e19 e1
  rw [e19, e1]
  clear e19 e1
  drop_moves
  unfold KHost.take64 KHost.inRange KHost.wrapCol
  with_reducible rfl

/-- The gathered source features weighted head by head, summed per destination node, two nodes per row. -/
theorem stage2_4_v59 (wh : FVec F S100000x64 .f32) (al : FVec F S1600000x4 .f32) (s d : IVec S1600000 32)
    (h50 : V (Proc.devRef .tc main_v50) = KHost.take64 wh s) (h49 : V (Proc.devRef .tc main_v49) = al)
    (h3 : V (Proc.devRef .tc main_v3) = d) :
    StableHlo.after hostOps2_4 V (Proc.devRef .tc main_v59) = KHost.outRows (KHost.out wh al s d) := by
  after_results
  rw [h50, h49, h3]
  rfl

/-- The bias twice over, as one row of 128. -/
theorem stage2_4_v61 (b : FVec F S64 .f32) (h7 : V (Proc.devRef .tc main_arg7) = b) :
    StableHlo.after hostOps2_4 V (Proc.devRef .tc main_v61) = KHost.bias2 b := by
  after_results
  rw [h7]
  rfl

/-- Back from two nodes per row to one node per row. -/
theorem stage3_v63 (r : FVec F S50000x128 .f32) (h62 : V (Proc.devRef .tc main_v62) = r) :
    StableHlo.after hostOps3 V (Proc.devRef .tc main_v63) = KHost.unrows r := by
  subst h62
  after_results
  rfl

end Stages

/-! ## The boundaries, from the second pallas_call's entry to the result -/

section Run

variable (m : (ℓ : Loc nD τ sig) → Buf (Elt F) ℓ) (ρ : Dev nD → PrngReg) (c : Dev nD)

/-! ### Buffers carried unchanged: the second pallas_call writes only its output array, and each host stage
    only its own values -/

/-- The destination nodes when the second pallas_call returns. -/
theorem keep_v3_19 : W19 m ρ c (Proc.devRef .tc main_v3) = W18 m ρ c (Proc.devRef .tc main_v3) :=
  W19_of_ne m ρ c main_v3 (by decide)

/-- The destination nodes when the per-destination sums are gathered back. -/
theorem keep_v3_20 : W20 m ρ c (Proc.devRef .tc main_v3) = W18 m ρ c (Proc.devRef .tc main_v3) :=
  (unwritten% hostOps2 main_v3).trans (keep_v3_19 m ρ c)

/-- The destination nodes when the weighted features are summed. -/
theorem keep_v3_23 : W23 m ρ c (Proc.devRef .tc main_v3) = W18 m ρ c (Proc.devRef .tc main_v3) :=
  (walk% [hostOps2_3, hostOps2_2, hostOps2_1] main_v3).trans (keep_v3_20 m ρ c)

/-- The source nodes when the source features are gathered. -/
theorem keep_v1_22 : W22 m ρ c (Proc.devRef .tc main_v1) = W18 m ρ c (Proc.devRef .tc main_v1) :=
  (walk% [hostOps2_2, hostOps2_1, hostOps2] main_v1).trans (W19_of_ne m ρ c main_v1 (by decide))

/-- The transformed node features when they are gathered. -/
theorem keep_v19_22 : W22 m ρ c (Proc.devRef .tc main_v19_0) = W18 m ρ c (Proc.devRef .tc main_v19_0) :=
  (walk% [hostOps2_2, hostOps2_1, hostOps2] main_v19_0).trans (W19_of_ne m ρ c main_v19_0 (by decide))

/-- The bias when it is doubled. -/
theorem keep_arg7_23 : W23 m ρ c (Proc.devRef .tc main_arg7) = W18 m ρ c (Proc.devRef .tc main_arg7) :=
  (walk% [hostOps2_3, hostOps2_2, hostOps2_1, hostOps2] main_arg7).trans (W19_of_ne m ρ c main_arg7 (by decide))

/-- The exponentials when the quotient is taken. -/
theorem keep_v42_21 : W21 m ρ c (Proc.devRef .tc main_v42) = W20 m ρ c (Proc.devRef .tc main_v42) :=
  unwritten% hostOps2_1 main_v42

/-- The attention weights when the features are weighted. -/
theorem keep_v49_23 : W23 m ρ c (Proc.devRef .tc main_v49) = W22 m ρ c (Proc.devRef .tc main_v49) :=
  unwritten% hostOps2_3 main_v49

/-! ### The values, boundary by boundary -/

variable
  (er : FVec F S50000x512 .f32 → FVec F S512x128 .f32 → FVec F S50000x128 .f32 → FVec F S50000x128 .f32 → FVec F S50000x128 .f32)
  (rr : FVec F S50000x128 .f32 → FVec F S1x128 .f32 → FVec F S50000x128 .f32)

/-- When the second pallas_call returns, its output array holds the edge logits of the four arrays it read. -/
theorem W19_v37
    (h14 : ∀ V c, (dat1 V c).arrAt 4 cfg1.N = er (V c main_v34) (V c main_v33) (V c main_v35) (V c main_v36))
    (EAR : FVec F S50000x512 .f32) (WB : FVec F S512x128 .f32) (GS GD : FVec F S50000x128 .f32)
    (e34 : W18 m ρ c (Proc.devRef .tc main_v34) = EAR) (e33 : W18 m ρ c (Proc.devRef .tc main_v33) = WB)
    (e35 : W18 m ρ c (Proc.devRef .tc main_v35) = GS) (e36 : W18 m ρ c (Proc.devRef .tc main_v36) = GD) :
    W19 m ρ c (Proc.devRef .tc main_v37) = er EAR WB GS GD :=
  (W19_arr m ρ c 4).trans ((h14 (V18 m ρ) c).trans (by rw [← e34, ← e33, ← e35, ← e36]))

/-- The logits at one edge per row, shifted and exponentiated. -/
theorem W20_v42 (e : FVec F S50000x128 .f32) (h37 : W19 m ρ c (Proc.devRef .tc main_v37) = e) :
    W20 m ρ c (Proc.devRef .tc main_v42) = KHost.expShift (KHost.unlanes e) :=
  stage2_v42 (W19 m ρ c) e h37

/-- The exponentials summed per destination node. -/
theorem W20_v45 (e : FVec F S50000x128 .f32) (d : IVec S1600000 32)
    (h37 : W19 m ρ c (Proc.devRef .tc main_v37) = e) (e3 : W18 m ρ c (Proc.devRef .tc main_v3) = d) :
    W20 m ρ c (Proc.devRef .tc main_v45) = KHost.den (KHost.expShift (KHost.unlanes e)) d :=
  stage2_v45 (W19 m ρ c) e d h37 ((keep_v3_19 m ρ c).trans e3)

/-- The sums gathered back along the edges' destinations. -/
theorem W21_v46 (e : FVec F S50000x128 .f32) (d : IVec S1600000 32)
    (h37 : W19 m ρ c (Proc.devRef .tc main_v37) = e) (e3 : W18 m ρ c (Proc.devRef .tc main_v3) = d) :
    W21 m ρ c (Proc.devRef .tc main_v46)
      = KHost.take4 (KHost.den (KHost.expShift (KHost.unlanes e)) d) d :=
  stage2_1_v46 (W20 m ρ c) _ d (W20_v45 m ρ c e d h37 e3) ((keep_v3_20 m ρ c).trans e3)

/-- The attention weights. -/
theorem W22_v49 (e : FVec F S50000x128 .f32) (d : IVec S1600000 32)
    (h37 : W19 m ρ c (Proc.devRef .tc main_v37) = e) (e3 : W18 m ρ c (Proc.devRef .tc main_v3) = d) :
    W22 m ρ c (Proc.devRef .tc main_v49) = KHost.alpha (KHost.unlanes e) d :=
  stage2_2_v49 (W21 m ρ c) (KHost.unlanes e) d
    ((keep_v42_21 m ρ c).trans (W20_v42 m ρ c e h37)) (W21_v46 m ρ c e d h37 e3)

/-- The source nodes' features gathered along the edges. -/
theorem W23_v50 (wh : FVec F S100000x64 .f32) (s : IVec S1600000 32)
    (e19 : W18 m ρ c (Proc.devRef .tc main_v19_0) = wh) (e1 : W18 m ρ c (Proc.devRef .tc main_v1) = s) :
    W23 m ρ c (Proc.devRef .tc main_v50) = KHost.take64 wh s :=
  stage2_3_v50 (W22 m ρ c) wh s ((keep_v19_22 m ρ c).trans e19) ((keep_v1_22 m ρ c).trans e1)

/-- The weighted features summed per destination node, two nodes per row: the third pallas_call's first input. -/
theorem W24_v59 (e : FVec F S50000x128 .f32) (wh : FVec F S100000x64 .f32) (s d : IVec S1600000 32)
    (h37 : W19 m ρ c (Proc.devRef .tc main_v37) = e) (e19 : W18 m ρ c (Proc.devRef .tc main_v19_0) = wh)
    (e1 : W18 m ρ c (Proc.devRef .tc main_v1) = s) (e3 : W18 m ρ c (Proc.devRef .tc main_v3) = d) :
    W24 m ρ c (Proc.devRef .tc main_v59)
      = KHost.outRows (KHost.out wh (KHost.alpha (KHost.unlanes e) d) s d) :=
  stage2_4_v59 (W23 m ρ c) wh _ s d (W23_v50 m ρ c wh s e19 e1)
    ((keep_v49_23 m ρ c).trans (W22_v49 m ρ c e d h37 e3)) ((keep_v3_23 m ρ c).trans e3)

/-- The doubled bias row: the third pallas_call's second input. -/
theorem W24_v61 (b : FVec F S64 .f32) (e7 : W18 m ρ c (Proc.devRef .tc main_arg7) = b) :
    W24 m ρ c (Proc.devRef .tc main_v61) = KHost.bias2 b :=
  stage2_4_v61 (W23 m ρ c) b ((keep_arg7_23 m ρ c).trans e7)

/-- When the third pallas_call returns, its output array holds the activation of its two inputs. -/
theorem W25_v62
    (h22 : ∀ V c, (dat2 V c).arrAt 2 cfg2.N = rr (V c main_v59) (V c main_v61))
    (o : FVec F S50000x128 .f32) (b2 : FVec F S1x128 .f32)
    (h59 : W24 m ρ c (Proc.devRef .tc main_v59) = o) (h61 : W24 m ρ c (Proc.devRef .tc main_v61) = b2) :
    W25 m ρ c (Proc.devRef .tc main_v62) = rr o b2 :=
  (W25_arr m ρ c 2).trans ((h22 (V24 m ρ) c).trans (congrArg₂ rr h59 h61))

/-- The program's result: the third pallas_call's output back at one node per row, as the host stages and the two
    pallas_calls make it from what the buffers held when the second pallas_call was entered. -/
theorem result
    (h14 : ∀ V c, (dat1 V c).arrAt 4 cfg1.N = er (V c main_v34) (V c main_v33) (V c main_v35) (V c main_v36))
    (h22 : ∀ V c, (dat2 V c).arrAt 2 cfg2.N = rr (V c main_v59) (V c main_v61))
    (EAR : FVec F S50000x512 .f32) (WB : FVec F S512x128 .f32) (GS GD : FVec F S50000x128 .f32)
    (WH : FVec F S100000x64 .f32) (S D : IVec S1600000 32) (B : FVec F S64 .f32)
    (e34 : W18 m ρ c (Proc.devRef .tc main_v34) = EAR) (e33 : W18 m ρ c (Proc.devRef .tc main_v33) = WB)
    (e35 : W18 m ρ c (Proc.devRef .tc main_v35) = GS) (e36 : W18 m ρ c (Proc.devRef .tc main_v36) = GD)
    (e19 : W18 m ρ c (Proc.devRef .tc main_v19_0) = WH) (e1 : W18 m ρ c (Proc.devRef .tc main_v1) = S)
    (e3 : W18 m ρ c (Proc.devRef .tc main_v3) = D) (e7 : W18 m ρ c (Proc.devRef .tc main_arg7) = B) :
    W26 m ρ c (Proc.devRef .tc main_v63) =
      KHost.unrows (rr (KHost.outRows (KHost.out WH (KHost.alpha (KHost.unlanes (er EAR WB GS GD)) D) S D)) (KHost.bias2 B)) :=
  have h37 := W19_v37 m ρ c er h14 EAR WB GS GD e34 e33 e35 e36
  stage3_v63 (W25 m ρ c) _
    (W25_v62 m ρ c rr h22 _ _ (W24_v59 m ρ c _ WH S D h37 e19 e1 e3) (W24_v61 m ρ c B e7))

end Run

end Cert.KFoldB

end
-- ==== Proof.Region0.lean ====
/-
  The node kernel, the program's first launch, as whole-array functions. The launch walks the 100000 rows of the node
  features x in 20 blocks of 5000 rows. On a block it forms Wh = x · W_nodeᵀ, a product over the 128 input channels
  into a zero accumulator, and from it the merged attention scalars Wh · M for the (64, 8) selector M, a product over
  the 64 channels. Here: the two result arrays as functions of x, W_node and M (`wh`, `ac`: row r is computed from the
  block of 5000 rows that holds r); a block's payload is the restriction of these functions to the block (`wh_block`,
  `ac_block`); and, at the extended reals, where a format change is the identity and a sum onto zero is the sum,
  their entries as plain sums (`wh_apply`, `ac_apply`).
-/
import proofs.«430437_j45698452029991_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Region0

open Idealize.ShloMosaic Idealize.ShloMosaic.ValueIdx Cert.KernelIdeal

variable {F : FTy → Type} [FloatOps F]

/-! ## The whole-array functions -/

/-- Entry `y` of the 5000-row block that holds row `r`, as an index of the (100000, 128) array: row
    5000 · (r / 5000) + y₀, column y₁. -/
def rowIn128 (r : Fin 100000) (y : S5000x128.Idx) : S100000x128.Idx :=
  ix2 (⟨r.val / 5000 * 5000 + (y 0).val, by have h0 := r.isLt; have h1 := idx2_lt0 y; omega⟩ : Fin 100000)
    (⟨(y 1).val, idx2_lt1 y⟩ : Fin 128)

/-- The block of 5000 rows of `x` that holds row `r`. -/
def xBlock (x : FVec F S100000x128 .f32) (r : Fin 100000) : FVec F S5000x128 .f32 := fun y => x (rowIn128 r y)

/-- Where an index of a (100000, 64) array sits inside its 5000-row block: row i₀ mod 5000, the same column. -/
def posIn64 (i : S100000x64.Idx) : S5000x64.Idx :=
  ix2 (⟨(i 0).val % 5000, Nat.mod_lt _ (by decide)⟩ : Fin 5000) (⟨(i 1).val, idx2_lt1 i⟩ : Fin 64)

/-- Where an index of a (100000, 8) array sits inside its 5000-row block. -/
def posIn8 (i : S100000x8.Idx) : S5000x8.Idx :=
  ix2 (⟨(i 0).val % 5000, Nat.mod_lt _ (by decide)⟩ : Fin 5000) (⟨(i 1).val, idx2_lt1 i⟩ : Fin 8)

/-- Wh: rows [5000 t, 5000 t + 5000) are the first payload of those rows of `x` and of `wn`. -/
def wh (x : FVec F S100000x128 .f32) (wn : FVec F S64x128 .f32) : FVec F S100000x64 .f32 :=
  fun i => Gen.k0_pay1 (xBlock x ⟨(i 0).val, idx2_lt0 i⟩) wn (posIn64 i)

/-- The merged attention scalars: rows [5000 t, 5000 t + 5000) are the second payload of those rows of `x`, of `wn`
    and of the selector `mc`. -/
def ac (x : FVec F S100000x128 .f32) (wn : FVec F S64x128 .f32) (mc : FVec F S64x8 .f32) : FVec F S100000x8 .f32 :=
  fun i => Gen.k0_pay2 (xBlock x ⟨(i 0).val, idx2_lt0 i⟩) wn mc (posIn8 i)

/-! ## A block's payload is the restriction of the whole-array function -/

/-- A vector that reads `x` at rows 5000 t + y₀ is the block of `x` that holds any row of [5000 t, 5000 t + 5000). -/
theorem xBlock_eq (x : FVec F S100000x128 .f32) (xb : Vec F S5000x128 .f32) (t : Nat) (r : Fin 100000)
    (hr : r.val / 5000 = t)
    (hx : ∀ (y : S5000x128.Idx) (k : S100000x128.Idx), (k 0).val = t * 5000 + (y 0).val → (k 1).val = (y 1).val →
      xb y = x k) :
    xBlock x r = xb :=
  funext fun y => (hx y (rowIn128 r y)
    (by show r.val / 5000 * 5000 + (y 0).val = t * 5000 + (y 0).val; rw [hr]) rfl).symm

/-- Block `t` of `wh`: the first payload of block `t` of `x` and of the whole `wn`, entry `j` of it sitting at row
    5000 t + j₀, column j₁ of the array. -/
theorem wh_block (x : FVec F S100000x128 .f32) (wn : FVec F S64x128 .f32)
    (xb : Vec F S5000x128 .f32) (wb : Vec F S64x128 .f32) (t : Nat)
    (hx : ∀ (y : S5000x128.Idx) (k : S100000x128.Idx), (k 0).val = t * 5000 + (y 0).val → (k 1).val = (y 1).val →
      xb y = x k)
    (hw : wb = wn) (j : S5000x64.Idx) (i : S100000x64.Idx)
    (hi0 : (i 0).val = t * 5000 + (j 0).val) (hi1 : (i 1).val = (j 1).val) :
    Gen.k0_pay1 xb wb j = wh x wn i := by
  subst hw
  have hj : (j 0).val < 5000 := idx2_lt0 j
  have e1 : xBlock x ⟨(i 0).val, idx2_lt0 i⟩ = xb :=
    xBlock_eq x xb t _ (by show (i 0).val / 5000 = t; omega) hx
  have e2 : posIn64 i = j := funext fun a => Fin.ext (by
    match a with
    | ⟨0, _⟩ => show (i 0).val % 5000 = (j 0).val; omega
    | ⟨1, _⟩ => exact hi1)
  show _ = Gen.k0_pay1 (xBlock x ⟨(i 0).val, idx2_lt0 i⟩) wb (posIn64 i)
  rw [e1, e2]

/-- Block `t` of `ac`: the second payload of block `t` of `x`, of the whole `wn` and of the whole selector. -/
theorem ac_block (x : FVec F S100000x128 .f32) (wn : FVec F S64x128 .f32) (mc : FVec F S64x8 .f32)
    (xb : Vec F S5000x128 .f32) (wb : Vec F S64x128 .f32) (mb : Vec F S64x8 .f32) (t : Nat)
    (hx : ∀ (y : S5000x128.Idx) (k : S100000x128.Idx), (k 0).val = t * 5000 + (y 0).val → (k 1).val = (y 1).val →
      xb y = x k)
    (hw : wb = wn) (hm : mb = mc) (j : S5000x8.Idx) (i : S100000x8.Idx)
    (hi0 : (i 0).val = t * 5000 + (j 0).val) (hi1 : (i 1).val = (j 1).val) :
    Gen.k0_pay2 xb wb mb j = ac x wn mc i := by
  subst hw hm
  have hj : (j 0).val < 5000 := idx2_lt0 j
  have e1 : xBlock x ⟨(i 0).val, idx2_lt0 i⟩ = xb :=
    xBlock_eq x xb t _ (by show (i 0).val / 5000 = t; omega) hx
  have e2 : posIn8 i = j := funext fun a => Fin.ext (by
    match a with
    | ⟨0, _⟩ => show (i 0).val % 5000 = (j 0).val; omega
    | ⟨1, _⟩ => exact hi1)
  show _ = Gen.k0_pay2 (xBlock x ⟨(i 0).val, idx2_lt0 i⟩) wb mb (posIn8 i)
  rw [e1, e2]

/-! ## The two products' operand indices, axis by axis -/

theorem lhs_wh_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_wh_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_wh_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_wh_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

theorem lhs_ac_0 (i : S5000x8.Idx) (q : dot_S5000x64_S64x8_S5000x8_1_0_0_1_n_n.contr.Idx) :
    (dot_S5000x64_S64x8_S5000x8_1_0_0_1_n_n.lhsIdx i q 0).val = (i 0).val := by
  unfold DotDims.lhsIdx
  rw [dif_neg (show ¬(0 : Fin S5000x64.rank) ∈ dot_S5000x64_S64x8_S5000x8_1_0_0_1_n_n.lhsBatch by decide),
    dif_pos (show (0 : Fin S5000x64.rank) ∈ dot_S5000x64_S64x8_S5000x8_1_0_0_1_n_n.lhsNonContracting by decide)]
  rfl
theorem lhs_ac_1 (i : S5000x8.Idx) (q : dot_S5000x64_S64x8_S5000x8_1_0_0_1_n_n.contr.Idx) :
    (dot_S5000x64_S64x8_S5000x8_1_0_0_1_n_n.lhsIdx i q 1).val = (q ⟨0, by decide⟩).val :=
  dot_S5000x64_S64x8_S5000x8_1_0_0_1_n_n.lhsIdx_val_of_single rfl i q
theorem rhs_ac_0 (i : S5000x8.Idx) (q : dot_S5000x64_S64x8_S5000x8_1_0_0_1_n_n.contr.Idx) :
    (dot_S5000x64_S64x8_S5000x8_1_0_0_1_n_n.rhsIdx i q 0).val = (q ⟨0, by decide⟩).val :=
  dot_S5000x64_S64x8_S5000x8_1_0_0_1_n_n.rhsIdx_val_of_single rfl i q
theorem rhs_ac_1 (i : S5000x8.Idx) (q : dot_S5000x64_S64x8_S5000x8_1_0_0_1_n_n.contr.Idx) :
    (dot_S5000x64_S64x8_S5000x8_1_0_0_1_n_n.rhsIdx i q 1).val = (i 1).val := by
  unfold DotDims.rhsIdx
  rw [dif_neg (show ¬(1 : Fin S64x8.rank) ∈ dot_S5000x64_S64x8_S5000x8_1_0_0_1_n_n.rhsBatch by decide),
    dif_pos (show (1 : Fin S64x8.rank) ∈ dot_S5000x64_S64x8_S5000x8_1_0_0_1_n_n.rhsNonContracting by decide)]
  rfl

/-! ## The payloads at an index, at the extended reals -/

/-- The first payload at (p, c): the sum over the 128 input channels of the block's row p against row c of the weights
    (the weights enter transposed, the accumulator is zero, the two format changes are the identity). -/
theorem pay1_apply (xb : FVec Ideal S5000x128 .f32) (wb : FVec Ideal S64x128 .f32) (p : Fin 5000) (c : Fin 64) :
    Gen.k0_pay1 (F := Ideal) xb wb (ix2 p c) = ∑ k : Fin 128, xb (ix2 p k) * wb (ix2 c k) := by
  unfold Gen.k0_pay1
  refine (Ideal.matmul_constant_zero_apply dot_S5000x128_S128x64_S5000x64_1_0_0_1_n_n none _ _ (ix2 p c)).trans ?_
  refine (Equiv.sum_comp (contrEquiv1 dot_S5000x128_S128x64_S5000x64_1_0_0_1_n_n 128 rfl rfl).symm _).symm.trans ?_
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p c) ((contrEquiv1 dot_S5000x128_S128x64_S5000x64_1_0_0_1_n_n 128 rfl rfl).symm k) = ix2 p k :=
    funext fun a => Fin.ext (by
      match a with
      | ⟨0, _⟩ => exact lhs_wh_0 _ _
      | ⟨1, _⟩ => exact (lhs_wh_1 _ _).trans hk)
  have er : dot_S5000x128_S128x64_S5000x64_1_0_0_1_n_n.rhsIdx (ix2 p c) ((contrEquiv1 dot_S5000x128_S128x64_S5000x64_1_0_0_1_n_n 128 rfl rfl).symm k) = ix2 k c :=
    funext fun a => Fin.ext (by
      match a with
      | ⟨0, _⟩ => exact (rhs_wh_0 _ _).trans hk
      | ⟨1, _⟩ => exact rhs_wh_1 _ _)
  rw [el, er]
  refine congrArg (xb (ix2 p k) * ·) ?_
  exact transpose_apply _ _ _ (ix2 k c) (ix2 c k) fun b => match b with | ⟨0, _⟩ => rfl | ⟨1, _⟩ => rfl

/-- The second payload at (p, j): the sum over the 64 channels of the first payload's row p against column j of the
    selector (the selector's shape cast is onto its own shape, the accumulator is zero). -/
theorem pay2_apply (xb : FVec Ideal S5000x128 .f32) (wb : FVec Ideal S64x128 .f32) (mb : FVec Ideal S64x8 .f32)
    (p : Fin 5000) (j : Fin 8) :
    Gen.k0_pay2 (F := Ideal) xb wb mb (ix2 p j) = ∑ c : Fin 64, Gen.k0_pay1 (F := Ideal) xb wb (ix2 p c) * mb (ix2 c j) := by
  unfold Gen.k0_pay2
  refine (Ideal.matmul_constant_zero_apply dot_S5000x64_S64x8_S5000x8_1_0_0_1_n_n none _ _ (ix2 p j)).trans ?_
  refine (Equiv.sum_comp (contrEquiv1 dot_S5000x64_S64x8_S5000x8_1_0_0_1_n_n 64 rfl rfl).symm _).symm.trans ?_
  refine Finset.sum_congr rfl fun k _ => ?_
  have hk := contrEquiv1_symm_val dot_S5000x64_S64x8_S5000x8_1_0_0_1_n_n 64 rfl rfl k
  have el : dot_S5000x64_S64x8_S5000x8_1_0_0_1_n_n.lhsIdx (ix2 p j) ((contrEquiv1 dot_S5000x64_S64x8_S5000x8_1_0_0_1_n_n 64 rfl rfl).symm k) = ix2 p k :=
    funext fun a => Fin.ext (by
      match a with
      | ⟨0, _⟩ => exact lhs_ac_0 _ _
      | ⟨1, _⟩ => exact (lhs_ac_1 _ _).trans hk)
  have er : dot_S5000x64_S64x8_S5000x8_1_0_0_1_n_n.rhsIdx (ix2 p j) ((contrEquiv1 dot_S5000x64_S64x8_S5000x8_1_0_0_1_n_n 64 rfl rfl).symm k) = ix2 k j :=
    funext fun a => Fin.ext (by
      match a with
      | ⟨0, _⟩ => exact (rhs_ac_0 _ _).trans hk
      | ⟨1, _⟩ => exact rhs_ac_1 _ _)
  rw [el, er, shapeCast_self]
  rfl

/-! ## The whole-array functions at an index, at the extended reals -/

/-- Row n mod 5000 of the block that holds row `n` is row `n` of the array. -/
theorem xBlock_apply (x : FVec Ideal S100000x128 .f32) (n : Fin 100000) (k : Fin 128) :
    xBlock x n (ix2 (⟨n.val % 5000, Nat.mod_lt _ (by decide)⟩ : Fin 5000) k) = x (ix2 n k) :=
  congrArg x (funext fun a => Fin.ext (by
    match a with
    | ⟨0, _⟩ => show n.val / 5000 * 5000 + n.val % 5000 = n.val; omega
    | ⟨1, _⟩ => rfl))

/-- Wh at (n, c): row n of x against row c of W_node, summed over the 128 input channels. -/
theorem wh_apply (x : FVec Ideal S100000x128 .f32) (wn : FVec Ideal S64x128 .f32) (n : Fin 100000) (c : Fin 64) :
    wh x wn (ix2 n c) = ∑ j : Fin 128, x (ix2 n j) * wn (ix2 c j) := by
  show Gen.k0_pay1 (F := Ideal) (xBlock x n) wn (ix2 (⟨n.val % 5000, Nat.mod_lt _ (by decide)⟩ : Fin 5000) c) = _
  rw [pay1_apply]
  exact Finset.sum_congr rfl fun k _ => by rw [xBlock_apply]

/-- The merged attention scalars at (n, j): row n of Wh against column j of the selector, summed over the 64 channels. -/
theorem ac_apply (x : FVec Ideal S100000x128 .f32) (wn : FVec Ideal S64x128 .f32) (mc : FVec Ideal S64x8 .f32)
    (n : Fin 100000) (j : Fin 8) :
    ac x wn mc (ix2 n j) = ∑ c : Fin 64, wh x wn (ix2 n c) * mc (ix2 c j) := by
  show Gen.k0_pay2 (F := Ideal) (xBlock x n) wn mc (ix2 (⟨n.val % 5000, Nat.mod_lt _ (by decide)⟩ : Fin 5000) j) = _
  rw [pay2_apply]
  rfl

end Cert.Region0

end
-- ==== Proof.Region0Arr.lean ====
/-
  The node kernel's two result arrays after its launch. Every window of the launch moves with the grid point: block t
  of the features, of Wh and of the attention scalars is rows [5000 t, 5000 t + 5000), and the weights and the selector
  are fetched whole. So what point t writes back is block t of the whole-array functions `wh` and `ac` of the arrays
  the launch finds, the 20 blocks cover the 100000 rows, and the arrays end holding `wh` and `ac`.
-/
import proofs.«430437_j45698452029991_2_alg».proof.Proof.Region0
import proofs.«430437_j45698452029991_2_alg».proof.Proof.KernelIdealFrame

noncomputable section

namespace Cert.Region0

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The grid has 20 points. -/
theorem grid_points : cfg0.N = 20 := by decide

/-- The printed index maps over the grid: the features', Wh's and the attention scalars' block index is (t, 0), the
    weights' and the selector's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks -/

/-- The features' block at point t reads the array at rows 5000 t + y₀. -/
theorem xblk_apply (c : Dev nD) (t : Fin cfg0.N) (y : S5000x128.Idx) (k : S100000x128.Idx)
    (hk0 : (k 0).val = t.val * 5000 + (y 0).val) (hk1 : (k 1).val = (y 1).val) :
    (iblk0 V c 0 t : Vec F S5000x128 .f32) y = (V c main_arg0 : S100000x128.Idx → Elt F .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- The weights' block at every point is the whole array. -/
theorem wblk_eq (c : Dev nD) (t : Fin cfg0.N) :
    (iblk0 V c 1 t : Vec F S64x128 .f32) = (V c main_arg3 : S64x128.Idx → Elt F .f32) := by
  obtain ⟨-, -, e0, e1, -⟩ := idx_facts t
  funext y
  unfold iblk0
  rw [View.read_apply]
  show V c main_arg3 _ = V c main_arg3 _
  congr 1
  funext a
  apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The selector's block at every point is the whole array. -/
theorem mblk_eq (c : Dev nD) (t : Fin cfg0.N) :
    (iblk0 V c 2 t : Vec F S64x8 .f32) = (V c main_v18 : S64x8.Idx → Elt F .f32) := by
  obtain ⟨-, -, -, -, e0, e1, -⟩ := idx_facts t
  funext y
  unfold iblk0
  rw [View.read_apply]
  show V c main_v18 _ = V c main_v18 _
  congr 1
  funext a
  apply Fin.ext
  match a with
  | ⟨0, _⟩ => show win0_2.index t (0 : Fin 2) * 64 + 1 * (y 0).val = (y 0).val; omega
  | ⟨1, _⟩ => show win0_2.index t (1 : Fin 2) * 8 + 1 * (y 1).val = (y 1).val; omega

/-! ## Wh: what a point writes back, the cover, the array -/

/-- Entry j of Wh's block at point t sits at row 5000 t + j₀, column j₁. -/
theorem emb_wh (t : Fin cfg0.N) (j : S5000x64.Idx) :
    ((((cfg0.win 3).blk t).view.emb j : S100000x64.Idx) 0).val = t.val * 5000 + (j 0).val
    ∧ ((((cfg0.win 3).blk t).view.emb j : S100000x64.Idx) 1).val = (j 1).val := by
  obtain ⟨-, -, -, -, -, -, e0, e1, -⟩ := idx_facts t
  constructor
  · show win0_3.index t (0 : Fin 2) * 5000 + 1 * (j 0).val = _; omega
  · show win0_3.index t (1 : Fin 2) * 64 + 1 * (j 1).val = _; omega

/-- What point t writes back into Wh is block t of `wh` of the features and the weights as the launch finds them. -/
theorem flushed_wh (c : Dev nD) (t : Fin cfg0.N) :
    (dat0 V c).flushed 3 t = ((cfg0.win 3).blk t).view.read (Elt F) (wh (V c main_arg0) (V c main_arg3)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S64x128) zero_offsets]
  funext j
  show Gen.k0_pay1 (iblk0 V c 0 t) (iblk0 V c 1 t) j
    = wh (V c main_arg0) (V c main_arg3) (((cfg0.win 3).blk t).view.emb j)
  exact wh_block (V c main_arg0) (V c main_arg3) (iblk0 V c 0 t) (iblk0 V c 1 t) t.val
    (fun y k hk0 hk1 => xblk_apply V c t y k hk0 hk1) (wblk_eq V c t) j (((cfg0.win 3).blk t).view.emb j)
    (emb_wh t j).1 (emb_wh t j).2

/-- An index of Wh is in point t's block iff its row is in [5000 t, 5000 t + 5000) (and its column below 64). -/
theorem mem_blk_wh (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v19_0).slice (win0_3.rect t)).set ↔ _
  rw [View.set_slice_whole, Rect.mem_set_unit]
  exact Iff.rfl

/-- Row r of Wh is written back by point r / 5000. -/
theorem cover_wh (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have ht : (i 0).val / 5000 < cfg0.N := by rw [grid_points]; omega
  obtain ⟨-, -, -, -, -, -, e0, e1, -⟩ := idx_facts ⟨(i 0).val / 5000, ht⟩
  have e0' : win0_3.index ⟨(i 0).val / 5000, ht⟩ (0 : Fin 2) = (i 0).val / 5000 := e0
  refine ⟨⟨(i 0).val / 5000, ht⟩, flush0_3 _, ?_⟩
  rw [mem_blk_wh]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    omega

/-- After the launch Wh holds `wh` of the features and the weights as the launch finds them. -/
theorem arr_wh (c : Dev nD) : (dat0 V c).arrAt 3 cfg0.N = wh (V c main_arg0) (V c main_arg3) :=
  (dat0 V c).arrAt_eq_of_cover 3 (wh (V c main_arg0) (V c main_arg3)) (fun t _ => flushed_wh V c t) cover_wh

/-! ## The attention scalars: what a point writes back, the cover, the array -/

/-- Entry j of the attention scalars' block at point t sits at row 5000 t + j₀, column j₁. -/
theorem emb_ac (t : Fin cfg0.N) (j : S5000x8.Idx) :
    ((((cfg0.win 4).blk t).view.emb j : S100000x8.Idx) 0).val = t.val * 5000 + (j 0).val
    ∧ ((((cfg0.win 4).blk t).view.emb j : S100000x8.Idx) 1).val = (j 1).val := by
  obtain ⟨-, -, -, -, -, -, -, -, e0, e1⟩ := idx_facts t
  constructor
  · show win0_4.index t (0 : Fin 2) * 5000 + 1 * (j 0).val = _; omega
  · show win0_4.index t (1 : Fin 2) * 8 + 1 * (j 1).val = _; omega

/-- What point t writes back into the attention scalars is block t of `ac` of the features, the weights and the
    selector as the launch finds them. -/
theorem flushed_ac (c : Dev nD) (t : Fin cfg0.N) :
    (dat0 V c).flushed 4 t
      = ((cfg0.win 4).blk t).view.read (Elt F) (ac (V c main_arg0) (V c main_arg3) (V c main_v18)) := by
  show (cfg0.win 4).cut (grid0.coords t) ((dat0 V c).after 4 t) = _
  rw [after0_4]
  unfold out0_4
  rw [View.canon_unit_zero zero_offsets]
  simp only [View.ld_unit_zero (S := S5000x128) zero_offsets, View.ld_unit_zero (S := S64x128) zero_offsets,
    View.ld_unit_zero (S := S64x8) zero_offsets]
  funext j
  show Gen.k0_pay2 (iblk0 V c 0 t) (iblk0 V c 1 t) (iblk0 V c 2 t) j
    = ac (V c main_arg0) (V c main_arg3) (V c main_v18) (((cfg0.win 4).blk t).view.emb j)
  exact ac_block (V c main_arg0) (V c main_arg3) (V c main_v18) (iblk0 V c 0 t) (iblk0 V c 1 t) (iblk0 V c 2 t) t.val
    (fun y k hk0 hk1 => xblk_apply V c t y k hk0 hk1) (wblk_eq V c t) (mblk_eq V c t) j
    (((cfg0.win 4).blk t).view.emb j) (emb_ac t j).1 (emb_ac t j).2

/-- An index of the attention scalars is in point t's block iff its row is in [5000 t, 5000 t + 5000). -/
theorem mem_blk_ac (t : Fin cfg0.N) (i : S100000x8.Idx) :
    i ∈ ((cfg0.win 4).blk t).view.set ↔ ∀ a : Fin 2, win0_4.index t a * S5000x8.size a ≤ (i a).val
      ∧ (i a).val < win0_4.index t a * S5000x8.size a + S5000x8.size a := by
  show i ∈ ((View.whole main_v19_1).slice (win0_4.rect t)).set ↔ _
  rw [View.set_slice_whole, Rect.mem_set_unit]
  exact Iff.rfl

/-- Row r of the attention scalars is written back by point r / 5000. -/
theorem cover_ac (i : S100000x8.Idx) :
    ∃ t : Fin cfg0.N, (cfg0.win 4).flush t = true ∧ i ∈ ((cfg0.win 4).blk t).view.set := by
  have hi0 : (i 0).val < 100000 := idx2_lt0 i
  have hi1 : (i 1).val < 8 := idx2_lt1 i
  have ht : (i 0).val / 5000 < cfg0.N := by rw [grid_points]; omega
  obtain ⟨-, -, -, -, -, -, -, -, e0, e1⟩ := idx_facts ⟨(i 0).val / 5000, ht⟩
  have e0' : win0_4.index ⟨(i 0).val / 5000, ht⟩ (0 : Fin 2) = (i 0).val / 5000 := e0
  refine ⟨⟨(i 0).val / 5000, ht⟩, flush0_4 _, ?_⟩
  rw [mem_blk_ac]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    omega
  | ⟨1, _⟩ =>
    show win0_4.index ⟨(i 0).val / 5000, ht⟩ (1 : Fin 2) * 8 ≤ (i 1).val
      ∧ (i 1).val < win0_4.index ⟨(i 0).val / 5000, ht⟩ (1 : Fin 2) * 8 + 8
    omega

/-- After the launch the attention scalars hold `ac` of the features, the weights and the selector as the launch
    finds them. -/
theorem arr_ac (c : Dev nD) :
    (dat0 V c).arrAt 4 cfg0.N = ac (V c main_arg0) (V c main_arg3) (V c main_v18) :=
  (dat0 V c).arrAt_eq_of_cover 4 (ac (V c main_arg0) (V c main_arg3) (V c main_v18))
    (fun t _ => flushed_ac V c t) cover_ac

end Cert.Region0

end
-- ==== Proof.Pointwise.lean ====
/-
  The two scalar functions the kernel's bodies apply entry by entry, on the extended reals: the leaky ReLU with slope
  f32(0.2) written with a strict test, and the ELU tail written with the exponential.
-/
import Idealize.ShloMosaic.PureOps.Ideal

noncomputable section

namespace Cert.Pointwise

open Idealize.ShloMosaic

/-- z where 0 < z, f32(0.2) · z elsewhere. -/
def lrelu (z : EReal) : EReal := if 0 < z then z else Ideal.ofBits .f32 0x3E4CCCCD#32 * z

/-- y where 0 < y, exp y − 1 elsewhere. -/
def eluTail (y : EReal) : EReal := if 0 < y then y else Ideal.exp y - Ideal.ofBits .f32 0x3F800000#32

end Cert.Pointwise

end
-- ==== Proof.Region1.lean ====
/-
  The edge-logit region as ONE function of its four input arrays.

  The region walks the 50000 rows in 25 row blocks of 2000. On each block it adds the two gathered attention scalars,
  adds the block of edge attributes multiplied by the block-diagonal weights, and applies the leaky ReLU with slope
  f32(0.2). Row r of the result therefore depends only on row r of the three row-blocked inputs and on the whole
  weight matrix: `er` names the result array as the block's arithmetic applied to the row block that holds the row,
  and `er_apply` reads it on the extended reals, where the narrowing to bf16 in front of the product is the identity:
    er (r, c) = lrelu (gas (r, c) + gad (r, c) + ∑ k, ear (r, k) * wb (k, c)).
-/
import proofs.«430437_j45698452029991_2_alg».proof.Proof.Gen.KernelIdeal.Skeleton
import proofs.«430437_j45698452029991_2_alg».proof.Proof.Pointwise
import Idealize.ShloMosaic.Lib.ValueIdx
import Idealize.ShloMosaic.Lib.Pipeline.Value
import Idealize.ShloMosaic.PureOps.Ideal.Laws

noncomputable section

namespace Cert.Region1

open Idealize.ShloMosaic Idealize.ShloMosaic.ValueIdx
open Cert.KernelIdeal Cert.KernelIdeal.Gen
open scoped BigOperators

variable [Cert.KernelIdeal.Facts]

section AnyFloat

variable {F : FTy → Type} [FloatOps F]

/-! ## Row blocks -/

/-- The row block (of 25) that holds a row of the 50000. -/
def blockOf (i : S50000x128.Idx) : Fin 25 := ⟨(i 0).val / 2000, by have := idx2_lt0 i; omega⟩

/-- The place of an index inside its row block: the row modulo 2000, the same column. -/
def within (i : S50000x128.Idx) : S2000x128.Idx :=
  ix2 ⟨(i 0).val % 2000, Nat.mod_lt _ (by decide)⟩ ⟨(i 1).val, idx2_lt1 i⟩

/-- Rows 2000 t … 2000 t + 1999 of an array of 50000 rows of 512. -/
def rows512 (x : FVec F S50000x512 .f32) (t : Fin 25) : FVec F S2000x512 .f32 := fun j =>
  x (ix2 ⟨t.val * 2000 + (j 0).val, by have := idx2_lt0 j; have := t.isLt; omega⟩ ⟨(j 1).val, idx2_lt1 j⟩)

/-- Rows 2000 t … 2000 t + 1999 of an array of 50000 rows of 128. -/
def rows128 (x : FVec F S50000x128 .f32) (t : Fin 25) : FVec F S2000x128 .f32 := fun j =>
  x (ix2 ⟨t.val * 2000 + (j 0).val, by have := idx2_lt0 j; have := t.isLt; omega⟩ ⟨(j 1).val, idx2_lt1 j⟩)

/-! ## The region's result -/

/-- The logits array: at each index, the block's arithmetic on the row block that holds the index. `ear` is the edge
    attributes 32 edges to a row, `wb` the block-diagonal weights, `gas` and `gad` the gathered attention scalars. -/
def er (ear : FVec F S50000x512 .f32) (wb : FVec F S512x128 .f32) (gas gad : FVec F S50000x128 .f32) :
    FVec F S50000x128 .f32 := fun i =>
  k1_pay1 (rows512 ear (blockOf i)) wb (rows128 gas (blockOf i)) (rows128 gad (blockOf i)) (within i)

end AnyFloat

/-! ## Read on the extended reals -/

section AnyFloat

variable {F : FTy → Type} [FloatOps F]

/-- What the block computes before the activation: the two attention scalars added, plus the block of attributes
    (narrowed to bf16) against the weights (narrowed to bf16), accumulated from zero. -/
def pre (x0 : Vec F S2000x512 .f32) (x3 : Vec F S512x128 .f32) (x7 x9 : Vec F S2000x128 .f32) : FVec F S2000x128 .f32 :=
  addf (addf (shapeCast S2000x128 x7 shapeCasts_S2000x128_S2000x128) (shapeCast S2000x128 x9 shapeCasts_S2000x128_S2000x128))
    (matmul dot_S2000x512_S512x128_S2000x128_1_0_0_1_n_n none
      (truncf .bf16 (shapeCast S2000x512 x0 shapeCasts_S2000x512_S2000x512) bitsLt_bf16_f32)
      (truncf .bf16 (shapeCast S512x128 x3 shapeCasts_S512x128_S512x128) bitsLt_bf16_f32)
      (constant S2000x128 .f32 0x00000000#32))

/-- The block's arithmetic is the activation of `pre`: where `pre` is above zero itself, elsewhere f32(0.2) times it. -/
theorem pay_eq (x0 : Vec F S2000x512 .f32) (x3 : Vec F S512x128 .f32) (x7 x9 : Vec F S2000x128 .f32) :
    k1_pay1 x0 x3 x7 x9
      = select (cmpf .ogt (pre x0 x3 x7 x9) (broadcast S2000x128 (Scalar.ofBits .f32 0x00000000#32))) (pre x0 x3 x7 x9)
          (mulf (broadcast S2000x128 (Scalar.ofBits .f32 0x3E4CCCCD#32)) (pre x0 x3 x7 x9)) := rfl

end AnyFloat

/-! ### The product's operand indices, axis by axis -/

theorem lhs_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl

theorem lhs_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q

theorem rhs_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q

theorem rhs_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The block product at row p, column q: row p of the left block against column q of the right one. On the extended
    reals the narrowing to bf16 changes nothing and the zero accumulator adds nothing. -/
theorem prod_apply (x0 : FVec Ideal S2000x512 .f32) (x3 : FVec Ideal S512x128 .f32) (p : Fin 2000) (q : Fin 128) :
    matmul dot_S2000x512_S512x128_S2000x128_1_0_0_1_n_n none
        (truncf .bf16 (shapeCast S2000x512 x0 shapeCasts_S2000x512_S2000x512) bitsLt_bf16_f32)
        (truncf .bf16 (shapeCast S512x128 x3 shapeCasts_S512x128_S512x128) bitsLt_bf16_f32)
        (constant (F := Ideal) S2000x128 .f32 0x00000000#32) (ix2 p q)
      = ∑ k : Fin 512, x0 (ix2 p k) * x3 (ix2 k q) := by
  rw [shapeCast_self, shapeCast_self]
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact lhs_0 _ _
    | ⟨1, _⟩ => exact (lhs_1 _ _).trans hk)
  have er' : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (rhs_0 _ _).trans hk
    | ⟨1, _⟩ => exact rhs_1 _ _)
  rw [el, er']
  rfl

/-- `pre` at row p, column q. -/
theorem pre_apply (x0 : FVec Ideal S2000x512 .f32) (x3 : FVec Ideal S512x128 .f32) (x7 x9 : FVec Ideal S2000x128 .f32)
    (p : Fin 2000) (q : Fin 128) :
    pre x0 x3 x7 x9 (ix2 p q) = x7 (ix2 p q) + x9 (ix2 p q) + ∑ k : Fin 512, x0 (ix2 p k) * x3 (ix2 k q) := by
  unfold pre
  rw [addf_apply, addf_apply, shapeCast_self, shapeCast_self, prod_apply]

/-- The strict test against the zero word, then the choice between a value and f32(0.2) times it, is the leaky ReLU. -/
theorem act_apply (s : EReal) :
    Scalar.select (FloatOps.cmpf (F := Ideal) (φ := .f32) .ogt s (Scalar.ofBits (F := Ideal) .f32 0x00000000#32)) s
        ((Scalar.ofBits (F := Ideal) .f32 0x3E4CCCCD#32 : EReal) * s)
      = Cert.Pointwise.lrelu s := by
  unfold Cert.Pointwise.lrelu
  rw [Ideal.cmpf_def]
  show Scalar.select (BitVec.ofBool (decide (Ideal.ofBits .f32 0x00000000#32 < s))) s (Ideal.ofBits .f32 0x3E4CCCCD#32 * s) = _
  rw [Ideal.ofBits_zero_f32]
  by_cases h : 0 < s
  · rw [if_pos h, decide_eq_true h]; exact select_one _ _
  · rw [if_neg h, decide_eq_false h]; exact select_zero _ _

/-- The block's arithmetic at row p, column q of the block. -/
theorem pay_apply (x0 : FVec Ideal S2000x512 .f32) (x3 : FVec Ideal S512x128 .f32) (x7 x9 : FVec Ideal S2000x128 .f32)
    (p : Fin 2000) (q : Fin 128) :
    k1_pay1 (F := Ideal) x0 x3 x7 x9 (ix2 p q)
      = Cert.Pointwise.lrelu (x7 (ix2 p q) + x9 (ix2 p q) + ∑ k : Fin 512, x0 (ix2 p k) * x3 (ix2 k q)) := by
  rw [pay_eq]
  show Scalar.select (FloatOps.cmpf (F := Ideal) (φ := .f32) .ogt (pre x0 x3 x7 x9 (ix2 p q)) (Scalar.ofBits (F := Ideal) .f32 0x00000000#32))
      (pre x0 x3 x7 x9 (ix2 p q)) ((Scalar.ofBits (F := Ideal) .f32 0x3E4CCCCD#32 : EReal) * pre x0 x3 x7 x9 (ix2 p q)) = _
  rw [pre_apply]
  exact act_apply _

/-- A row of the 50000, found again in its row block: block r / 2000, row r mod 2000 of the block. -/
theorem rows512_apply (x : FVec Ideal S50000x512 .f32) (r : Fin 50000) (k : Fin 512) :
    rows512 x ⟨r.val / 2000, by have := r.isLt; omega⟩ (ix2 ⟨r.val % 2000, Nat.mod_lt _ (by decide)⟩ k) = x (ix2 r k) := by
  unfold rows512
  refine congrArg x (funext fun a => ?_)
  match a with
  | ⟨0, _⟩ => exact Fin.ext (by show r.val / 2000 * 2000 + r.val % 2000 = r.val; omega)
  | ⟨1, _⟩ => rfl

theorem rows128_apply (x : FVec Ideal S50000x128 .f32) (r : Fin 50000) (c : Fin 128) :
    rows128 x ⟨r.val / 2000, by have := r.isLt; omega⟩ (ix2 ⟨r.val % 2000, Nat.mod_lt _ (by decide)⟩ c) = x (ix2 r c) := by
  unfold rows128
  refine congrArg x (funext fun a => ?_)
  match a with
  | ⟨0, _⟩ => exact Fin.ext (by show r.val / 2000 * 2000 + r.val % 2000 = r.val; omega)
  | ⟨1, _⟩ => rfl

/-- The result at row r, column c: the leaky ReLU of the two attention scalars added to row r of the attributes
    against column c of the weights. -/
theorem er_apply (ear : FVec Ideal S50000x512 .f32) (wb : FVec Ideal S512x128 .f32) (gas gad : FVec Ideal S50000x128 .f32)
    (r : Fin 50000) (c : Fin 128) :
    er ear wb gas gad (ix2 r c)
      = Cert.Pointwise.lrelu (gas (ix2 r c) + gad (ix2 r c) + ∑ k : Fin 512, ear (ix2 r k) * wb (ix2 k c)) := by
  show k1_pay1 (F := Ideal) (rows512 ear ⟨r.val / 2000, _⟩) wb (rows128 gas ⟨r.val / 2000, _⟩) (rows128 gad ⟨r.val / 2000, _⟩)
      (ix2 ⟨r.val % 2000, Nat.mod_lt _ (by decide)⟩ c) = _
  rw [pay_apply, rows128_apply, rows128_apply]
  refine congrArg (fun z => Cert.Pointwise.lrelu (gas (ix2 r c) + gad (ix2 r c) + z)) ?_
  exact Finset.sum_congr rfl fun k _ => by rw [rows512_apply]

end Cert.Region1

end
-- ==== Proof.Region1Arr.lean ====
/-
  The edge-logit region's output array after the region is `er` of its four input arrays as the region finds them.

  Every window of the region moves with the grid point: at point t the three row-blocked inputs and the output sit at
  row block t (block index (t, 0), blocks of 2000 rows), the weights at block (0, 0), which is the whole matrix. The
  body stores its one result over the whole output block. So what point t writes back is block t of `er`, and the 25
  row blocks cover the 50000 rows: row r lies in block r / 2000.
-/
import proofs.«430437_j45698452029991_2_alg».proof.Proof.Region1
import proofs.«430437_j45698452029991_2_alg».proof.Proof.KernelIdealFrame

noncomputable section

namespace Cert.Region1

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

/-! ## The block's arithmetic on a row block is a block of `er` -/

/-- On row block t the block's arithmetic, at an index j of the block, is `er` at the array index whose row is
    2000 t + (row of j) and whose column is j's. -/
theorem er_block (ear : FVec F S50000x512 .f32) (wb : FVec F S512x128 .f32) (gas gad : FVec F S50000x128 .f32)
    (x0 : Vec F S2000x512 .f32) (x1 : Vec F S512x128 .f32) (x2 x3 : Vec F S2000x128 .f32) (t : Fin 25)
    (h0 : x0 = rows512 ear t) (h1 : x1 = wb) (h2 : x2 = rows128 gas t) (h3 : x3 = rows128 gad t)
    (j : S2000x128.Idx) (i : S50000x128.Idx)
    (hi0 : (i 0).val = t.val * 2000 + (j 0).val) (hi1 : (i 1).val = (j 1).val) :
    k1_pay1 x0 x1 x2 x3 j = er ear wb gas gad i := by
  rw [h0, h1, h2, h3]
  have hj : (j 0).val < 2000 := idx2_lt0 j
  have hb : blockOf i = t := Fin.ext (by show (i 0).val / 2000 = t.val; rw [hi0]; omega)
  have hw : within i = j := funext fun a => by
    match a with
    | ⟨0, _⟩ => exact Fin.ext (by show (i 0).val % 2000 = (j 0).val; rw [hi0]; omega)
    | ⟨1, _⟩ => exact Fin.ext hi1
  show _ = k1_pay1 (rows512 ear (blockOf i)) wb (rows128 gas (blockOf i)) (rows128 gad (blockOf i)) (within i)
  rw [hb, hw]

/-! ## The windows at a grid point -/

variable (V : (c : Dev nD) → (b : Ref sig .tc) → Buf (Elt F) ((c : Thread nD τ).loc b))

theorem hz : (![0, 0] : Fin 2 → Nat) = fun _ => 0 := funext fun a => by fin_cases a <;> rfl

/-- The printed index maps, decided over the grid: the row-blocked windows sit at block (t, 0), the weights at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem N_eq : cfg1.N = 25 := by decide

/-- The attributes' block at point t is row block t of the attributes' array. -/
theorem iblk_0 (c : Dev nD) (t : Fin cfg1.N) :
    (iblk1 V c 0 t : Vec F S2000x512 .f32)
      = rows512 (V c main_v34 : S50000x512.Idx → Elt F .f32) ⟨t.val, N_eq ▸ t.isLt⟩ := by
  obtain ⟨e0, e1, -⟩ := idx_facts t
  funext y
  unfold iblk1
  rw [View.read_apply]
  show V c main_v34 (((cfg1.win 0).blk t).view.emb y) = V c main_v34 _
  congr 1
  funext a
  apply Fin.ext
  match a with
  | ⟨0, _⟩ => show win1_0.index t (0 : Fin 2) * 2000 + 1 * (y 0).val = t.val * 2000 + (y 0).val; rw [e0]; omega
  | ⟨1, _⟩ => show win1_0.index t (1 : Fin 2) * 512 + 1 * (y 1).val = (y 1).val; rw [e1]; omega

/-- The weights' block at every point is the whole weight matrix. -/
theorem iblk_1 (c : Dev nD) (t : Fin cfg1.N) :
    (iblk1 V c 1 t : Vec F S512x128 .f32) = (V c main_v33 : S512x128.Idx → Elt F .f32) := by
  obtain ⟨-, -, e0, e1, -⟩ := idx_facts t
  funext y
  unfold iblk1
  rw [View.read_apply]
  show V c main_v33 (((cfg1.win 1).blk t).view.emb y) = V c main_v33 y
  congr 1
  funext a
  apply Fin.ext
  match a with
  | ⟨0, _⟩ => show win1_1.index t (0 : Fin 2) * 512 + 1 * (y 0).val = (y 0).val; rw [e0]; omega
  | ⟨1, _⟩ => show win1_1.index t (1 : Fin 2) * 128 + 1 * (y 1).val = (y 1).val; rw [e1]; omega

/-- The first attention scalars' block at point t is row block t of their array. -/
theorem iblk_2 (c : Dev nD) (t : Fin cfg1.N) :
    (iblk1 V c 2 t : Vec F S2000x128 .f32)
      = rows128 (V c main_v35 : S50000x128.Idx → Elt F .f32) ⟨t.val, N_eq ▸ t.isLt⟩ := by
  obtain ⟨-, -, -, -, e0, e1, -⟩ := idx_facts t
  funext y
  unfold iblk1
  rw [View.read_apply]
  show V c main_v35 (((cfg1.win 2).blk t).view.emb y) = V c main_v35 _
  congr 1
  funext a
  apply Fin.ext
  match a with
  | ⟨0, _⟩ => show win1_2.index t (0 : Fin 2) * 2000 + 1 * (y 0).val = t.val * 2000 + (y 0).val; rw [e0]; omega
  | ⟨1, _⟩ => show win1_2.index t (1 : Fin 2) * 128 + 1 * (y 1).val = (y 1).val; rw [e1]; omega

/-- The second attention scalars' block at point t is row block t of their array. -/
theorem iblk_3 (c : Dev nD) (t : Fin cfg1.N) :
    (iblk1 V c 3 t : Vec F S2000x128 .f32)
      = rows128 (V c main_v36 : S50000x128.Idx → Elt F .f32) ⟨t.val, N_eq ▸ t.isLt⟩ := by
  obtain ⟨-, -, -, -, -, -, e0, e1, -⟩ := idx_facts t
  funext y
  unfold iblk1
  rw [View.read_apply]
  show V c main_v36 (((cfg1.win 3).blk t).view.emb y) = V c main_v36 _
  congr 1
  funext a
  apply Fin.ext
  match a with
  | ⟨0, _⟩ => show win1_3.index t (0 : Fin 2) * 2000 + 1 * (y 0).val = t.val * 2000 + (y 0).val; rw [e0]; omega
  | ⟨1, _⟩ => show win1_3.index t (1 : Fin 2) * 128 + 1 * (y 1).val = (y 1).val; rw [e1]; omega

/-! ## What a point writes back, and the cover -/

/-- What point t writes back to the logits' array is block t of `er` of the input arrays. -/
theorem flushed_eq (c : Dev nD) (t : Fin cfg1.N) :
    (dat1 V c).flushed 4 t = ((cfg1.win 4).blk t).view.read (Elt F)
      (er (V c main_v34 : S50000x512.Idx → Elt F .f32) (V c main_v33 : S512x128.Idx → Elt F .f32)
        (V c main_v35 : S50000x128.Idx → Elt F .f32) (V c main_v36 : S50000x128.Idx → Elt F .f32)) := by
  show (cfg1.win 4).cut (grid1.coords t) ((dat1 V c).after 4 t) = _
  rw [after1_4]
  unfold out1_4
  rw [View.canon_unit_zero hz]
  simp only [View.ld_unit_zero (S := S2000x512) hz, View.ld_unit_zero (S := S512x128) hz, View.ld_unit_zero (S := S2000x128) hz]
  obtain ⟨-, -, -, -, -, -, -, -, e0, e1⟩ := idx_facts t
  funext j
  show k1_pay1 (iblk1 V c 0 t) (iblk1 V c 1 t) (iblk1 V c 2 t) (iblk1 V c 3 t) j
      = er (V c main_v34 : S50000x512.Idx → Elt F .f32) (V c main_v33 : S512x128.Idx → Elt F .f32)
          (V c main_v35 : S50000x128.Idx → Elt F .f32) (V c main_v36 : S50000x128.Idx → Elt F .f32)
          (((cfg1.win 4).blk t).view.emb j)
  refine er_block (V c main_v34 : S50000x512.Idx → Elt F .f32) (V c main_v33 : S512x128.Idx → Elt F .f32)
    (V c main_v35 : S50000x128.Idx → Elt F .f32) (V c main_v36 : S50000x128.Idx → Elt F .f32)
    (iblk1 V c 0 t) (iblk1 V c 1 t) (iblk1 V c 2 t) (iblk1 V c 3 t) ⟨t.val, N_eq ▸ t.isLt⟩
    (iblk_0 V c t) (iblk_1 V c t) (iblk_2 V c t) (iblk_3 V c t) j (((cfg1.win 4).blk t).view.emb j) ?_ ?_
  · show win1_4.index t (0 : Fin 2) * 2000 + 1 * (j 0).val = t.val * 2000 + (j 0).val; rw [e0]; omega
  · show win1_4.index t (1 : Fin 2) * 128 + 1 * (j 1).val = (j 1).val; rw [e1]; omega

/-- An index of the logits' array is in point t's block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v37).slice (win1_4.rect t)).set ↔ _
  rw [View.set_slice_whole, Rect.mem_set_unit]
  exact Iff.rfl

/-- Every index of the logits' array is in the block of the point that carries its row: row r is in block r / 2000. -/
theorem cover (i : S50000x128.Idx) :
    ∃ t : Fin cfg1.N, (cfg1.win 4).flush t = true ∧ i ∈ ((cfg1.win 4).blk t).view.set := by
  have hi0 : (i 0).val < 50000 := idx2_lt0 i
  have hi1 : (i 1).val < 128 := idx2_lt1 i
  have ht : (i 0).val / 2000 < cfg1.N := by rw [N_eq]; omega
  obtain ⟨-, -, -, -, -, -, -, -, e0, e1⟩ := idx_facts ⟨(i 0).val / 2000, ht⟩
  refine ⟨⟨(i 0).val / 2000, ht⟩, flush1_4 _, ?_⟩
  rw [mem_blk]
  intro a
  match a with
  | ⟨0, _⟩ =>
    show win1_4.index ⟨(i 0).val / 2000, ht⟩ (0 : Fin 2) * 2000 ≤ (i 0).val ∧ (i 0).val < win1_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, ht⟩ (1 : Fin 2) * 128 ≤ (i 1).val ∧ (i 1).val < win1_4.index ⟨(i 0).val / 2000, ht⟩ (1 : Fin 2) * 128 + 128
    rw [e1]; omega

/-! ## The array after the region -/

/-- The logits' array after the region: `er` of the attributes, the weights and the two attention scalars as the
    region finds them. -/
theorem arr_er (c : Dev nD) :
    (dat1 V c).arrAt 4 cfg1.N
      = er (V c main_v34 : S50000x512.Idx → Elt F .f32) (V c main_v33 : S512x128.Idx → Elt F .f32)
          (V c main_v35 : S50000x128.Idx → Elt F .f32) (V c main_v36 : S50000x128.Idx → Elt F .f32) :=
  (dat1 V c).arrAt_eq_of_cover 4 _ (fun t _ => flushed_eq V c t) cover

end Cert.Region1

end
-- ==== Proof.Region2.lean ====
/-
  The kernel program's last pallas_call as ONE function of its two input arrays. Every grid point loads a block of
  5000 rows of the aggregated features (two nodes per row, 128 lanes) and the one row of the doubled bias, adds the
  bias row to every row of the block, and stores, lane by lane, y where 0 < y and exp y − 1 elsewhere. Nothing in
  that depends on the row's position, so the whole (50000, 128) output is the same scalar function of the sum, entry
  by entry: `rr`. Here: the scalar function in the float family's own operations (`act`), the whole-array function,
  the body's stored value read at an index of a block (`pay_apply`, at any float family), and the function read at an
  index on the extended reals (`rr_apply`).
-/
import proofs.«430437_j45698452029991_2_alg».proof.Proof.Gen.KernelIdeal.Skeleton
import proofs.«430437_j45698452029991_2_alg».proof.Proof.Pointwise
import Idealize.ShloMosaic.Lib.ValueIdx
import Idealize.ShloMosaic.Lib.ValueLayout
import Idealize.ShloMosaic.Lib.Pipeline.Value
import Idealize.ShloMosaic.PureOps.Ideal.Laws

noncomputable section

namespace Cert.Region2

open Idealize.ShloMosaic Idealize.ShloMosaic.ValueIdx Cert.KernelIdeal

section AnyFamily
variable {F : FTy → Type} [FloatOps F]

/-- One entry of the activation: y where y > 0 (the ordered comparison with the zero word), exp y minus the word of
    1.0 elsewhere. -/
def act (y : F .f32) : F .f32 :=
  Scalar.select (FloatOps.cmpf .ogt y (FloatOps.ofBits .f32 0x00000000#32)) y
    (FloatOps.subf (FloatOps.exp y) (FloatOps.ofBits .f32 0x3F800000#32))

/-- The whole output: entry (r, c) is the activation of feature (r, c) plus the bias row's lane c. -/
def rr (o : FVec F S50000x128 .f32) (b2 : FVec F S1x128 .f32) : FVec F S50000x128 .f32 :=
  fun i => act (FloatOps.addf (o i) (b2 (ix2 (0 : Fin 1) (i 1))))

/-- The function at explicit coordinates, at any float family. -/
theorem rr_ix2 (o : FVec F S50000x128 .f32) (b2 : FVec F S1x128 .f32) (r : Fin 50000) (c : Fin 128) :
    rr o b2 (ix2 r c) = act (FloatOps.addf (o (ix2 r c)) (b2 (ix2 (0 : Fin 1) c))) := rfl

/-- What the body stores, read at row p and lane q of the block: the activation of the block's entry plus the bias
    row's lane q. The two same-shape casts are identities, the row broadcast reads the one row, the rest is lane by lane. -/
theorem pay_apply (x0 : Vec F S5000x128 .f32) (x1 : Vec F S1x128 .f32) (p : Fin 5000) (q : Fin 128) :
    Gen.k2_pay1 x0 x1 (ix2 p q) = act (FloatOps.addf (x0 (ix2 p q)) (x1 (ix2 (0 : Fin 1) q))) := by
  have hb : broadcastTo S5000x128 (shapeCast S1x128 x1 Facts₀.shapeCasts_S1x128_S1x128) Facts₀.broadcasts_S1x128_S5000x128 (ix2 p q)
      = x1 (ix2 (0 : Fin 1) q) :=
    (broadcastTo_1b_ab_apply _ _ p q).trans (congrFun (shapeCast_self x1 _) _)
  have hc : shapeCast S5000x128 x0 Facts₀.shapeCasts_S5000x128_S5000x128 (ix2 p q) = x0 (ix2 p q) :=
    congrFun (shapeCast_self x0 _) _
  unfold Gen.k2_pay1
  show act (FloatOps.addf (shapeCast S5000x128 x0 _ (ix2 p q)) (broadcastTo S5000x128 (shapeCast S1x128 x1 _) _ (ix2 p q))) = _
  exact congrArg act (congrArg₂ FloatOps.addf hc hb)

end AnyFamily

/-- On the extended reals the activation is the ELU tail: the zero word is 0 and the comparison is the order's. -/
theorem act_ideal (y : Ideal .f32) : act y = Cert.Pointwise.eluTail y := by
  show Scalar.select (Ideal.cmp .ogt y (Ideal.ofBits .f32 0x00000000#32)) y
      (Ideal.exp y - Ideal.ofBits .f32 0x3F800000#32) = _
  rw [Ideal.ofBits_zero_f32]
  unfold Cert.Pointwise.eluTail
  by_cases h : (0 : EReal) < y
  · have hc : Ideal.cmp .ogt y 0 = 1#1 := by simp [Ideal.cmp, h]
    rw [if_pos h, hc, select_one]
  · have hc : Ideal.cmp .ogt y 0 = 0#1 := by simp [Ideal.cmp, h]
    rw [if_neg h, hc, select_zero]

/-- The whole-array function read at an index, on the extended reals. -/
theorem rr_apply (o : FVec Ideal S50000x128 .f32) (b2 : FVec Ideal S1x128 .f32) (r : Fin 50000) (c : Fin 128) :
    rr o b2 (ix2 r c) = Cert.Pointwise.eluTail (o (ix2 r c) + b2 (ix2 (0 : Fin 1) c)) :=
  act_ideal _

end Cert.Region2

end
-- ==== Proof.Region2Arr.lean ====
/-
  The last pallas_call's output array after its ten grid points. Grid point t fetches rows 5000 t … 5000 t + 4999 of
  the aggregated features and the whole bias row, and writes back, into the same rows of the output, what the body
  stored: by `Cert.Region2.pay_apply` that is the activation of feature plus bias lane, entry by entry — block t of
  the whole-array function `Cert.Region2.rr` of the two input arrays. Row r of the output lies in the block of point
  r / 5000, so the ten blocks cover the array, and the array ends holding `rr` of the inputs as the region found them.
-/
import proofs.«430437_j45698452029991_2_alg».proof.Proof.Region2
import proofs.«430437_j45698452029991_2_alg».proof.Proof.KernelIdealFrame

noncomputable section

namespace Cert.Region2

open Idealize.ShloMosaic Idealize.ShloMosaic.TcCoe Idealize.SL.Sem Idealize.ShloMosaic.ValueIdx
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- The body's accesses start at the origin of their buffers. -/
theorem origin2 : (![0, 0] : Fin 2 → Nat) = fun _ => 0 := funext fun a => by fin_cases a <;> rfl

/-- The three windows' arrays: the aggregated features two nodes per row, the doubled bias row, the activations. -/
theorem arrRef_0 : Pipeline.arrRef spec2 0 = main_v59 := rfl
theorem arrRef_1 : Pipeline.arrRef spec2 1 = main_v61 := rfl
theorem arrRef_2 : Pipeline.arrRef spec2 2 = main_v62 := rfl

/-- The ten points. -/
theorem points : cfg2.N = 10 := N_2

/-- The printed index maps over the grid: the features' and the output's block index is (t, 0), the bias's (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The features' block at point t, at row p and lane q, is the array at row 5000 t + p, lane q. -/
theorem feat_blk (c : Dev nD) (t : Fin cfg2.N) (p : Fin 5000) (q : Fin 128) (r : Fin 50000)
    (hr : r.val = t.val * 5000 + p.val) :
    (iblk2 V c 0 t : Vec F S5000x128 .f32) (ix2 p q) = (V c main_v59 : S50000x128.Idx → Elt F .f32) (ix2 r q) := by
  obtain ⟨e0, e1, -⟩ := idx_facts t
  unfold iblk2
  rw [View.read_apply]
  show (V c main_v59 : S50000x128.Idx → Elt F .f32) _ = (V c main_v59 : S50000x128.Idx → Elt F .f32) _
  refine congrArg (V c main_v59 : S50000x128.Idx → Elt F .f32) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- The bias's block at every point is the whole row. -/
theorem bias_blk (c : Dev nD) (t : Fin cfg2.N) (q : Fin 128) :
    (iblk2 V c 1 t : Vec F S1x128 .f32) (ix2 (0 : Fin 1) q) = (V c main_v61 : S1x128.Idx → Elt F .f32) (ix2 (0 : Fin 1) q) := by
  obtain ⟨-, -, e0, e1, -⟩ := idx_facts t
  unfold iblk2
  rw [View.read_apply]
  show (V c main_v61 : S1x128.Idx → Elt F .f32) _ = (V c main_v61 : S1x128.Idx → Elt F .f32) _
  refine congrArg (V c main_v61 : S1x128.Idx → Elt F .f32) (funext fun a => Fin.ext ?_)
  match a with
  | ⟨0, _⟩ => show win2_1.index t (0 : Fin 2) * 1 + 1 * 0 = 0; rw [e0]
  | ⟨1, _⟩ => show win2_1.index t (1 : Fin 2) * 128 + 1 * q.val = q.val; rw [e1]; omega

/-- Where row p, lane q of the output's block at point t sits in the output array. -/
theorem out_emb (t : Fin cfg2.N) (p : Fin 5000) (q : Fin 128) (r : Fin 50000) (hr : r.val = t.val * 5000 + p.val) :
    (((cfg2.win 2).blk t).view.emb (ix2 p q) : S50000x128.Idx) = ix2 r q := by
  obtain ⟨-, -, -, -, e0, e1⟩ := idx_facts t
  refine funext fun a => Fin.ext ?_
  match a with
  | ⟨0, _⟩ => show win2_2.index t (0 : Fin 2) * 5000 + 1 * p.val = r.val; rw [e0, hr]; omega
  | ⟨1, _⟩ => show win2_2.index t (1 : Fin 2) * 128 + 1 * q.val = q.val; rw [e1]; omega

/-- One stored entry against the whole-array function: if the two loaded blocks read the arrays A0 and A1 where the
    output's rectangle says, the body's stored value at (p, q) is `rr A0 A1` at (r, s). -/
theorem point_eq (x0 : Vec F S5000x128 .f32) (x1 : Vec F S1x128 .f32) (A0 : FVec F S50000x128 .f32) (A1 : FVec F S1x128 .f32)
    (p : Fin 5000) (q : Fin 128) (r : Fin 50000) (s : Fin 128)
    (h0 : x0 (ix2 p q) = A0 (ix2 r s)) (h1 : x1 (ix2 (0 : Fin 1) q) = A1 (ix2 (0 : Fin 1) s)) :
    k2_pay1 x0 x1 (ix2 p q) = rr A0 A1 (ix2 r s) :=
  (pay_apply x0 x1 p q).trans ((congrArg act (congrArg₂ FloatOps.addf h0 h1)).trans (rr_ix2 A0 A1 r s).symm)

/-- What point t writes back is block t of `rr` of the two input arrays as the region finds them. -/
theorem flushed_eq (c : Dev nD) (t : Fin cfg2.N) :
    (dat2 V c).flushed 2 t = ((cfg2.win 2).blk t).view.read (Elt F) (rr (V c main_v59) (V c main_v61)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S1x128) origin2]
  have ht : t.val < 10 := points ▸ t.isLt
  funext j
  obtain ⟨p, q, rfl⟩ : ∃ (p : Fin 5000) (q : Fin 128), j = ix2 p q :=
    ⟨j 0, j 1, funext fun a => match a with | ⟨0, _⟩ => rfl | ⟨1, _⟩ => rfl⟩
  have hp : p.val < 5000 := p.isLt
  have hr : t.val * 5000 + p.val < 50000 := by omega
  show k2_pay1 (iblk2 V c 0 t) (iblk2 V c 1 t) (ix2 p q)
    = rr (V c main_v59) (V c main_v61) (((cfg2.win 2).blk t).view.emb (ix2 p q))
  rw [out_emb t p q ⟨t.val * 5000 + p.val, hr⟩ rfl]
  exact point_eq (iblk2 V c 0 t) (iblk2 V c 1 t) (V c main_v59) (V c main_v61) p q ⟨t.val * 5000 + p.val, hr⟩ q
    (feat_blk V c t p q ⟨t.val * 5000 + p.val, hr⟩ rfl) (bias_blk V c t q)

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v62).slice (win2_2.rect t)).set ↔ _
  rw [View.set_slice_whole, Rect.mem_set_unit]
  exact Iff.rfl

/-- Row r of the output is in the block of point r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by rw [points]; omega⟩, rfl⟩
  obtain ⟨-, -, -, -, e0, e1⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 128 ≤ (i 1).val ∧ (i 1).val < win2_2.index t (1 : Fin 2) * 128 + 128
    rw [e1]; omega

/-- The output array after the region: `rr` of the aggregated features and the doubled bias as the region found them. -/
theorem arr_rr (c : Dev nD) : (dat2 V c).arrAt 2 cfg2.N = rr (V c main_v59) (V c main_v61) :=
  (dat2 V c).arrAt_eq_of_cover 2 (rr (V c main_v59) (V c main_v61)) (fun t _ => flushed_eq V c t) cover

end Cert.Region2

end
-- ==== Proof.RHost.lean ====
/-
  The reference program, stage by stage. Each definition is the composition of the operations its @main prints for
  that stage, as a function of the arrays the stage reads — the node features through the weight matrix; the per-head
  attention scalars as sums over a head's sixteen channels; NumPy-style row indexing (negative wrap, then a gather);
  the leaky-ReLU logits; the softmax over each destination's incoming edges; the weighted messages and their
  segment sum; the bias and the ELU. `val` is the whole program's result. Stated at any float family.
-/
import proofs.«430437_j45698452029991_2_alg».proof.ReferenceIdeal

noncomputable section

namespace Cert.RHost

open Idealize.ShloMosaic Cert.ReferenceIdeal Cert.ReferenceIdeal.Facts₀ Cert.ReferenceIdeal.Facts

variable {F : FTy → Type} [FloatOps F] [Cert.ReferenceIdeal.Facts]

/-- Row 0 of the edge index: each edge's source node. -/
def src (ei : IVec S2x1600000 32) : IVec S1600000 32 :=
  shapeCast S1600000 (extractStridedSlice S1x1600000 ![0, 0] ei slices_S2x1600000_S1x1600000_0_0) shapeCasts_S1x1600000_S1600000

/-- Row 1 of the edge index: each edge's destination node. -/
def dst (ei : IVec S2x1600000 32) : IVec S1600000 32 :=
  shapeCast S1600000 (extractStridedSlice S1x1600000 ![1, 0] ei slices_S2x1600000_S1x1600000_1_0) shapeCasts_S1x1600000_S1600000

/-- The transformed node features, x · W_nodeᵀ. -/
def wh (x : FVec F S100000x128 .f32) (wn : FVec F S64x128 .f32) : FVec F S100000x64 .f32 :=
  Host.dotGeneral dot_S100000x128_S128x64_S100000x64_1_0_0_1_n_n none x (transpose S128x64 [1, 0] wn transposes_S64x128_S128x64_1_0)

/-- The same, with the 64 channels as 4 heads of 16. -/
def wh3 (w : FVec F S100000x64 .f32) : FVec F S100000x4x16 .f32 := shapeCast S100000x4x16 w shapeCasts_S100000x64_S100000x4x16

/-- Per node and head, the sum over the head's channels of feature times attention weight. -/
def attn (w3 : FVec F S100000x4x16 .f32) (att : FVec F S1x4x16 .f32) : FVec F S100000x4 .f32 :=
  Host.reduceAdd (mulf w3 (broadcastInDim S100000x4x16 ![0, 1, 2] bcast_S1x4x16_S100000x4x16_0_1_2 att))
    (constant S_ .f32 0x00000000#32) reducesTo_S100000x4x16_S100000x4_d2 h_S_

/-- An index vector after NumPy's negative wrap (i < 0 ↦ i + 100000), as a column of start indices. -/
def wrapCol (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- `x[i]` for a (100000, 4) table. -/
def rows4 (x : FVec F S100000x4 .f32) (i : IVec S1600000 32) : FVec F S1600000x4 .f32 :=
  Host.gather gather_S100000x4_S1600000x1_S1600000x4_1_0_n_n_0_1_14 x (wrapCol i)

/-- `x[i]` for a (100000, 4, 16) table. -/
def rows3 (x : FVec F S100000x4x16 .f32) (i : IVec S1600000 32) : FVec F S1600000x4x16 .f32 :=
  Host.gather gather_S100000x4x16_S1600000x1_S1600000x4x16_12_0_n_n_0_1_1416 x (wrapCol i)

/-- Leaky ReLU with slope 0.2: z where z ≥ 0, 0.2 · z elsewhere. -/
def leaky (z : FVec F S1600000x4 .f32) : FVec F S1600000x4 .f32 :=
  select (cmpf .oge z (broadcastInDim S1600000x4 ![] bcast_S_S1600000x4 (constant S_ .f32 0x00000000#32))) z
    (mulf (broadcastInDim S1600000x4 ![] bcast_S_S1600000x4 (constant S_ .f32 0x3E4CCCCD#32)) z)

/-- The logits from the two gathered attention scalars: their sum plus the edge term ea · W_edgeᵀ, through the leaky ReLU. -/
def edgeLogits (gs gd : FVec F S1600000x4 .f32) (ea : FVec F S1600000x16 .f32) (we : FVec F S4x16 .f32) : FVec F S1600000x4 .f32 :=
  leaky (addf (addf gs gd)
    (Host.dotGeneral dot_S1600000x16_S16x4_S1600000x4_1_0_0_1_n_n none ea (transpose S16x4 [1, 0] we transposes_S4x16_S16x4_1_0)))

/-- The attention logits per edge and head. -/
def logits (asrc adst : FVec F S100000x4 .f32) (s d : IVec S1600000 32) (ea : FVec F S1600000x16 .f32)
    (we : FVec F S4x16 .f32) : FVec F S1600000x4 .f32 :=
  edgeLogits (rows4 asrc s) (rows4 adst d) ea we

/-- The logits shifted by their global maximum, exponentiated. -/
def expShift (e : FVec F S1600000x4 .f32) : FVec F S1600000x4 .f32 :=
  Host.exp (subf e (broadcastInDim S1600000x4 ![] bcast_S_S1600000x4
    (Host.reduce FloatOps.maximumf e (constant S_ .f32 0xFF800000#32) reducesTo_S1600000x4_S_d0_1 h_S_)))

/-- The destination nodes as a column of scatter indices. -/
def dstCol (d : IVec S1600000 32) : IVec S1600000x1 32 := broadcastInDim S1600000x1 ![0] bcast_S1600000_S1600000x1_0 d

/-- Per node and head, the sum of the exponentials over the node's incoming edges. -/
def den (ex : FVec F S1600000x4 .f32) (d : IVec S1600000 32) : FVec F S100000x4 .f32 :=
  Host.scatterAdd scatter_S100000x4_S1600000x1_S1600000x4_1_0_0_1
    (broadcastInDim S100000x4 ![] bcast_S_S100000x4 (constant S_ .f32 0x00000000#32)) (dstCol d) ex

/-- The attention weights: each edge's exponential over its destination's sum plus 1e-9. -/
def alpha (e : FVec F S1600000x4 .f32) (d : IVec S1600000 32) : FVec F S1600000x4 .f32 :=
  Host.divf (expShift e) (addf (rows4 (den (expShift e) d) d)
    (broadcastInDim S1600000x4 ![] bcast_S_S1600000x4 (constant S_ .f32 0x3089705F#32)))

/-- Per node, the sum over its incoming edges of the source's features weighted head by head. -/
def out3 (w3 : FVec F S100000x4x16 .f32) (al : FVec F S1600000x4 .f32) (s d : IVec S1600000 32) : FVec F S100000x4x16 .f32 :=
  Host.scatterAdd scatter_S100000x4x16_S1600000x1_S1600000x4x16_12_0_0_1
    (broadcastInDim S100000x4x16 ![] bcast_S_S100000x4x16 (constant S_ .f32 0x00000000#32)) (dstCol d)
    (mulf (rows3 w3 s)
      (broadcastInDim S1600000x4x16 ![0, 1, 2] bcast_S1600000x4x1_S1600000x4x16_0_1_2
        (broadcastInDim S1600000x4x1 ![0, 1] bcast_S1600000x4_S1600000x4x1_0_1 al)))

/-- The heads side by side again: (100000, 4, 16) as (100000, 64). -/
def flat (o3 : FVec F S100000x4x16 .f32) : FVec F S100000x64 .f32 := shapeCast S100000x64 o3 shapeCasts_S100000x4x16_S100000x64

/-- ELU: y where y > 0, 1 · expm1 (y where y ≤ 0, else 0) elsewhere. -/
def elu (y : FVec F S100000x64 .f32) : FVec F S100000x64 .f32 :=
  select (cmpf .ogt y (broadcastInDim S100000x64 ![] bcast_S_S100000x64 (constant S_ .f32 0x00000000#32))) y
    (mulf (broadcastInDim S100000x64 ![] bcast_S_S100000x64 (constant S_ .f32 0x3F800000#32))
      (Host.expm1 (select (cmpf .ogt y (broadcastInDim S100000x64 ![] bcast_S_S100000x64 (constant S_ .f32 0x00000000#32)))
        (broadcastInDim S100000x64 ![] bcast_S_S100000x64 (constant S_ .f32 0x00000000#32)) y)))

/-- The bias added along the channels, then the ELU. -/
def res (o : FVec F S100000x64 .f32) (b : FVec F S64 .f32) : FVec F S100000x64 .f32 :=
  elu (addf o (broadcastInDim S100000x64 ![0, 1] bcast_S1x64_S100000x64_0_1 (broadcastInDim S1x64 ![1] bcast_S64_S1x64_1 b)))

/-- The reference's result as one function of its eight arguments. -/
def val (x : FVec F S100000x128 .f32) (ei : IVec S2x1600000 32) (ea : FVec F S1600000x16 .f32) (wn : FVec F S64x128 .f32)
    (we : FVec F S4x16 .f32) (asrc adst : FVec F S1x4x16 .f32) (b : FVec F S64 .f32) : FVec F S100000x64 .f32 :=
  res (flat (out3 (wh3 (wh x wn))
    (alpha (logits (attn (wh3 (wh x wn)) asrc) (attn (wh3 (wh x wn)) adst) (src ei) (dst ei) ea we) (dst ei))
    (src ei) (dst ei))) b

end Cert.RHost

end
-- ==== Proof.RRun.lean ====
/-
  The reference program's run. Its @main is a straight line of host operations — the two outlined functions (the
  leaky ReLU with its select, the ELU with its two selects) laid open at their call sites, each of their values in
  the buffer its call record names — every operation writing one fresh buffer from earlier ones. So the program is
  the sequence of its 102 operations, every weakly fair execution terminates, the arguments end as they began, and
  the result buffer ends at the operations' composition applied to the arguments: the reference's value as one
  function of its eight arguments. The list is cut in three stretches (the logits before the activation; the
  softmax's numerator and denominator; the weights, the messages, their sum, the bias and the ELU), each read
  back on its own at the few buffers a later stretch reads, and the three readings composed.
-/
import proofs.«430437_j45698452029991_2_alg».proof.ReferenceIdeal
import proofs.«430437_j45698452029991_2_alg».proof.Proof.Gen.ReferenceIdeal
import proofs.«430437_j45698452029991_2_alg».proof.Proof.RHost
import Idealize.ShloMosaic.Lib.StableHlo.Run
import Idealize.ShloMosaic.Lib.Pipeline.Frame

noncomputable section

namespace Cert.RRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-! ## The operations -/

/-- The first stretch, 37 operations: the node features through the weight matrix and as heads; the edge index's two
    rows; per node and head the two attention scalars; each gathered along its row of the index after the negative
    wrap; their sum plus the edge term. -/
abbrev opsA : List (HloOp τ sig (Elt F)) :=
  [ unary main_arg3 main_v0 (transpose S128x64 [1, 0] · transposes_S64x128_S128x64_1_0),
    binary main_arg0 main_v0 main_v1 (fun l r => Host.dotGeneral dot_S100000x128_S128x64_S100000x64_1_0_0_1_n_n none l r),
    reshape main_v1 main_v2 rfl shapeCasts_S100000x64_S100000x4x16,
    unary main_arg1 main_v3 (extractStridedSlice S1x1600000 ![0, 0] · slices_S2x1600000_S1x1600000_0_0),
    reshape main_v3 main_v4 rfl shapeCasts_S1x1600000_S1600000,
    unary main_arg1 main_v5 (extractStridedSlice S1x1600000 ![1, 0] · slices_S2x1600000_S1x1600000_1_0),
    reshape main_v5 main_v6 rfl shapeCasts_S1x1600000_S1600000,
    unary main_arg5 main_v7 (broadcastInDim S100000x4x16 ![0, 1, 2] bcast_S1x4x16_S100000x4x16_0_1_2),
    binary main_v2 main_v7 main_v8 mulf,
    nullary main_cst (constant S_ .f32 0x00000000#32),
    binary main_v8 main_cst main_v9 (fun x v => Host.reduceAdd x v reducesTo_S100000x4x16_S100000x4_d2 h_S_),
    unary main_arg6 main_v10 (broadcastInDim S100000x4x16 ![0, 1, 2] bcast_S1x4x16_S100000x4x16_0_1_2),
    binary main_v2 main_v10 main_v11 mulf,
    nullary main_cst_0 (constant S_ .f32 0x00000000#32),
    binary main_v11 main_cst_0 main_v12 (fun x v => Host.reduceAdd x v reducesTo_S100000x4x16_S100000x4_d2 h_S_),
    nullary main_c (constantI S_ 32 0#32),
    unary main_c main_v13 (broadcastInDim S1600000 ![] bcast_S_S1600000),
    binary main_v4 main_v13 main_v14 (cmpi .slt),
    nullary main_c_1 (constantI S_ 32 100000#32),
    unary main_c_1 main_v15 (broadcastInDim S1600000 ![] bcast_S_S1600000),
    binary main_v4 main_v15 main_v16 addi,
    ternary main_v14 main_v16 main_v4 main_v17 select,
    unary main_v17 main_v18 (broadcastInDim S1600000x1 ![0] bcast_S1600000_S1600000x1_0),
    binary main_v9 main_v18 main_v19 (fun x i => Host.gather gather_S100000x4_S1600000x1_S1600000x4_1_0_n_n_0_1_14 x i),
    nullary main_c_2 (constantI S_ 32 0#32),
    unary main_c_2 main_v20 (broadcastInDim S1600000 ![] bcast_S_S1600000),
    binary main_v6 main_v20 main_v21 (cmpi .slt),
    nullary main_c_3 (constantI S_ 32 100000#32),
    unary main_c_3 main_v22 (broadcastInDim S1600000 ![] bcast_S_S1600000),
    binary main_v6 main_v22 main_v23 addi,
    ternary main_v21 main_v23 main_v6 main_v24 select,
    unary main_v24 main_v25 (broadcastInDim S1600000x1 ![0] bcast_S1600000_S1600000x1_0),
    binary main_v12 main_v25 main_v26 (fun x i => Host.gather gather_S100000x4_S1600000x1_S1600000x4_1_0_n_n_0_1_14 x i),
    binary main_v19 main_v26 main_v27 addf,
    unary main_arg4 main_v28 (transpose S16x4 [1, 0] · transposes_S4x16_S16x4_1_0),
    binary main_arg2 main_v28 main_v29 (fun l r => Host.dotGeneral dot_S1600000x16_S16x4_S1600000x4_1_0_0_1_n_n none l r),
    binary main_v27 main_v29 main_v30 addf ]

/-- The second stretch, 29 operations: the slope; the leaky ReLU's seven (the zero and its broadcast, the comparison,
    the slope converted and broadcast, the product, the select); the global maximum, the shift and the exponential;
    the exponentials summed per destination node; that sum gathered back along the destinations, plus 1e-9. -/
abbrev opsB : List (HloOp τ sig (Elt F)) :=
  [ nullary main_cst_4 (constant S_ .f32 0x3E4CCCCD#32),
    TRef.nullary main_call0.cst (constant S_ .f32 0x00000000#32),
    TRef.unary main_call0.cst main_call0.v0 (broadcastInDim S1600000x4 ![] bcast_S_S1600000x4),
    TRef.binary (TRef.of main_v30 : TRef sig ⟨S1600000x4, .f32⟩) main_call0.v0 main_call0.v1 (cmpf (F := F) .oge),
    TRef.unary (TRef.of main_cst_4 : TRef sig ⟨S_, .f32⟩) main_call0.v2 id,
    TRef.unary main_call0.v2 main_call0.v3 (broadcastInDim S1600000x4 ![] bcast_S_S1600000x4),
    TRef.binary main_call0.v3 (TRef.of main_v30 : TRef sig ⟨S1600000x4, .f32⟩) main_call0.v4 mulf,
    TRef.ternary main_call0.v1 (TRef.of main_v30 : TRef sig ⟨S1600000x4, .f32⟩) main_call0.v4 main_call0.call0.v0 select,
    nullary main_cst_5 (constant S_ .f32 0xFF800000#32),
    binary main_v31 main_cst_5 main_v32 (fun x v => Host.reduce FloatOps.maximumf x v reducesTo_S1600000x4_S_d0_1 h_S_),
    unary main_v32 main_v33 (broadcastInDim S1600000x4 ![] bcast_S_S1600000x4),
    binary main_v31 main_v33 main_v34 subf,
    unary main_v34 main_v35 Host.exp,
    nullary main_cst_6 (constant S_ .f32 0x00000000#32),
    unary main_cst_6 main_v36 (broadcastInDim S100000x4 ![] bcast_S_S100000x4),
    unary main_v6 main_v37 (broadcastInDim S1600000x1 ![0] bcast_S1600000_S1600000x1_0),
    ternary main_v36 main_v37 main_v35 main_v38 (fun x i u => Host.scatterAdd scatter_S100000x4_S1600000x1_S1600000x4_1_0_0_1 x i u),
    nullary main_c_7 (constantI S_ 32 0#32),
    unary main_c_7 main_v39 (broadcastInDim S1600000 ![] bcast_S_S1600000),
    binary main_v6 main_v39 main_v40 (cmpi .slt),
    nullary main_c_8 (constantI S_ 32 100000#32),
    unary main_c_8 main_v41 (broadcastInDim S1600000 ![] bcast_S_S1600000),
    binary main_v6 main_v41 main_v42 addi,
    ternary main_v40 main_v42 main_v6 main_v43 select,
    unary main_v43 main_v44 (broadcastInDim S1600000x1 ![0] bcast_S1600000_S1600000x1_0),
    binary main_v38 main_v44 main_v45 (fun x i => Host.gather gather_S100000x4_S1600000x1_S1600000x4_1_0_n_n_0_1_14 x i),
    nullary main_cst_9 (constant S_ .f32 0x3089705F#32),
    unary main_cst_9 main_v46 (broadcastInDim S1600000x4 ![] bcast_S_S1600000x4),
    binary main_v45 main_v46 main_v47 addf ]

/-- The third stretch, 36 operations: the quotient; the features gathered along the sources; the weights broadcast
    over a head's channels and the product; its sum per destination node; the heads side by side; the bias; the
    ELU's fifteen (two comparisons with zero, the inner select through its own converted and broadcast zero, the
    exponential minus one, the product with one, the outer select). -/
abbrev opsC : List (HloOp τ sig (Elt F)) :=
  [ binary main_v35 main_v47 main_v48 Host.divf,
    nullary main_c_10 (constantI S_ 32 0#32),
    unary main_c_10 main_v49 (broadcastInDim S1600000 ![] bcast_S_S1600000),
    binary main_v4 main_v49 main_v50 (cmpi .slt),
    nullary main_c_11 (constantI S_ 32 100000#32),
    unary main_c_11 main_v51 (broadcastInDim S1600000 ![] bcast_S_S1600000),
    binary main_v4 main_v51 main_v52 addi,
    ternary main_v50 main_v52 main_v4 main_v53 select,
    unary main_v53 main_v54 (broadcastInDim S1600000x1 ![0] bcast_S1600000_S1600000x1_0),
    binary main_v2 main_v54 main_v55 (fun x i => Host.gather gather_S100000x4x16_S1600000x1_S1600000x4x16_12_0_n_n_0_1_1416 x i),
    unary main_v48 main_v56 (broadcastInDim S1600000x4x1 ![0, 1] bcast_S1600000x4_S1600000x4x1_0_1),
    unary main_v56 main_v57 (broadcastInDim S1600000x4x16 ![0, 1, 2] bcast_S1600000x4x1_S1600000x4x16_0_1_2),
    binary main_v55 main_v57 main_v58 mulf,
    nullary main_cst_12 (constant S_ .f32 0x00000000#32),
    unary main_cst_12 main_v59 (broadcastInDim S100000x4x16 ![] bcast_S_S100000x4x16),
    unary main_v6 main_v60 (broadcastInDim S1600000x1 ![0] bcast_S1600000_S1600000x1_0),
    ternary main_v59 main_v60 main_v58 main_v61 (fun x i u => Host.scatterAdd scatter_S100000x4x16_S1600000x1_S1600000x4x16_12_0_0_1 x i u),
    reshape main_v61 main_v62 rfl shapeCasts_S100000x4x16_S100000x64,
    unary main_arg7 main_v63 (broadcastInDim S1x64 ![1] bcast_S64_S1x64_1),
    unary main_v63 main_v64 (broadcastInDim S100000x64 ![0, 1] bcast_S1x64_S100000x64_0_1),
    binary main_v62 main_v64 main_v65 addf,
    TRef.nullary main_call1.cst (constant S_ .f32 0x00000000#32),
    TRef.unary main_call1.cst main_call1.v0 (broadcastInDim S100000x64 ![] bcast_S_S100000x64),
    TRef.binary (TRef.of main_v65 : TRef sig ⟨S100000x64, .f32⟩) main_call1.v0 main_call1.v1 (cmpf (F := F) .ogt),
    TRef.nullary main_call1.cst_0 (constant S_ .f32 0x00000000#32),
    TRef.unary main_call1.cst_0 main_call1.v2 (broadcastInDim S100000x64 ![] bcast_S_S100000x64),
    TRef.binary (TRef.of main_v65 : TRef sig ⟨S100000x64, .f32⟩) main_call1.v2 main_call1.v3 (cmpf (F := F) .ogt),
    TRef.nullary main_call1.cst_1 (constant S_ .f32 0x00000000#32),
    TRef.unary main_call1.cst_1 main_call1.call0.v0 id,
    TRef.unary main_call1.call0.v0 main_call1.call0.v1 (broadcastInDim S100000x64 ![] bcast_S_S100000x64),
    TRef.ternary main_call1.v3 main_call1.call0.v1 (TRef.of main_v65 : TRef sig ⟨S100000x64, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x64 ![] bcast_S_S100000x64),
    TRef.binary main_call1.v6 main_call1.v5 main_call1.v7 mulf,
    TRef.ternary main_call1.v1 (TRef.of main_v65 : TRef sig ⟨S100000x64, .f32⟩) main_call1.v7 main_call1.call1.v0 select ]

/-- @main's 102 operations, in order. -/
abbrev ops : List (HloOp τ sig (Elt F)) := (opsA ++ opsB) ++ opsC

/-! ## The program is that sequence -/

set_option maxHeartbeats 4000000 in
/-- The first window is the first two stretches in a row: the call's body unfolds in place, and sequencing
    re-associates by computation. -/
theorem main_part0_eq (c : Dev nD) : main_part0 (F := F) c = (seq opsA >>= fun _ => seq opsB) := rfl

/-- The second window is the third stretch. -/
theorem main_part1_eq (c : Dev nD) : main_part1 (F := F) c = seq opsC := rfl

theorem main_eq (c : Dev nD) : main (F := F) c = seq ops := by
  rw [show (ops : List (HloOp τ sig (Elt F))) = (opsA ++ opsB) ++ opsC from rfl, seq_append, seq_append,
    ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The operations touch TensorCore references only, and each determines what it writes -/

theorem opsA_sub : (opsA : List (HloOp τ sig (Elt F))).Forall fun op => op.bufs ⊆ tcRefs τ sig :=
  ⟨unary_bufs_sub .., binary_bufs_sub .., reshape_bufs_sub .., unary_bufs_sub .., reshape_bufs_sub .., unary_bufs_sub ..,
    reshape_bufs_sub .., unary_bufs_sub .., binary_bufs_sub .., nullary_bufs_sub .., binary_bufs_sub .., unary_bufs_sub ..,
    binary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., binary_bufs_sub ..,
    binary_bufs_sub ..⟩

theorem opsB_sub : (opsB : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub .., nullary_bufs_sub .., binary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub ..⟩

theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem opsA_fresh : (opsA : List (HloOp τ sig (Elt F))).Forall fun op => op.fresh = ∅ :=
  ⟨rfl, rfl, rfl, rfl, rfl, rfl, rfl, rfl, rfl, rfl,
    rfl, rfl, rfl, rfl, rfl, rfl, rfl, rfl, rfl, rfl,
    rfl, rfl, rfl, rfl, rfl, rfl, rfl, rfl, rfl, rfl,
    rfl, rfl, rfl, rfl, rfl, rfl, rfl⟩

theorem opsB_fresh : (opsB : List (HloOp τ sig (Elt F))).Forall fun op => op.fresh = ∅ :=
  ⟨rfl, rfl, rfl, rfl, rfl, rfl, rfl, rfl, rfl, rfl,
    rfl, rfl, rfl, rfl, rfl, rfl, rfl, rfl, rfl, rfl,
    rfl, rfl, rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl,
    rfl, rfl, rfl, rfl, rfl, rfl, rfl, rfl, rfl, rfl,
    rfl, rfl, rfl, rfl, rfl, rfl, rfl, rfl, rfl, rfl,
    rfl, rfl, rfl, rfl, rfl, rfl⟩

/-- A property of every operation of each stretch is one of every operation of the line. -/
theorem forall_ops {p : HloOp τ sig (Elt F) → Prop} (hA : (opsA : List (HloOp τ sig (Elt F))).Forall p)
    (hB : (opsB : List (HloOp τ sig (Elt F))).Forall p) (hC : (opsC : List (HloOp τ sig (Elt F))).Forall p) :
    ∀ op ∈ (ops : List (HloOp τ sig (Elt F))), p op := fun op h => by
  have h' : op ∈ ((opsA ++ opsB) ++ opsC : List (HloOp τ sig (Elt F))) := h
  rcases List.mem_append.mp h' with h' | h'
  · rcases List.mem_append.mp h' with h' | h'
    · exact List.forall_iff_forall_mem.mp hA op h'
    · exact List.forall_iff_forall_mem.mp hB op h'
  · exact List.forall_iff_forall_mem.mp hC op h'

theorem ops_sub : (ops : List (HloOp τ sig (Elt F))).Forall fun op => op.bufs ⊆ tcRefs τ sig :=
  List.forall_iff_forall_mem.mpr (forall_ops opsA_sub opsB_sub opsC_sub)

theorem ops_fresh : ∀ op ∈ (ops : List (HloOp τ sig (Elt F))), op.fresh = ∅ := forall_ops opsA_fresh opsB_fresh opsC_fresh

/-! ## The three stretches read back

Each from ANY contents `V`: the fold of a stretch's results at a buffer it writes is the composition of its operations
over `V` at the buffers it reads, and at a buffer it does not write what `V` had there. The
reductions, the gathers and the scatter-adds stay folded throughout: no equation here looks inside one. -/

section Readback

attribute [local irreducible] Host.reduceAdd Host.reduce Host.gather Host.scatterAdd

theorem A_v2 (V : Valuation τ sig (Elt F)) : after opsA V (main_v2 : DevRef τ sig)
    = RHost.wh3 (RHost.wh (V (main_arg0 : DevRef τ sig)) (V (main_arg3 : DevRef τ sig))) := by
  after_results_simp <;> rfl

theorem A_v4 (V : Valuation τ sig (Elt F)) : after opsA V (main_v4 : DevRef τ sig) = RHost.src (V (main_arg1 : DevRef τ sig)) := by
  after_results_simp <;> rfl

theorem A_v6 (V : Valuation τ sig (Elt F)) : after opsA V (main_v6 : DevRef τ sig) = RHost.dst (V (main_arg1 : DevRef τ sig)) := by
  after_results_simp <;> rfl

/-- The logits before the activation. -/
theorem A_v30 (V : Valuation τ sig (Elt F)) : after opsA V (main_v30 : DevRef τ sig)
    = addf (addf
        (RHost.rows4 (RHost.attn (RHost.wh3 (RHost.wh (V (main_arg0 : DevRef τ sig)) (V (main_arg3 : DevRef τ sig)))) (V (main_arg5 : DevRef τ sig)))
          (RHost.src (V (main_arg1 : DevRef τ sig))))
        (RHost.rows4 (RHost.attn (RHost.wh3 (RHost.wh (V (main_arg0 : DevRef τ sig)) (V (main_arg3 : DevRef τ sig)))) (V (main_arg6 : DevRef τ sig)))
          (RHost.dst (V (main_arg1 : DevRef τ sig)))))
      (Host.dotGeneral dot_S1600000x16_S16x4_S1600000x4_1_0_0_1_n_n none (V (main_arg2 : DevRef τ sig))
        (transpose S16x4 [1, 0] (V (main_arg4 : DevRef τ sig)) transposes_S4x16_S16x4_1_0)) := by
  after_results_simp <;> rfl

theorem A_arg0 (V : Valuation τ sig (Elt F)) : after opsA V (main_arg0 : DevRef τ sig) = V (main_arg0 : DevRef τ sig) := by after_results_simp
theorem A_arg1 (V : Valuation τ sig (Elt F)) : after opsA V (main_arg1 : DevRef τ sig) = V (main_arg1 : DevRef τ sig) := by after_results_simp
theorem A_arg2 (V : Valuation τ sig (Elt F)) : after opsA V (main_arg2 : DevRef τ sig) = V (main_arg2 : DevRef τ sig) := by after_results_simp
theorem A_arg3 (V : Valuation τ sig (Elt F)) : after opsA V (main_arg3 : DevRef τ sig) = V (main_arg3 : DevRef τ sig) := by after_results_simp
theorem A_arg4 (V : Valuation τ sig (Elt F)) : after opsA V (main_arg4 : DevRef τ sig) = V (main_arg4 : DevRef τ sig) := by after_results_simp
theorem A_arg5 (V : Valuation τ sig (Elt F)) : after opsA V (main_arg5 : DevRef τ sig) = V (main_arg5 : DevRef τ sig) := by after_results_simp
theorem A_arg6 (V : Valuation τ sig (Elt F)) : after opsA V (main_arg6 : DevRef τ sig) = V (main_arg6 : DevRef τ sig) := by after_results_simp
theorem A_arg7 (V : Valuation τ sig (Elt F)) : after opsA V (main_arg7 : DevRef τ sig) = V (main_arg7 : DevRef τ sig) := by after_results_simp

/-- The exponentials of the shifted logits. -/
theorem B_v35 (V : Valuation τ sig (Elt F)) : after opsB V (main_v35 : DevRef τ sig) = RHost.expShift (RHost.leaky (V (main_v30 : DevRef τ sig))) := by
  after_results_simp <;> rfl

/-- Each edge's denominator: its destination's sum of exponentials, plus 1e-9. -/
theorem B_v47 (V : Valuation τ sig (Elt F)) : after opsB V (main_v47 : DevRef τ sig)
    = addf (RHost.rows4 (RHost.den (RHost.expShift (RHost.leaky (V (main_v30 : DevRef τ sig)))) (V (main_v6 : DevRef τ sig))) (V (main_v6 : DevRef τ sig)))
        (broadcastInDim S1600000x4 ![] bcast_S_S1600000x4 (constant S_ .f32 0x3089705F#32)) := by
  after_results_simp <;> rfl

theorem B_v2 (V : Valuation τ sig (Elt F)) : after opsB V (main_v2 : DevRef τ sig) = V (main_v2 : DevRef τ sig) := by after_results_simp
theorem B_v4 (V : Valuation τ sig (Elt F)) : after opsB V (main_v4 : DevRef τ sig) = V (main_v4 : DevRef τ sig) := by after_results_simp
theorem B_v6 (V : Valuation τ sig (Elt F)) : after opsB V (main_v6 : DevRef τ sig) = V (main_v6 : DevRef τ sig) := by after_results_simp
theorem B_arg0 (V : Valuation τ sig (Elt F)) : after opsB V (main_arg0 : DevRef τ sig) = V (main_arg0 : DevRef τ sig) := by after_results_simp
theorem B_arg1 (V : Valuation τ sig (Elt F)) : after opsB V (main_arg1 : DevRef τ sig) = V (main_arg1 : DevRef τ sig) := by after_results_simp
theorem B_arg2 (V : Valuation τ sig (Elt F)) : after opsB V (main_arg2 : DevRef τ sig) = V (main_arg2 : DevRef τ sig) := by after_results_simp
theorem B_arg3 (V : Valuation τ sig (Elt F)) : after opsB V (main_arg3 : DevRef τ sig) = V (main_arg3 : DevRef τ sig) := by after_results_simp
theorem B_arg4 (V : Valuation τ sig (Elt F)) : after opsB V (main_arg4 : DevRef τ sig) = V (main_arg4 : DevRef τ sig) := by after_results_simp
theorem B_arg5 (V : Valuation τ sig (Elt F)) : after opsB V (main_arg5 : DevRef τ sig) = V (main_arg5 : DevRef τ sig) := by after_results_simp
theorem B_arg6 (V : Valuation τ sig (Elt F)) : after opsB V (main_arg6 : DevRef τ sig) = V (main_arg6 : DevRef τ sig) := by after_results_simp
theorem B_arg7 (V : Valuation τ sig (Elt F)) : after opsB V (main_arg7 : DevRef τ sig) = V (main_arg7 : DevRef τ sig) := by after_results_simp

/-- The result from the features as heads, the exponentials, the denominators, the two index rows and the bias. -/
theorem C_v66 (V : Valuation τ sig (Elt F)) : after opsC V (main_v66 : DevRef τ sig)
    = RHost.res (RHost.flat (RHost.out3 (V (main_v2 : DevRef τ sig)) (Host.divf (V (main_v35 : DevRef τ sig)) (V (main_v47 : DevRef τ sig)))
        (V (main_v4 : DevRef τ sig)) (V (main_v6 : DevRef τ sig)))) (V (main_arg7 : DevRef τ sig)) := by
  after_results_simp <;> rfl

theorem C_arg0 (V : Valuation τ sig (Elt F)) : after opsC V (main_arg0 : DevRef τ sig) = V (main_arg0 : DevRef τ sig) := by after_results_simp
theorem C_arg1 (V : Valuation τ sig (Elt F)) : after opsC V (main_arg1 : DevRef τ sig) = V (main_arg1 : DevRef τ sig) := by after_results_simp
theorem C_arg2 (V : Valuation τ sig (Elt F)) : after opsC V (main_arg2 : DevRef τ sig) = V (main_arg2 : DevRef τ sig) := by after_results_simp
theorem C_arg3 (V : Valuation τ sig (Elt F)) : after opsC V (main_arg3 : DevRef τ sig) = V (main_arg3 : DevRef τ sig) := by after_results_simp
theorem C_arg4 (V : Valuation τ sig (Elt F)) : after opsC V (main_arg4 : DevRef τ sig) = V (main_arg4 : DevRef τ sig) := by after_results_simp
theorem C_arg5 (V : Valuation τ sig (Elt F)) : after opsC V (main_arg5 : DevRef τ sig) = V (main_arg5 : DevRef τ sig) := by after_results_simp
theorem C_arg6 (V : Valuation τ sig (Elt F)) : after opsC V (main_arg6 : DevRef τ sig) = V (main_arg6 : DevRef τ sig) := by after_results_simp
theorem C_arg7 (V : Valuation τ sig (Elt F)) : after opsC V (main_arg7 : DevRef τ sig) = V (main_arg7 : DevRef τ sig) := by after_results_simp

end Readback

/-! ## The whole line -/

/-- The result buffer after the line is the reference's value at the arguments: the third stretch's reading, at the
    second's, at the first's, is that function's stages composed in its own order. -/
theorem out_eq (V : Valuation τ sig (Elt F)) : after ops V (main_v66 : DevRef τ sig)
    = RHost.val (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) (V (main_arg7 : DevRef τ sig)) := by
  rw [show (ops : List (HloOp τ sig (Elt F))) = (opsA ++ opsB) ++ opsC from rfl, StableHlo.after_append, StableHlo.after_append, C_v66,
    B_v2, B_v35, B_v47, B_v4, B_v6, B_arg7, A_v2, A_v30, A_v4, A_v6, A_arg7]
  rfl

theorem arg0_eq (V : Valuation τ sig (Elt F)) : after ops V (main_arg0 : DevRef τ sig) = V (main_arg0 : DevRef τ sig) := by
  rw [show (ops : List (HloOp τ sig (Elt F))) = (opsA ++ opsB) ++ opsC from rfl, StableHlo.after_append, StableHlo.after_append, C_arg0, B_arg0, A_arg0]
theorem arg1_eq (V : Valuation τ sig (Elt F)) : after ops V (main_arg1 : DevRef τ sig) = V (main_arg1 : DevRef τ sig) := by
  rw [show (ops : List (HloOp τ sig (Elt F))) = (opsA ++ opsB) ++ opsC from rfl, StableHlo.after_append, StableHlo.after_append, C_arg1, B_arg1, A_arg1]
theorem arg2_eq (V : Valuation τ sig (Elt F)) : after ops V (main_arg2 : DevRef τ sig) = V (main_arg2 : DevRef τ sig) := by
  rw [show (ops : List (HloOp τ sig (Elt F))) = (opsA ++ opsB) ++ opsC from rfl, StableHlo.after_append, StableHlo.after_append, C_arg2, B_arg2, A_arg2]
theorem arg3_eq (V : Valuation τ sig (Elt F)) : after ops V (main_arg3 : DevRef τ sig) = V (main_arg3 : DevRef τ sig) := by
  rw [show (ops : List (HloOp τ sig (Elt F))) = (opsA ++ opsB) ++ opsC from rfl, StableHlo.after_append, StableHlo.after_append, C_arg3, B_arg3, A_arg3]
theorem arg4_eq (V : Valuation τ sig (Elt F)) : after ops V (main_arg4 : DevRef τ sig) = V (main_arg4 : DevRef τ sig) := by
  rw [show (ops : List (HloOp τ sig (Elt F))) = (opsA ++ opsB) ++ opsC from rfl, StableHlo.after_append, StableHlo.after_append, C_arg4, B_arg4, A_arg4]
theorem arg5_eq (V : Valuation τ sig (Elt F)) : after ops V (main_arg5 : DevRef τ sig) = V (main_arg5 : DevRef τ sig) := by
  rw [show (ops : List (HloOp τ sig (Elt F))) = (opsA ++ opsB) ++ opsC from rfl, StableHlo.after_append, StableHlo.after_append, C_arg5, B_arg5, A_arg5]
theorem arg6_eq (V : Valuation τ sig (Elt F)) : after ops V (main_arg6 : DevRef τ sig) = V (main_arg6 : DevRef τ sig) := by
  rw [show (ops : List (HloOp τ sig (Elt F))) = (opsA ++ opsB) ++ opsC from rfl, StableHlo.after_append, StableHlo.after_append, C_arg6, B_arg6, A_arg6]
theorem arg7_eq (V : Valuation τ sig (Elt F)) : after ops V (main_arg7 : DevRef τ sig) = V (main_arg7 : DevRef τ sig) := by
  rw [show (ops : List (HloOp τ sig (Elt F))) = (opsA ++ opsB) ++ opsC from rfl, StableHlo.after_append, StableHlo.after_append, C_arg7, B_arg7, A_arg7]

/-- On every device, for any float values, from any memory with zero counters: every weakly fair execution of the
    reference's @main terminates with the result buffer at the reference's value of the arguments' launch contents,
    and the arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v66) = RHost.val (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v66).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ (fun _ => ops_fresh))

end Cert.RRun

end
-- ==== Proof.PreRange.lean ====
/-
  The precondition's last two conjuncts, read back: every entry of the edge index lies in [0, 100000)
  as a signed integer.

  The precondition is a conjunction of one-bit scalars. Its last two conjuncts are "every entry of the
  edge index is ≥ 0" and "every entry of the edge index is < 100000", each an all-quantifier written as a
  reduction by `and` over both axes of the elementwise signed comparison against the splat of a constant.
  A conjunction of bits that is 1 has both bits 1; a reduction by `and` that is 1 met a 1 at every
  position; and a signed comparison's bit being 1 is the order relation between the signed readings.
-/
import proofs.«430437_j45698452029991_2_alg».proof.Defs
import proofs.«430437_j45698452029991_2_alg».proof.Proof.Gen.Pre_finite_inputs
import Idealize.ShloMosaic.Lib.ReduceAll
import Idealize.ShloMosaic.Lib.ValueIdx
import Idealize.ShloMosaic.Lib.StableHlo.Predicate

namespace Cert.PreRange

open Idealize.ShloMosaic Idealize.SL.Sem

/-- The scalar shape has exactly one index. -/
instance subsingleton_scalarIdx : Subsingleton Cert.Pre_finite_inputs.S_.Idx :=
  ⟨fun a b => funext fun d => d.elim0⟩

/-- The tail of the precondition (its last two conjuncts joined to whatever bit `v` came before):
    if it is 1, every entry of the edge index `ei` is in [0, 100000) read as a signed integer. -/
theorem range_of_part2 [Cert.Pre_finite_inputs.Facts] (ei : IVec Cert.Pre_finite_inputs.S2x1600000 32)
    (v : IVec Cert.Pre_finite_inputs.S_ 1)
    (h : Cert.Pre_finite_inputs.fn_part2 (F := Ideal) ei v ValueIdx.ix0 = 1#1)
    (j : Cert.Pre_finite_inputs.S2x1600000.Idx) :
    0 ≤ (ei j).toInt ∧ (ei j).toInt < 100000 := by
  unfold Cert.Pre_finite_inputs.fn_part2 at h
  dsimp only [andi] at h
  -- (v ∧ all(ei ≥ 0)) ∧ all(ei < 100000)
  obtain ⟨h1, hlt⟩ := IntOp.andi_eq_one.1 h
  obtain ⟨_, hge⟩ := IntOp.andi_eq_one.1 h1
  -- each all-quantifier gives its comparison's bit at the entry j
  have hge' := Host.reduce_andi_all _ _ _ _ _ hge j
  have hlt' := Host.reduce_andi_all _ _ _ _ _ hlt j
  dsimp only [cmpi, broadcastInDim, constantI] at hge' hlt'
  rw [IntOp.cmpi_sge] at hge'
  rw [IntOp.cmpi_slt] at hlt'
  have e0 : (0#32 : BitVec 32).toInt = 0 := by decide
  have e1 : (100000#32 : BitVec 32).toInt = 100000 := by decide
  rw [e0] at hge'
  rw [e1] at hlt'
  exact ⟨hge', hlt'⟩

/-- The whole precondition, as a function of the eight argument arrays: if it is all ones, every entry of the
    edge index (the second argument) is in [0, 100000) read as a signed integer. The seven finiteness conjuncts
    are not used. -/
theorem range_of_fn [Cert.Pre_finite_inputs.Facts]
    (a0 : FVec Ideal Cert.Pre_finite_inputs.S100000x128 .f32) (ei : IVec Cert.Pre_finite_inputs.S2x1600000 32)
    (a2 : FVec Ideal Cert.Pre_finite_inputs.S1600000x16 .f32) (a3 : FVec Ideal Cert.Pre_finite_inputs.S64x128 .f32)
    (a4 : FVec Ideal Cert.Pre_finite_inputs.S4x16 .f32) (a5 a6 : FVec Ideal Cert.Pre_finite_inputs.S1x4x16 .f32)
    (a7 : FVec Ideal Cert.Pre_finite_inputs.S64 .f32)
    (h : Cert.Pre_finite_inputs.fn (F := Ideal) a0 ei a2 a3 a4 a5 a6 a7 = (fun _ => 1#1))
    (j : Cert.Pre_finite_inputs.S2x1600000.Idx) :
    0 ≤ (ei j).toInt ∧ (ei j).toInt < 100000 := by
  have h0 := congrFun h ValueIdx.ix0
  unfold Cert.Pre_finite_inputs.fn at h0
  dsimp only at h0
  unfold Cert.Pre_finite_inputs.fn_part1 at h0
  dsimp only at h0
  exact range_of_part2 ei _ h0 j

/-- Under the certificate's precondition, on every device, every entry of the edge index (the program's second
    argument, i32[2, 1600000]) is in [0, 100000) read as a signed integer. -/
theorem range_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S2x1600000.Idx) :
    0 ≤ ((m ((c.tc : Thread Cert.KernelIdeal.nD Cert.KernelIdeal.τ).loc Cert.KernelIdeal.main_arg1)) j).toInt
      ∧ ((m ((c.tc : Thread Cert.KernelIdeal.nD Cert.KernelIdeal.τ).loc Cert.KernelIdeal.main_arg1)) j).toInt < 100000 :=
  range_of_fn _ _ _ _ _ _ _ _ (h c) j

end Cert.PreRange
-- ==== Proof.LibWords.lean ====
/-
  Facts about 32-bit words, read at one element of an array: a small nonnegative word reads the same signed and
  unsigned; the signed quotient and remainder of two such words are the quotient and remainder of their values; the
  floor quotient `a // b` of a nonnegative word by a positive one is the quotient of the values (the correction for
  operands of different signs never fires); and the three comparisons that test whether an index lies in
  [0, 100000) are decided by the index's signed value.
-/
import proofs.«430437_j45698452029991_2_alg».proof.Proof.KHost
import Idealize.ShloMosaic.Lib.ValueIdx
import Idealize.ShloMosaic.Lib.StableHlo.Predicate

namespace Cert.LibWords

open Idealize.ShloMosaic

/-- Every entry of an index vector of 1600000 words names a row of a table of 100000 rows. -/
def InRange (i : IVec ⟨1, ![1600000]⟩ 32) : Prop :=
  ∀ e : Fin 1600000, 0 ≤ (i (ValueIdx.ix1 e)).toInt ∧ (i (ValueIdx.ix1 e)).toInt < 100000

/-! ## Small nonnegative words -/

/-- A value below 2³¹ survives the trip through a 32-bit word. -/
theorem toNat_ofNat_small (n : Nat) (hn : n < 2 ^ 31) : (BitVec.ofNat 32 n).toNat = n := by
  rw [BitVec.toNat_ofNat]; exact Nat.mod_eq_of_lt (by omega)

/-- Such a word's sign bit is clear. -/
theorem msb_ofNat_small (n : Nat) (hn : n < 2 ^ 31) : (BitVec.ofNat 32 n).msb = false :=
  BitVec.msb_eq_false_iff_two_mul_lt.mpr (by rw [toNat_ofNat_small n hn]; omega)

/-- The word of a positive value below 2³¹ is not the zero word. -/
theorem ofNat_ne_zero (k : Nat) (hk : 0 < k) (hk' : k < 2 ^ 31) : BitVec.ofNat 32 k ≠ 0#32 := by
  intro h
  have := congrArg BitVec.toNat h
  rw [toNat_ofNat_small k hk'] at this
  exact absurd this (by simp only [BitVec.toNat_ofNat, Nat.zero_mod]; omega)

/-- The word of a value below 2³¹ is zero only when the value is. -/
theorem ofNat_eq_zero_iff (n : Nat) (hn : n < 2 ^ 31) : BitVec.ofNat 32 n = 0#32 ↔ n = 0 := by
  constructor
  · intro h
    rcases Nat.eq_zero_or_pos n with h0 | h0
    · exact h0
    · exact absurd h (ofNat_ne_zero n h0 hn)
  · intro h; subst h; rfl

/-- The signed quotient of two small nonnegative words is the quotient of their values. -/
theorem sdiv_ofNat_small (n k : Nat) (hn : n < 2 ^ 31) (hk' : k < 2 ^ 31) :
    (BitVec.ofNat 32 n).sdiv (BitVec.ofNat 32 k) = BitVec.ofNat 32 (n / k) := by
  apply BitVec.eq_of_toNat_eq
  simp only [BitVec.sdiv_eq, msb_ofNat_small n hn, msb_ofNat_small k hk', BitVec.udiv_eq, BitVec.toNat_udiv]
  rw [toNat_ofNat_small n hn, toNat_ofNat_small k hk',
    toNat_ofNat_small (n / k) (lt_of_le_of_lt (Nat.div_le_self n k) hn)]

/-- The signed remainder of two small nonnegative words is the remainder of their values. -/
theorem srem_ofNat_small (n k : Nat) (hn : n < 2 ^ 31) (hk' : k < 2 ^ 31) :
    (BitVec.ofNat 32 n).srem (BitVec.ofNat 32 k) = BitVec.ofNat 32 (n % k) := by
  apply BitVec.eq_of_toNat_eq
  simp only [BitVec.srem_eq, msb_ofNat_small n hn, msb_ofNat_small k hk', BitVec.toNat_umod]
  rw [toNat_ofNat_small n hn, toNat_ofNat_small k hk',
    toNat_ofNat_small (n % k) (lt_of_le_of_lt (Nat.mod_le n k) hn)]

/-- A nonnegative dividend and a positive divisor meet no corner of the signed division. -/
theorem not_corner_small (n k : Nat) (hn : n < 2 ^ 31) (hk : 0 < k) (hk' : k < 2 ^ 31) :
    ¬ IntOp.SDivCorner (BitVec.ofNat 32 n) (BitVec.ofNat 32 k) := by
  intro hc
  rcases hc with hc | ⟨hc, _⟩
  · exact ofNat_ne_zero k hk hk' hc
  · have := congrArg BitVec.toNat hc
    rw [toNat_ofNat_small n hn] at this
    have h2 : (BitVec.intMin 32).toNat = 2 ^ 31 := by decide
    omega

/-- On the host, the quotient of a small nonnegative word by a small positive one is the quotient of the values. -/
theorem divsi_ofNat_small (n k : Nat) (hn : n < 2 ^ 31) (hk : 0 < k) (hk' : k < 2 ^ 31) :
    IntOp.divsi .host (BitVec.ofNat 32 n) (BitVec.ofNat 32 k) = BitVec.ofNat 32 (n / k) := by
  unfold IntOp.divsi
  rw [if_neg (not_corner_small n k hn hk hk')]
  exact sdiv_ofNat_small n k hn hk'

/-- Likewise the remainder. -/
theorem remsi_ofNat_small (n k : Nat) (hn : n < 2 ^ 31) (hk : 0 < k) (hk' : k < 2 ^ 31) :
    IntOp.remsi .host (BitVec.ofNat 32 n) (BitVec.ofNat 32 k) = BitVec.ofNat 32 (n % k) := by
  unfold IntOp.remsi
  rw [if_neg (not_corner_small n k hn hk hk')]
  exact srem_ofNat_small n k hn hk'

/-! ## The floor quotient of a nonnegative word by a positive scalar -/

/-- The sign of a word: 0, −1 or 1. -/
def sgn (x : BitVec 32) : BitVec 32 := if x = 0 then 0 else if x.msb then -1 else 1

/-- One element of `a // b`: the truncated quotient, less one where the signs differ and the remainder is not zero. -/
def floorWord (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

/-- For a nonnegative dividend and a positive divisor the correction never fires: a zero dividend has remainder zero,
    a positive one has the divisor's sign. -/
theorem floorWord_ofNat (n k : Nat) (hn : n < 2 ^ 31) (hk : 0 < k) (hk' : k < 2 ^ 31) :
    floorWord (BitVec.ofNat 32 n) (BitVec.ofNat 32 k) = BitVec.ofNat 32 (n / k) := by
  have hsk : sgn (BitVec.ofNat 32 k) = 1 := by
    unfold sgn
    rw [if_neg (show ¬ BitVec.ofNat 32 k = 0 from ofNat_ne_zero k hk hk'), msb_ofNat_small k hk']
    rfl
  have hcond : IntOp.andi (IntOp.cmpi .ne (sgn (BitVec.ofNat 32 n)) (sgn (BitVec.ofNat 32 k)))
      (IntOp.cmpi .ne (IntOp.remsi .host (BitVec.ofNat 32 n) (BitVec.ofNat 32 k)) 0#32) = 0#1 := by
    rw [hsk, remsi_ofNat_small n k hn hk hk']
    rcases Nat.eq_zero_or_pos n with h0 | h0
    · subst h0
      rw [Nat.zero_mod]
      decide
    · have hsn : sgn (BitVec.ofNat 32 n) = 1 := by
        unfold sgn
        rw [if_neg (show ¬ BitVec.ofNat 32 n = 0 from ofNat_ne_zero n h0 hn), msb_ofNat_small n hn]
        rfl
      rw [hsn]
      have : IntOp.cmpi .ne (1 : BitVec 32) 1 = 0#1 := by decide
      rw [this]
      unfold IntOp.andi
      exact BitVec.zero_and
  unfold floorWord
  rw [hcond, ValueIdx.select_zero]
  exact divsi_ofNat_small n k hn hk hk'

/-- A scalar broadcast to any shape reads the scalar at every index. -/
theorem bcast_scalar_apply {α : Type} (S : Shape)
    (hb : Cert.KernelIdeal.S_.BroadcastsInDim S (![] : Fin 0 → Fin S.rank)) (v : Cert.KernelIdeal.S_.Idx → α) (i : S.Idx) :
    broadcastInDim S ![] hb v i = v ValueIdx.ix0 := by
  simp only [broadcastInDim]
  congr 1
  funext c
  exact c.elim0

/-- THE FLOOR QUOTIENT AT AN INDEX: where the dividend's word is a value `n` below 2³¹ and the scalar divisor's a
    positive `k` below 2³¹, `a // b` reads the word of `n / k`. -/
theorem floorDiv_apply [Cert.KernelIdeal.Facts] (S : Shape)
    (hb : Cert.KernelIdeal.S_.BroadcastsInDim S (![] : Fin 0 → Fin S.rank))
    (a : IVec S 32) (b : IVec Cert.KernelIdeal.S_ 32) (i : S.Idx) (n k : Nat)
    (ha : a i = BitVec.ofNat 32 n) (hn : n < 2 ^ 31) (hb' : b ValueIdx.ix0 = BitVec.ofNat 32 k) (hk : 0 < k)
    (hk' : k < 2 ^ 31) :
    Cert.KHost.floorDiv S hb a b i = BitVec.ofNat 32 (n / k) := by
  have h1 : Cert.KHost.floorDiv S hb a b i = floorWord (a i) (b ValueIdx.ix0) := by
    unfold Cert.KHost.floorDiv floorWord
    simp only [ValueIdx.select_apply, andi, cmpi, subi, Host.divsi, Host.remsi, bcast_scalar_apply]
    rfl
  rw [h1, ha, hb']
  exact floorWord_ofNat n k hn hk hk'

/-! ## The comparisons that test an index's range -/

/-- A word of nonnegative signed value is not below zero … -/
theorem slt_zero_of_nonneg (x : BitVec 32) (h : 0 ≤ x.toInt) : IntOp.cmpi .slt x 0#32 = 0#1 := by
  have h0 : (0#32 : BitVec 32).toInt = 0 := by decide
  have : x.slt 0#32 = false := by
    simp only [BitVec.slt, h0, decide_eq_false_iff_not]; omega
  show BitVec.ofBool (x.slt 0#32) = 0#1
  rw [this]; rfl

/-- … and is at least zero. -/
theorem sge_zero_of_nonneg (x : BitVec 32) (h : 0 ≤ x.toInt) : IntOp.cmpi .sge x 0#32 = 1#1 := by
  have h0 : (0#32 : BitVec 32).toInt = 0 := by decide
  have : (0#32 : BitVec 32).sle x = true := by
    simp only [BitVec.sle, h0, decide_eq_true_eq]; exact h
  show BitVec.ofBool ((0#32 : BitVec 32).sle x) = 1#1
  rw [this]; rfl

/-- A word of signed value below 100000 is at most 99999. -/
theorem sle_last_of_lt (x : BitVec 32) (h : x.toInt < 100000) : IntOp.cmpi .sle x 99999#32 = 1#1 := by
  have h0 : (99999#32 : BitVec 32).toInt = 99999 := by decide
  have : x.sle 99999#32 = true := by
    simp only [BitVec.sle, h0, decide_eq_true_eq]; omega
  show BitVec.ofBool (x.sle 99999#32) = 1#1
  rw [this]; rfl

end Cert.LibWords
-- ==== Proof.BridgeTake.lean ====
/-
  Taking rows of a table by an index vector, two ways, for index vectors whose every entry names a row of the table.
  Both wrap a negative index by the table's height and gather the rows; the first (`take`) also tests the wrapped
  index against [0, 99999] and fills the rows that fail with the NaN word. Where every index lies in [0, 100000) the wrap is the
  identity, the test passes at every edge, and the fill is never taken: the two are the same gather. Also here: the
  two programs split the edge index into source and destination nodes by the same operations, and each half of an
  edge index whose entries are in range is in range.
-/
import proofs.«430437_j45698452029991_2_alg».proof.Proof.LibWords
import proofs.«430437_j45698452029991_2_alg».proof.Proof.RHost
import proofs.«430437_j45698452029991_2_alg».proof.Proof.Gen.KernelIdeal
import proofs.«430437_j45698452029991_2_alg».proof.Proof.Gen.ReferenceIdeal
import Idealize.ShloMosaic.Lib.ValueLayout

namespace Cert.BridgeTake

open Idealize.ShloMosaic Idealize.ShloMosaic.ValueIdx Cert.LibWords

variable [Cert.KernelIdeal.Facts] [Cert.ReferenceIdeal.Facts]

/-! ## Reading the broadcasts and the mask's reduction -/

/-- A vector of 1600000 entries laid down the rows of a [1600000 × m] array reads, at (e, c), its entry e. -/
theorem rowBcast_apply {α : Type} {m : Nat}
    (h : (⟨1, ![1600000]⟩ : Shape).BroadcastsInDim ⟨2, ![1600000, m]⟩ (![0] : Fin 1 → Fin 2))
    (v : (⟨1, ![1600000]⟩ : Shape).Idx → α) (e : Fin 1600000) (c : Fin m) :
    broadcastInDim ⟨2, ![1600000, m]⟩ ![0] h v (ix2 e c) = v (ix1 e) :=
  broadcastInDim_apply _ _ _ _ _ (fun a => match a with | ⟨0, _⟩ => rfl)

/-- A left fold by `and` from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi (1#1 : BitVec 1) 1#1 = 1#1 from by decide]
    exact foldl_andi_one f hf l

/-- A reduction by `and`, from 1, of an array of bits that are all 1 is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ k, x k = 1#1) : Host.reduce IntOp.andi x init h hu j = 1#1 := by
  rw [Host.reduce_eq_foldl, hinit]
  exact foldl_andi_one x hx _

/-! ## The wrap and the range test on indices in range -/

/-- The negative wrap leaves an index in range as it is. -/
theorem wrapCol_apply (i : IVec Cert.KernelIdeal.S1600000 32) (hi : InRange i) (e : Fin 1600000) :
    Cert.KHost.wrapCol i (ix2 e (0 : Fin 1)) = i (ix1 e) := by
  unfold Cert.KHost.wrapCol
  rw [rowBcast_apply, select_apply]
  have hc : cmpi .slt i (broadcastInDim Cert.KernelIdeal.S1600000 ![] Cert.KernelIdeal.Facts₀.bcast_S_S1600000
      (constantI Cert.KernelIdeal.S_ 32 0#32)) (ix1 e) = 0#1 := by
    show IntOp.cmpi .slt (i (ix1 e)) 0#32 = 0#1
    exact slt_zero_of_nonneg _ (hi e).1
  rw [hc, select_zero]

/-- The range test passes at every edge. -/
theorem inRange_apply (i : IVec Cert.KernelIdeal.S1600000 32) (hi : InRange i) (e : Fin 1600000) :
    Cert.KHost.inRange i (ix1 e) = 1#1 := by
  unfold Cert.KHost.inRange
  refine reduce_andi_one _ _ _ _ _ rfl (fun k => ?_)
  obtain ⟨e', z, rfl⟩ : ∃ (a : Fin 1600000) (b : Fin 1), k = ix2 a b := ⟨k 0, k 1, eq_ix2 k⟩
  obtain rfl : z = 0 := Subsingleton.elim _ _
  show IntOp.andi (IntOp.cmpi .sge (Cert.KHost.wrapCol i (ix2 e' (0 : Fin 1))) 0#32)
    (IntOp.cmpi .sle (Cert.KHost.wrapCol i (ix2 e' (0 : Fin 1))) 99999#32) = 1#1
  rw [wrapCol_apply i hi e', sge_zero_of_nonneg _ (hi e').1, sle_last_of_lt _ (hi e').2]
  decide

/-! ## The two programs' wraps and gathers are the same terms -/

/-- Both programs print the negative wrap with the same operations. -/
theorem wrapCol_eq (i : IVec Cert.KernelIdeal.S1600000 32) : Cert.KHost.wrapCol i = Cert.RHost.wrapCol i := rfl

/-- The two programs' gathers of a (100000, 4) table carry the same dimension numbers. -/
theorem gather4_eq :
    Cert.KernelIdeal.gather_S100000x4_S1600000x1_S1600000x4_1_0_n_n_0_1_14
      = Cert.ReferenceIdeal.gather_S100000x4_S1600000x1_S1600000x4_1_0_n_n_0_1_14 := rfl

/-! ## `take` against row indexing -/

/-- On indices in range, `take` of a (100000, 4) table is the reference's row indexing. -/
theorem take4_eq (x : FVec Ideal Cert.KernelIdeal.S100000x4 .f32) (i : IVec Cert.KernelIdeal.S1600000 32)
    (hi : InRange i) : Cert.KHost.take4 x i = Cert.RHost.rows4 x i := by
  funext j
  obtain ⟨e, c, rfl⟩ : ∃ (a : Fin 1600000) (b : Fin 4), j = ix2 a b := ⟨j 0, j 1, eq_ix2 j⟩
  unfold Cert.KHost.take4 Cert.RHost.rows4
  rw [select_apply, rowBcast_apply, inRange_apply i hi e, select_one, gather4_eq, wrapCol_eq]

/-- On indices in range, `take` of a (100000, 64) table is the bare gather at the wrapped indices. -/
theorem take64_eq (x : FVec Ideal Cert.KernelIdeal.S100000x64 .f32) (i : IVec Cert.KernelIdeal.S1600000 32)
    (hi : InRange i) :
    Cert.KHost.take64 x i
      = Host.gather Cert.KernelIdeal.gather_S100000x64_S1600000x1_S1600000x64_1_0_n_n_0_1_164 x (Cert.KHost.wrapCol i) := by
  funext j
  obtain ⟨e, c, rfl⟩ : ∃ (a : Fin 1600000) (b : Fin 64), j = ix2 a b := ⟨j 0, j 1, eq_ix2 j⟩
  unfold Cert.KHost.take64
  rw [select_apply, rowBcast_apply, inRange_apply i hi e, select_one]

/-! ## The edge index split into source and destination nodes -/

/-- Both programs take the source nodes by the same operations … -/
theorem src_eq (ei : IVec Cert.KernelIdeal.S2x1600000 32) : Cert.KHost.src ei = Cert.RHost.src ei := rfl

/-- … and the destination nodes. -/
theorem dst_eq (ei : IVec Cert.KernelIdeal.S2x1600000 32) : Cert.KHost.dst ei = Cert.RHost.dst ei := rfl

/-- Edge e's source node is entry (0, e) of the edge index. -/
theorem src_apply (ei : IVec Cert.KernelIdeal.S2x1600000 32) (e : Fin 1600000) :
    Cert.KHost.src ei (ix1 e) = ei (ix2 (0 : Fin 2) e) := by
  unfold Cert.KHost.src
  refine (shapeCast_1a_a_apply _ _ e).trans ?_
  exact slice2_axis0_apply 0 ei _ (0 : Fin 1) e (0 : Fin 2) rfl

/-- Edge e's destination node is entry (1, e) of the edge index. -/
theorem dst_apply (ei : IVec Cert.KernelIdeal.S2x1600000 32) (e : Fin 1600000) :
    Cert.KHost.dst ei (ix1 e) = ei (ix2 (1 : Fin 2) e) := by
  unfold Cert.KHost.dst
  refine (shapeCast_1a_a_apply _ _ e).trans ?_
  exact slice2_axis0_apply 1 ei _ (0 : Fin 1) e (1 : Fin 2) rfl

/-- The source nodes of an edge index whose entries are in range are in range … -/
theorem src_inRange (ei : IVec Cert.KernelIdeal.S2x1600000 32)
    (h : ∀ j : Cert.KernelIdeal.S2x1600000.Idx, 0 ≤ (ei j).toInt ∧ (ei j).toInt < 100000) :
    InRange (Cert.KHost.src ei) := by
  intro e
  rw [src_apply]
  exact h _

/-- … and so are the destination nodes. -/
theorem dst_inRange (ei : IVec Cert.KernelIdeal.S2x1600000 32)
    (h : ∀ j : Cert.KernelIdeal.S2x1600000.Idx, 0 ≤ (ei j).toInt ∧ (ei j).toInt < 100000) :
    InRange (Cert.KHost.dst ei) := by
  intro e
  rw [dst_apply]
  exact h _

end Cert.BridgeTake
-- ==== Proof.BridgeNode.lean ====
/-
  The node transform, bridged. The kernel's first call computes the transformed features Wh = x · W_nodeᵀ entry by
  entry as a 128-term sum, and in the same body the merged attention scalars Wh · M, where M is the (64, 8) selector
  whose column h < 4 carries the source attention vector on the sixteen channels of head h and zero elsewhere, and
  whose column 4 + h carries the destination vector likewise. The reference computes Wh by a contraction against the
  transposed weights, views it as (100000, 4, 16) and sums Wh · att over the sixteen channels of each head. Here:
  the reference's contraction read at an index is the same 128-term sum; the selector read at an index; and column h
  of Wh · M, a 64-term sum whose terms off head h are a product with zero — zero for every extended real — and whose
  sixteen terms on head h are the reference's.
-/
import proofs.«430437_j45698452029991_2_alg».proof.Proof.KHost
import proofs.«430437_j45698452029991_2_alg».proof.Proof.RHost
import proofs.«430437_j45698452029991_2_alg».proof.Proof.LibWords
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws
import Mathlib.Algebra.BigOperators.Fin
import Mathlib.Logic.Equiv.Fin.Basic

namespace Cert.BridgeNode

open Idealize.ShloMosaic Idealize.ShloMosaic.ValueIdx
open scoped BigOperators

variable [Cert.KernelIdeal.Facts] [Cert.ReferenceIdeal.Facts]

/-! ## The reference's contraction x · W_nodeᵀ at an index -/

/-- On the rows axis the left operand reads the result's row. -/
theorem lhs_wh_0 (j : Cert.ReferenceIdeal.S100000x64.Idx)
    (k : Cert.ReferenceIdeal.dot_S100000x128_S128x64_S100000x64_1_0_0_1_n_n.contr.Idx) :
    (Cert.ReferenceIdeal.dot_S100000x128_S128x64_S100000x64_1_0_0_1_n_n.lhsIdx j k 0).val = (j 0).val := rfl

/-- On its contracted axis the left operand reads the contraction position. -/
theorem lhs_wh_1 (j : Cert.ReferenceIdeal.S100000x64.Idx)
    (k : Cert.ReferenceIdeal.dot_S100000x128_S128x64_S100000x64_1_0_0_1_n_n.contr.Idx) :
    (Cert.ReferenceIdeal.dot_S100000x128_S128x64_S100000x64_1_0_0_1_n_n.lhsIdx j k 1).val = (k ⟨0, Nat.one_pos⟩).val :=
  DotDims.lhsIdx_val_of_single _ rfl j k

/-- On its contracted axis the right operand reads the contraction position. -/
theorem rhs_wh_0 (j : Cert.ReferenceIdeal.S100000x64.Idx)
    (k : Cert.ReferenceIdeal.dot_S100000x128_S128x64_S100000x64_1_0_0_1_n_n.contr.Idx) :
    (Cert.ReferenceIdeal.dot_S100000x128_S128x64_S100000x64_1_0_0_1_n_n.rhsIdx j k 0).val = (k ⟨0, Nat.one_pos⟩).val :=
  DotDims.rhsIdx_val_of_single _ rfl j k

/-- On the columns axis the right operand reads the result's column. -/
theorem rhs_wh_1 (j : Cert.ReferenceIdeal.S100000x64.Idx)
    (k : Cert.ReferenceIdeal.dot_S100000x128_S128x64_S100000x64_1_0_0_1_n_n.contr.Idx) :
    (Cert.ReferenceIdeal.dot_S100000x128_S128x64_S100000x64_1_0_0_1_n_n.rhsIdx j k 1).val = (j 1).val := rfl

/-- The reference's Wh at (n, c): the sum over the 128 input features of x[n, i] · W_node[c, i]. -/
theorem wh_apply (x : FVec Ideal Cert.KernelIdeal.S100000x128 .f32) (wn : FVec Ideal Cert.KernelIdeal.S64x128 .f32)
    (n : Fin 100000) (c : Fin 64) :
    Cert.RHost.wh x wn (ix2 n c) = ∑ i : Fin 128, x (ix2 n i) * wn (ix2 c i) := by
  unfold Cert.RHost.wh
  simp only [Host.dotGeneral]
  rw [Ideal.dotGeneral_apply]
  rw [← Equiv.sum_comp (contrEquiv1 Cert.ReferenceIdeal.dot_S100000x128_S128x64_S100000x64_1_0_0_1_n_n 128 rfl rfl).symm]
  refine Finset.sum_congr rfl fun i _ => ?_
  congr 1
  · refine congrArg x (funext fun a => Fin.ext ?_)
    match a with
    | ⟨0, _⟩ => exact lhs_wh_0 _ _
    | ⟨1, _⟩ => exact (lhs_wh_1 _ _).trans (contrEquiv1_symm_val _ 128 rfl rfl i)
  · refine transpose_apply [1, 0] wn _ _ (ix2 c i) fun b => ?_
    match b with
    | ⟨0, _⟩ => exact ((rhs_wh_0 _ _).trans (contrEquiv1_symm_val _ 128 rfl rfl i)).symm
    | ⟨1, _⟩ => exact (rhs_wh_1 (ix2 n c) _).symm

/-- An array whose every entry is that 128-term sum is the reference's Wh. -/
theorem wh_eq (x : FVec Ideal Cert.KernelIdeal.S100000x128 .f32) (wn : FVec Ideal Cert.KernelIdeal.S64x128 .f32)
    (w : FVec Ideal Cert.KernelIdeal.S100000x64 .f32)
    (hw : ∀ (n : Fin 100000) (c : Fin 64), w (ix2 n c) = ∑ j : Fin 128, x (ix2 n j) * wn (ix2 c j)) :
    w = Cert.RHost.wh x wn := by
  funext j
  obtain ⟨n, c, rfl⟩ : ∃ (n : Fin 100000) (c : Fin 64), j = ix2 n c := ⟨j 0, j 1, eq_ix2 j⟩
  rw [hw, wh_apply]

/-! ## The reference's attention scalars at an index -/

/-- The (100000, 4, 16) view of Wh at (n, h, k) is Wh at (n, 16 h + k). -/
theorem wh3_apply (w : FVec Ideal Cert.KernelIdeal.S100000x64 .f32) (n : Fin 100000) (h : Fin 4) (k : Fin 16) :
    Cert.RHost.wh3 w (ix3 n h k) = w (ix2 n (⟨16 * h.val + k.val, by omega⟩ : Fin 64)) := by
  unfold Cert.RHost.wh3
  refine shapeCast_apply w _ _ _ ?_
  rw [Shape.rowMajor_val_two, Shape.rowMajor_val_three]
  show n.val * 64 + (16 * h.val + k.val) = (n.val * 4 + h.val) * 16 + k.val
  omega

/-- The reference's attention scalar at (n, h): the sum over head h's sixteen channels of feature times weight. -/
theorem attn_apply (w3 : FVec Ideal Cert.ReferenceIdeal.S100000x4x16 .f32) (att : FVec Ideal Cert.KernelIdeal.S1x4x16 .f32)
    (n : Fin 100000) (h : Fin 4) :
    Cert.RHost.attn w3 att (ix2 n h) = ∑ k : Fin 16, w3 (ix3 n h k) * att (ix3 (0 : Fin 1) h k) := by
  unfold Cert.RHost.attn
  rw [hostReduceAdd_apply,
    Ideal.hostReduceAdd_single _ (by decide : Cert.ReferenceIdeal.S100000x4x16.Reduces [2] Cert.ReferenceIdeal.S100000x4),
    constant_apply, Ideal.ofBits_zero_f32, zero_add]
  refine Finset.sum_congr rfl fun k _ => ?_
  rw [mulf_apply]
  congr 1
  · refine congrArg w3 (funext fun a => ?_)
    match a with
    | ⟨0, _⟩ => rfl
    | ⟨1, _⟩ => rfl
    | ⟨2, _⟩ => rfl
  · refine broadcastInDim_apply _ _ att _ (ix3 (0 : Fin 1) h k) fun a => ?_
    match a with
    | ⟨0, _⟩ => rfl
    | ⟨1, _⟩ => rfl
    | ⟨2, _⟩ => rfl

/-! ## The selector at an index -/

section Selector
variable {α : Type}

/-- A vector of 64 laid down the rows of a (64, 4) array reads, at (c, h), the vector at c. -/
theorem rows64_apply (h₁ : Cert.KernelIdeal.S64.BroadcastsInDim Cert.KernelIdeal.S64x1 ![0])
    (h₂ : Cert.KernelIdeal.S64x1.BroadcastsInDim Cert.KernelIdeal.S64x4 ![0, 1]) (v : Cert.KernelIdeal.S64.Idx → α)
    (c : Fin 64) (h : Fin 4) :
    broadcastInDim Cert.KernelIdeal.S64x4 ![0, 1] h₂ (broadcastInDim Cert.KernelIdeal.S64x1 ![0] h₁ v) (ix2 c h) = v (ix1 c) := by
  refine (broadcastInDim_apply ![0, 1] h₂ _ (ix2 c h) (ix2 c (0 : Fin 1)) fun a => ?_).trans
    (broadcastInDim_apply ![0] h₁ v (ix2 c (0 : Fin 1)) (ix1 c) fun a => ?_)
  · match a with
    | ⟨0, _⟩ => rfl
    | ⟨1, _⟩ => rfl
  · match a with
    | ⟨0, _⟩ => rfl

/-- A vector of 4 laid along the columns of a (64, 4) array reads, at (c, h), the vector at h. -/
theorem cols4_apply (h₁ : Cert.KernelIdeal.S4.BroadcastsInDim Cert.KernelIdeal.S1x4 ![1])
    (h₂ : Cert.KernelIdeal.S1x4.BroadcastsInDim Cert.KernelIdeal.S64x4 ![0, 1]) (v : Cert.KernelIdeal.S4.Idx → α)
    (c : Fin 64) (h : Fin 4) :
    broadcastInDim Cert.KernelIdeal.S64x4 ![0, 1] h₂ (broadcastInDim Cert.KernelIdeal.S1x4 ![1] h₁ v) (ix2 c h) = v (ix1 h) := by
  refine (broadcastInDim_apply ![0, 1] h₂ _ (ix2 c h) (ix2 (0 : Fin 1) h) fun a => ?_).trans
    (broadcastInDim_apply ![1] h₁ v (ix2 (0 : Fin 1) h) (ix1 h) fun a => ?_)
  · match a with
    | ⟨0, _⟩ => rfl
    | ⟨1, _⟩ => rfl
  · match a with
    | ⟨0, _⟩ => rfl

end Selector

/-- The words of two values below 2³¹ agree only when the values do. -/
theorem ofNat_inj_small (a b : Nat) (ha : a < 2 ^ 31) (hb : b < 2 ^ 31) (h : BitVec.ofNat 32 a = BitVec.ofNat 32 b) : a = b := by
  have := congrArg BitVec.toNat h
  rwa [Cert.LibWords.toNat_ofNat_small a ha, Cert.LibWords.toNat_ofNat_small b hb] at this

/-- One attention vector's selector at (c, h): the vector's weight at channel c — entry (0, c div 16, c mod 16) — when
    channel c belongs to head h, zero otherwise. -/
theorem attCols_apply (att : FVec Ideal Cert.KernelIdeal.S1x4x16 .f32) (c : Fin 64) (h : Fin 4) :
    Cert.KHost.attCols att (ix2 c h)
      = if c.val / 16 = h.val then
          att (ix3 (0 : Fin 1) (⟨c.val / 16, by omega⟩ : Fin 4) (⟨c.val % 16, Nat.mod_lt _ (by decide)⟩ : Fin 16))
        else 0 := by
  unfold Cert.KHost.attCols
  rw [select_apply]
  have hq : cmpi .eq
      (broadcastInDim Cert.KernelIdeal.S64x4 ![0, 1] Cert.KernelIdeal.Facts₀.bcast_S64x1_S64x4_0_1
        (broadcastInDim Cert.KernelIdeal.S64x1 ![0] Cert.KernelIdeal.Facts₀.bcast_S64_S64x1_0
          (Cert.KHost.floorDiv Cert.KernelIdeal.S64 Cert.KernelIdeal.Facts₀.bcast_S_S64
            (iotaInDim Cert.KernelIdeal.S64 32 0) (constantI Cert.KernelIdeal.S_ 32 16#32))))
      (broadcastInDim Cert.KernelIdeal.S64x4 ![0, 1] Cert.KernelIdeal.Facts₀.bcast_S1x4_S64x4_0_1
        (broadcastInDim Cert.KernelIdeal.S1x4 ![1] Cert.KernelIdeal.Facts₀.bcast_S4_S1x4_1 (iotaInDim Cert.KernelIdeal.S4 32 0)))
      (ix2 c h)
      = IntOp.cmpi .eq (BitVec.ofNat 32 (c.val / 16)) (BitVec.ofNat 32 h.val) := by
    show IntOp.cmpi .eq _ _ = _
    rw [rows64_apply, cols4_apply,
      Cert.LibWords.floorDiv_apply Cert.KernelIdeal.S64 _ _ _ (ix1 c) c.val 16 rfl (by omega) rfl (by decide) (by decide)]
    rfl
  rw [hq, rows64_apply, broadcastInDim_scalar_apply, constant_apply, Ideal.ofBits_zero_f32]
  by_cases hch : c.val / 16 = h.val
  · rw [if_pos hch, StableHlo.Predicate.cmpi_eq_iff.mpr (congrArg (BitVec.ofNat 32) hch), select_one]
    refine shapeCast_apply att _ _ _ ?_
    rw [Shape.rowMajor_val_three, Shape.rowMajor_val_one]
    show ((0 : Nat) * 4 + c.val / 16) * 16 + c.val % 16 = c.val
    omega
  · rw [if_neg hch, eq_zero_of_ne_one (fun e => hch
      (ofNat_inj_small _ _ (by omega) (by omega) (StableHlo.Predicate.cmpi_eq_iff.mp e))), select_zero]

/-- Columns 0 … 3 of the merged selector are the source vector's selector. -/
theorem mComb_src (asrc adst : FVec Ideal Cert.KernelIdeal.S1x4x16 .f32) (c : Fin 64) (h : Fin 4) :
    Cert.KHost.mComb asrc adst (ix2 c (⟨h.val, by omega⟩ : Fin 8)) = Cert.KHost.attCols asrc (ix2 c h) := by
  unfold Cert.KHost.mComb
  refine concatenate_pair_apply_left (t := Cert.KernelIdeal.S64x8) (s₁ := Cert.KernelIdeal.S64x4) (s₂ := Cert.KernelIdeal.S64x4)
    (1 : Fin 2) (Cert.KHost.attCols asrc) (Cert.KHost.attCols adst) _ (ix2 c (⟨h.val, by omega⟩ : Fin 8)) rfl (ix2 c h) fun b => ?_
  match b with
  | ⟨0, _⟩ => rfl
  | ⟨1, _⟩ => rfl

/-- Columns 4 … 7 of the merged selector are the destination vector's selector. -/
theorem mComb_dst (asrc adst : FVec Ideal Cert.KernelIdeal.S1x4x16 .f32) (c : Fin 64) (h : Fin 4) :
    Cert.KHost.mComb asrc adst (ix2 c (⟨h.val + 4, by omega⟩ : Fin 8)) = Cert.KHost.attCols adst (ix2 c h) := by
  unfold Cert.KHost.mComb
  refine concatenate_pair_apply_right (t := Cert.KernelIdeal.S64x8) (s₁ := Cert.KernelIdeal.S64x4) (s₂ := Cert.KernelIdeal.S64x4)
    (1 : Fin 2) (Cert.KHost.attCols asrc) (Cert.KHost.attCols adst) _ (ix2 c (⟨h.val + 4, by omega⟩ : Fin 8)) rfl rfl (ix2 c h)
    (fun b hb => ?_) rfl
  match b with
  | ⟨0, _⟩ => rfl
  | ⟨1, _⟩ => exact absurd rfl hb

/-- THE SELECTOR AT (c, j): on the rows of head j mod 4 — the channels c with c div 16 = j mod 4 — the weight at
    channel c of the source vector when j < 4 and of the destination vector when 4 ≤ j; zero on every other row. -/
theorem mComb_apply (asrc adst : FVec Ideal Cert.KernelIdeal.S1x4x16 .f32) (c : Fin 64) (j : Fin 8) :
    Cert.KHost.mComb asrc adst (ix2 c j)
      = if c.val / 16 = j.val % 4 then
          (if j.val < 4 then asrc else adst)
            (ix3 (0 : Fin 1) (⟨c.val / 16, by omega⟩ : Fin 4) (⟨c.val % 16, Nat.mod_lt _ (by decide)⟩ : Fin 16))
        else 0 := by
  by_cases hj : j.val < 4
  · refine (mComb_src asrc adst c (⟨j.val, hj⟩ : Fin 4)).trans ?_
    rw [attCols_apply, if_pos hj, Nat.mod_eq_of_lt hj]
  · have e : (⟨(⟨j.val - 4, by omega⟩ : Fin 4).val + 4, by omega⟩ : Fin 8) = j :=
      Fin.ext (show j.val - 4 + 4 = j.val by omega)
    have hd := mComb_dst asrc adst c (⟨j.val - 4, by omega⟩ : Fin 4)
    rw [e] at hd
    rw [hd, attCols_apply, if_neg hj, show j.val % 4 = j.val - 4 by omega]

/-! ## The merged attention scalars are the reference's -/

/-- The source side of the merged scalars at (n, h) is column h. -/
theorem aSrc_apply (a : FVec Ideal Cert.KernelIdeal.S100000x8 .f32) (n : Fin 100000) (h : Fin 4) :
    Cert.KHost.aSrc a (ix2 n h) = a (ix2 n (⟨h.val, by omega⟩ : Fin 8)) := by
  unfold Cert.KHost.aSrc
  refine extractStridedSlice_apply _ a _ _ _ fun b => ?_
  match b with
  | ⟨0, _⟩ => exact (Nat.zero_add _).symm
  | ⟨1, _⟩ => exact (Nat.zero_add _).symm

/-- The destination side of the merged scalars at (n, h) is column 4 + h. -/
theorem aDst_apply (a : FVec Ideal Cert.KernelIdeal.S100000x8 .f32) (n : Fin 100000) (h : Fin 4) :
    Cert.KHost.aDst a (ix2 n h) = a (ix2 n (⟨h.val + 4, by omega⟩ : Fin 8)) := by
  unfold Cert.KHost.aDst
  refine extractStridedSlice_apply _ a _ _ _ fun b => ?_
  match b with
  | ⟨0, _⟩ => exact (Nat.zero_add _).symm
  | ⟨1, _⟩ => exact Nat.add_comm _ _

/-- A sum over the 64 channels is the sum over the 4 heads of the sums over each head's 16 channels. -/
theorem sum_heads (f : Fin 64 → EReal) :
    ∑ c : Fin 64, f c = ∑ a : Fin 4, ∑ b : Fin 16, f (⟨16 * a.val + b.val, by omega⟩ : Fin 64) := by
  rw [← Equiv.sum_comp (finProdFinEquiv (m := 4) (n := 16)) f, Fintype.sum_prod_type]
  refine Finset.sum_congr rfl fun a _ => Finset.sum_congr rfl fun b _ => congrArg f (Fin.ext ?_)
  show b.val + 16 * a.val = 16 * a.val + b.val
  omega

/-- A 64-term sum against a column that is zero off head h keeps head h's sixteen terms: every other term is a
    product with zero, which is zero for every extended real. -/
theorem sum_head (f : Fin 64 → EReal) (g : Fin 4 → Fin 16 → EReal) (h : Fin 4) :
    ∑ c : Fin 64, f c * (if c.val / 16 = h.val then
        g (⟨c.val / 16, by omega⟩ : Fin 4) (⟨c.val % 16, Nat.mod_lt _ (by decide)⟩ : Fin 16) else 0)
      = ∑ k : Fin 16, f (⟨16 * h.val + k.val, by omega⟩ : Fin 64) * g h k := by
  rw [sum_heads, Finset.sum_eq_single h]
  · refine Finset.sum_congr rfl fun k _ => ?_
    rw [if_pos (show (16 * h.val + k.val) / 16 = h.val by omega)]
    congr 2
    · exact Fin.ext (show (16 * h.val + k.val) / 16 = h.val by omega)
    · exact Fin.ext (show (16 * h.val + k.val) % 16 = k.val by omega)
  · intro a _ ha
    refine Finset.sum_eq_zero fun k _ => ?_
    rw [if_neg (show ¬ (16 * a.val + k.val) / 16 = h.val from fun e => ha (Fin.ext (by omega))), mul_zero]
  · intro hh; exact absurd (Finset.mem_univ h) hh

/-- An array whose every entry (n, j) is the 64-term sum Σ_c Wh[n, c] · M[c, j] has the reference's source scalars in
    its columns 0 … 3 and the reference's destination scalars in its columns 4 … 7. -/
theorem attn_eq (w : FVec Ideal Cert.KernelIdeal.S100000x64 .f32) (asrc adst : FVec Ideal Cert.KernelIdeal.S1x4x16 .f32)
    (a : FVec Ideal Cert.KernelIdeal.S100000x8 .f32)
    (ha : ∀ (n : Fin 100000) (j : Fin 8),
      a (ix2 n j) = ∑ c : Fin 64, w (ix2 n c) * Cert.KHost.mComb asrc adst (ix2 c j)) :
    Cert.KHost.aSrc a = Cert.RHost.attn (Cert.RHost.wh3 w) asrc
      ∧ Cert.KHost.aDst a = Cert.RHost.attn (Cert.RHost.wh3 w) adst := by
  constructor
  · funext j
    obtain ⟨n, h, rfl⟩ : ∃ (n : Fin 100000) (h : Fin 4), j = ix2 n h := ⟨j 0, j 1, eq_ix2 j⟩
    rw [aSrc_apply, ha, attn_apply]
    simp only [mComb_src, attCols_apply, wh3_apply]
    exact sum_head (fun c => w (ix2 n c)) (fun p q => asrc (ix3 (0 : Fin 1) p q)) h
  · funext j
    obtain ⟨n, h, rfl⟩ : ∃ (n : Fin 100000) (h : Fin 4), j = ix2 n h := ⟨j 0, j 1, eq_ix2 j⟩
    rw [aDst_apply, ha, attn_apply]
    simp only [mComb_dst, attCols_apply, wh3_apply]
    exact sum_head (fun c => w (ix2 n c)) (fun p q => adst (ix3 (0 : Fin 1) p q)) h

end Cert.BridgeNode
-- ==== Proof.BridgeEdge.lean ====
/-
  The attention logits of the edges. The kernel computes them 32 edges to a row of 128 lanes: the edge attributes of a
  row's 32 edges (512 numbers) against a (512, 128) block-diagonal copy of the edge weights, so that lane c of row r
  holds the logit of edge 32 r + c div 4 at head c mod 4. Of the 512 terms of that sum 496 meet a zero of the
  block-diagonal matrix and vanish, and the 16 left are the reference's sum over the edge's 16 attributes. The leaky
  ReLU is written with a strict test on one side and a weak one on the other; the two differ only at zero, where
  both branches give zero.
-/
import proofs.«430437_j45698452029991_2_alg».proof.Proof.KHost
import proofs.«430437_j45698452029991_2_alg».proof.Proof.RHost
import proofs.«430437_j45698452029991_2_alg».proof.Proof.Pointwise
import proofs.«430437_j45698452029991_2_alg».proof.Proof.LibWords
import Idealize.ShloMosaic.Lib.ValueIdx
import Idealize.ShloMosaic.Lib.Pipeline.Value
import Idealize.ShloMosaic.Lib.StableHlo.Predicate
import Idealize.ShloMosaic.PureOps.Ideal.Laws

noncomputable section

namespace Cert.BridgeEdge

open Idealize.ShloMosaic Idealize.ShloMosaic.ValueIdx

variable [Cert.KernelIdeal.Facts] [Cert.ReferenceIdeal.Facts]

/-! ## The lane-dense views, read at an index -/

/-- Row r, lane q of the edge attributes' 32-edges-a-row view is attribute q mod 16 of edge 32 r + q div 16. -/
theorem eaRows_apply (ea : FVec Ideal Cert.KernelIdeal.S1600000x16 .f32) (r : Fin 50000) (q : Fin 512) :
    Cert.KHost.eaRows ea (ix2 r q)
      = ea (ix2 (⟨32 * r.val + q.val / 16, by omega⟩ : Fin 1600000) (⟨q.val % 16, by omega⟩ : Fin 16)) := by
  unfold Cert.KHost.eaRows
  refine shapeCast_apply _ _ _ _ ?_
  rw [Shape.rowMajor_val_two, Shape.rowMajor_val_two]
  show (32 * r.val + q.val / 16) * 16 + q.val % 16 = r.val * 512 + q.val
  omega

/-- Row r, lane c of a per-edge, per-head array's 32-edges-a-row view is head c mod 4 of edge 32 r + c div 4. -/
theorem lanes_apply (g : FVec Ideal Cert.KernelIdeal.S1600000x4 .f32) (r : Fin 50000) (c : Fin 128) :
    Cert.KHost.lanes g (ix2 r c)
      = g (ix2 (⟨32 * r.val + c.val / 4, by omega⟩ : Fin 1600000) (⟨c.val % 4, by omega⟩ : Fin 4)) := by
  unfold Cert.KHost.lanes
  refine shapeCast_apply _ _ _ _ ?_
  rw [Shape.rowMajor_val_two, Shape.rowMajor_val_two]
  show (32 * r.val + c.val / 4) * 4 + c.val % 4 = r.val * 128 + c.val
  omega

/-- Back: edge n, head h sits in row n div 32 at lane 4 (n mod 32) + h. -/
theorem unlanes_apply (e : FVec Ideal Cert.KernelIdeal.S50000x128 .f32) (n : Fin 1600000) (h : Fin 4) :
    Cert.KHost.unlanes e (ix2 n h)
      = e (ix2 (⟨n.val / 32, by omega⟩ : Fin 50000) (⟨n.val % 32 * 4 + h.val, by omega⟩ : Fin 128)) := by
  unfold Cert.KHost.unlanes
  refine shapeCast_apply _ _ _ _ ?_
  rw [Shape.rowMajor_val_two, Shape.rowMajor_val_two]
  show n.val / 32 * 128 + (n.val % 32 * 4 + h.val) = n.val * 4 + h.val
  omega

/-! ## The block-diagonal weights -/

/-- The tiled copy of the transposed edge weights: entry (q, c) is W_edge[c mod 4, q mod 16], whatever the blocks
    q div 16 and c div 4. -/
theorem wTile_apply (we : FVec Ideal Cert.KernelIdeal.S4x16 .f32)
    (h1 : Cert.KernelIdeal.S4x16.Transposes [1, 0] Cert.KernelIdeal.S16x4)
    (h2 : Cert.KernelIdeal.S16x4.ShapeCasts Cert.KernelIdeal.S1x16x1x4)
    (h3 : Cert.KernelIdeal.S1x16x1x4.BroadcastsInDim Cert.KernelIdeal.S32x16x32x4
      (![0, 1, 2, 3] : Fin 4 → Fin Cert.KernelIdeal.S32x16x32x4.rank))
    (h4 : Cert.KernelIdeal.S32x16x32x4.ShapeCasts Cert.KernelIdeal.S512x128) (q : Fin 512) (c : Fin 128) :
    shapeCast Cert.KernelIdeal.S512x128 (broadcastInDim Cert.KernelIdeal.S32x16x32x4 ![0, 1, 2, 3] h3
        (shapeCast Cert.KernelIdeal.S1x16x1x4 (transpose Cert.KernelIdeal.S16x4 [1, 0] we h1) h2)) h4 (ix2 q c)
      = we (ix2 (⟨c.val % 4, by omega⟩ : Fin 4) (⟨q.val % 16, by omega⟩ : Fin 16)) := by
  refine (shapeCast_apply _ h4 (ix2 q c) (ix4 (⟨q.val / 16, by omega⟩ : Fin 32) (⟨q.val % 16, by omega⟩ : Fin 16)
    (⟨c.val / 4, by omega⟩ : Fin 32) (⟨c.val % 4, by omega⟩ : Fin 4)) ?_).trans ?_
  · rw [Shape.rowMajor_val_four, Shape.rowMajor_val_two]
    show ((q.val / 16 * 16 + q.val % 16) * 32 + c.val / 4) * 4 + c.val % 4 = q.val * 128 + c.val
    omega
  refine (broadcastInDim_apply _ h3 _ _ (ix4 (0 : Fin 1) (⟨q.val % 16, by omega⟩ : Fin 16) (0 : Fin 1)
    (⟨c.val % 4, by omega⟩ : Fin 4)) ?_).trans ?_
  · intro a
    match a with
    | ⟨0, _⟩ => rfl
    | ⟨1, _⟩ => rfl
    | ⟨2, _⟩ => rfl
    | ⟨3, _⟩ => rfl
  refine (shapeCast_apply _ h2 _ (ix2 (⟨q.val % 16, by omega⟩ : Fin 16) (⟨c.val % 4, by omega⟩ : Fin 4)) ?_).trans ?_
  · rw [Shape.rowMajor_val_two, Shape.rowMajor_val_four]
    show q.val % 16 * 4 + c.val % 4 = ((0 * 16 + q.val % 16) * 1 + 0) * 4 + c.val % 4
    omega
  exact transpose_apply _ we h1 _ (ix2 (⟨c.val % 4, by omega⟩ : Fin 4) (⟨q.val % 16, by omega⟩ : Fin 16))
    (fun b => match b with | ⟨0, _⟩ => rfl | ⟨1, _⟩ => rfl)

/-- THE BLOCK-DIAGONAL MATRIX AT AN ENTRY: W_edge[c mod 4, q mod 16] on the diagonal blocks (q div 16 = c div 4), zero off
    them. The two block numbers are the floor quotients of the row and column numbers by 16 and by 4. -/
theorem wBlock_apply (we : FVec Ideal Cert.KernelIdeal.S4x16 .f32) (q : Fin 512) (c : Fin 128) :
    Cert.KHost.wBlock we (ix2 q c)
      = if q.val / 16 = c.val / 4 then we (ix2 (⟨c.val % 4, by omega⟩ : Fin 4) (⟨q.val % 16, by omega⟩ : Fin 16)) else 0 := by
  unfold Cert.KHost.wBlock
  rw [select_apply, wTile_apply]
  show Scalar.select (IntOp.cmpi .eq (Cert.KHost.floorDiv _ _ (iotaInDim _ 32 0) _ (ix2 q c))
    (Cert.KHost.floorDiv _ _ (iotaInDim _ 32 1) _ (ix2 q c))) _ _ = _
  rw [Cert.LibWords.floorDiv_apply _ _ (iotaInDim _ 32 0) _ (ix2 q c) q.val 16 rfl (by omega) rfl (by omega) (by omega),
    Cert.LibWords.floorDiv_apply _ _ (iotaInDim _ 32 1) _ (ix2 q c) c.val 4 rfl (by omega) rfl (by omega) (by omega)]
  by_cases hqc : q.val / 16 = c.val / 4
  · rw [if_pos hqc, hqc, StableHlo.Predicate.cmpi_eq_iff.mpr rfl, select_one]
  · have hne : ¬ IntOp.cmpi .eq (BitVec.ofNat 32 (q.val / 16)) (BitVec.ofNat 32 (c.val / 4)) = 1#1 := by
      intro h1
      have h2 := congrArg BitVec.toNat (StableHlo.Predicate.cmpi_eq_iff.mp h1)
      rw [Cert.LibWords.toNat_ofNat_small _ (by omega), Cert.LibWords.toNat_ofNat_small _ (by omega)] at h2
      exact hqc h2
    rw [if_neg hqc, eq_zero_of_ne_one hne, select_zero, Cert.LibWords.bcast_scalar_apply, constant_apply,
      Ideal.ofBits_zero_f32]

/-! ## The reference's edge term: ea · W_edgeᵀ at an entry -/

/-- The reference's contraction, (1600000, 16) by (16, 4), runs over one axis. -/
theorem edgeDot_rank_pos : 0 < Cert.ReferenceIdeal.dot_S1600000x16_S16x4_S1600000x4_1_0_0_1_n_n.contr.rank := Nat.one_pos

/-- The left operand's row is the result's row … -/
theorem edgeDot_lhs_0 (i : Cert.ReferenceIdeal.S1600000x4.Idx)
    (k : Cert.ReferenceIdeal.dot_S1600000x16_S16x4_S1600000x4_1_0_0_1_n_n.contr.Idx) :
    (Cert.ReferenceIdeal.dot_S1600000x16_S16x4_S1600000x4_1_0_0_1_n_n.lhsIdx i k 0).val = (i 0).val := by
  unfold DotDims.lhsIdx
  rw [dif_neg (show ¬(0 : Fin Cert.ReferenceIdeal.S1600000x16.rank)
      ∈ Cert.ReferenceIdeal.dot_S1600000x16_S16x4_S1600000x4_1_0_0_1_n_n.lhsBatch from List.not_mem_nil),
    dif_pos (show (0 : Fin Cert.ReferenceIdeal.S1600000x16.rank)
      ∈ Cert.ReferenceIdeal.dot_S1600000x16_S16x4_S1600000x4_1_0_0_1_n_n.lhsNonContracting from List.mem_singleton.mpr rfl)]
  rfl
/-- … its column the contraction position … -/
theorem edgeDot_lhs_1 (i : Cert.ReferenceIdeal.S1600000x4.Idx)
    (k : Cert.ReferenceIdeal.dot_S1600000x16_S16x4_S1600000x4_1_0_0_1_n_n.contr.Idx) :
    (Cert.ReferenceIdeal.dot_S1600000x16_S16x4_S1600000x4_1_0_0_1_n_n.lhsIdx i k 1).val = (k ⟨0, edgeDot_rank_pos⟩).val :=
  Cert.ReferenceIdeal.dot_S1600000x16_S16x4_S1600000x4_1_0_0_1_n_n.lhsIdx_val_of_single rfl i k
/-- … the right operand's row the contraction position … -/
theorem edgeDot_rhs_0 (i : Cert.ReferenceIdeal.S1600000x4.Idx)
    (k : Cert.ReferenceIdeal.dot_S1600000x16_S16x4_S1600000x4_1_0_0_1_n_n.contr.Idx) :
    (Cert.ReferenceIdeal.dot_S1600000x16_S16x4_S1600000x4_1_0_0_1_n_n.rhsIdx i k 0).val = (k ⟨0, edgeDot_rank_pos⟩).val :=
  Cert.ReferenceIdeal.dot_S1600000x16_S16x4_S1600000x4_1_0_0_1_n_n.rhsIdx_val_of_single rfl i k
/-- … and its column the result's column. -/
theorem edgeDot_rhs_1 (i : Cert.ReferenceIdeal.S1600000x4.Idx)
    (k : Cert.ReferenceIdeal.dot_S1600000x16_S16x4_S1600000x4_1_0_0_1_n_n.contr.Idx) :
    (Cert.ReferenceIdeal.dot_S1600000x16_S16x4_S1600000x4_1_0_0_1_n_n.rhsIdx i k 1).val = (i 1).val := by
  unfold DotDims.rhsIdx
  rw [dif_neg (show ¬(1 : Fin Cert.ReferenceIdeal.S16x4.rank)
      ∈ Cert.ReferenceIdeal.dot_S1600000x16_S16x4_S1600000x4_1_0_0_1_n_n.rhsBatch from List.not_mem_nil),
    dif_pos (show (1 : Fin Cert.ReferenceIdeal.S16x4.rank)
      ∈ Cert.ReferenceIdeal.dot_S1600000x16_S16x4_S1600000x4_1_0_0_1_n_n.rhsNonContracting from List.mem_singleton.mpr rfl)]
  rfl

/-- THE EDGE TERM AT AN ENTRY: edge n, head h reads the sum over the 16 attributes of attribute times weight. -/
theorem edgeTerm_apply (ea : FVec Ideal Cert.ReferenceIdeal.S1600000x16 .f32) (we : FVec Ideal Cert.ReferenceIdeal.S4x16 .f32)
    (ht : Cert.ReferenceIdeal.S4x16.Transposes [1, 0] Cert.ReferenceIdeal.S16x4) (n : Fin 1600000) (h : Fin 4) :
    Host.dotGeneral Cert.ReferenceIdeal.dot_S1600000x16_S16x4_S1600000x4_1_0_0_1_n_n none ea
        (transpose Cert.ReferenceIdeal.S16x4 [1, 0] we ht) (ix2 n h)
      = ∑ j : Fin 16, ea (ix2 n j) * we (ix2 h j) := by
  simp only [Host.dotGeneral]
  rw [Ideal.dotGeneral_apply,
    ← Equiv.sum_comp (contrEquiv1 Cert.ReferenceIdeal.dot_S1600000x16_S16x4_S1600000x4_1_0_0_1_n_n 16 rfl rfl).symm]
  refine Finset.sum_congr rfl fun k _ => ?_
  have hk := contrEquiv1_symm_val Cert.ReferenceIdeal.dot_S1600000x16_S16x4_S1600000x4_1_0_0_1_n_n 16 rfl rfl k
  have el : Cert.ReferenceIdeal.dot_S1600000x16_S16x4_S1600000x4_1_0_0_1_n_n.lhsIdx (ix2 n h)
      ((contrEquiv1 Cert.ReferenceIdeal.dot_S1600000x16_S16x4_S1600000x4_1_0_0_1_n_n 16 rfl rfl).symm k) = ix2 n k :=
    funext fun a => Fin.ext (by
      match a with
      | ⟨0, _⟩ => exact edgeDot_lhs_0 _ _
      | ⟨1, _⟩ => exact (edgeDot_lhs_1 _ _).trans hk)
  have er : Cert.ReferenceIdeal.dot_S1600000x16_S16x4_S1600000x4_1_0_0_1_n_n.rhsIdx (ix2 n h)
      ((contrEquiv1 Cert.ReferenceIdeal.dot_S1600000x16_S16x4_S1600000x4_1_0_0_1_n_n 16 rfl rfl).symm k) = ix2 k h :=
    funext fun a => Fin.ext (by
      match a with
      | ⟨0, _⟩ => exact (edgeDot_rhs_0 _ _).trans hk
      | ⟨1, _⟩ => exact edgeDot_rhs_1 _ _)
  rw [el, er]
  exact congrArg (ea (ix2 n k) * ·) (transpose_apply _ we ht (ix2 k h) (ix2 h k)
    (fun b => match b with | ⟨0, _⟩ => rfl | ⟨1, _⟩ => rfl))

/-! ## The leaky ReLU: a weak test against a strict one -/

/-- The reference's leaky ReLU at an entry is the strict-test form: at zero both branches give zero. -/
theorem leaky_apply (z : FVec Ideal Cert.ReferenceIdeal.S1600000x4 .f32) (i : Cert.ReferenceIdeal.S1600000x4.Idx) :
    Cert.RHost.leaky z i = Cert.Pointwise.lrelu (z i) := by
  unfold Cert.RHost.leaky Cert.Pointwise.lrelu
  rw [select_apply, cmpf_apply, mulf_apply, Cert.LibWords.bcast_scalar_apply, Cert.LibWords.bcast_scalar_apply,
    constant_apply, constant_apply, Ideal.cmpf_def, Ideal.ofBits_zero_f32]
  show Scalar.select (BitVec.ofBool (decide ((0 : EReal) ≤ z i))) (z i) (Ideal.ofBits .f32 0x3E4CCCCD#32 * z i)
    = if 0 < z i then z i else Ideal.ofBits .f32 0x3E4CCCCD#32 * z i
  rcases lt_trichotomy (z i) 0 with hlt | heq | hgt
  · rw [if_neg (not_lt.mpr hlt.le), decide_eq_false (not_le.mpr hlt)]
    exact select_zero _ _
  · rw [heq, if_neg (lt_irrefl _), decide_eq_true (le_refl _), mul_zero]
    exact select_one _ _
  · rw [if_pos hgt, decide_eq_true hgt.le]
    exact select_one _ _

/-! ## The 512-term sum is the reference's 16-term sum -/

/-- Row r of the edge attributes against column c of the block-diagonal matrix: the 496 terms off block c div 4 are
    products with zero, and the 16 terms on it are edge 32 r + c div 4's attributes against head c mod 4's weights. -/
theorem blockSum (ea : FVec Ideal Cert.KernelIdeal.S1600000x16 .f32) (we : FVec Ideal Cert.KernelIdeal.S4x16 .f32)
    (r : Fin 50000) (c : Fin 128) :
    ∑ k : Fin 512, Cert.KHost.eaRows ea (ix2 r k) * Cert.KHost.wBlock we (ix2 k c)
      = ∑ j : Fin 16, ea (ix2 (⟨32 * r.val + c.val / 4, by omega⟩ : Fin 1600000) j)
          * we (ix2 (⟨c.val % 4, by omega⟩ : Fin 4) j) := by
  refine (Fintype.sum_of_injective (fun j : Fin 16 => (⟨16 * (c.val / 4) + j.val, by omega⟩ : Fin 512)) ?_ _ _ ?_ ?_).symm
  · intro a b hab
    have h : 16 * (c.val / 4) + a.val = 16 * (c.val / 4) + b.val := congrArg Fin.val hab
    exact Fin.ext (by omega)
  · intro k hk
    have hne : ¬ k.val / 16 = c.val / 4 := fun hkc => hk ⟨⟨k.val % 16, by omega⟩, Fin.ext (by
      show 16 * (c.val / 4) + k.val % 16 = k.val
      omega)⟩
    rw [wBlock_apply, if_neg hne, mul_zero]
  · intro j
    have hd : (16 * (c.val / 4) + j.val) / 16 = c.val / 4 := by omega
    have hm : (16 * (c.val / 4) + j.val) % 16 = j.val := by omega
    rw [eaRows_apply, wBlock_apply]
    dsimp only
    rw [if_pos hd]
    have ej : (⟨(16 * (c.val / 4) + j.val) % 16, by omega⟩ : Fin 16) = j := Fin.ext hm
    have en : (⟨32 * r.val + (16 * (c.val / 4) + j.val) / 16, by omega⟩ : Fin 1600000)
        = ⟨32 * r.val + c.val / 4, by omega⟩ :=
      Fin.ext (by show 32 * r.val + (16 * (c.val / 4) + j.val) / 16 = 32 * r.val + c.val / 4; omega)
    rw [ej, en]

/-! ## The logits -/

/-- THE EDGE LOGITS: what the kernel's second call leaves, 32 edges to a row, read back one edge to a row, is the
    reference's logits of the same gathered attention scalars, edge attributes and edge weights. -/
theorem logits_eq (ea : FVec Ideal Cert.KernelIdeal.S1600000x16 .f32) (we : FVec Ideal Cert.KernelIdeal.S4x16 .f32)
    (gs gd : FVec Ideal Cert.KernelIdeal.S1600000x4 .f32) (e : FVec Ideal Cert.KernelIdeal.S50000x128 .f32)
    (he : ∀ (r : Fin 50000) (c : Fin 128), e (ix2 r c) = Cert.Pointwise.lrelu
      (Cert.KHost.lanes gs (ix2 r c) + Cert.KHost.lanes gd (ix2 r c)
        + ∑ k : Fin 512, Cert.KHost.eaRows ea (ix2 r k) * Cert.KHost.wBlock we (ix2 k c))) :
    Cert.KHost.unlanes e = Cert.RHost.edgeLogits gs gd ea we := by
  funext i
  obtain ⟨n, h, rfl⟩ : ∃ (n : Fin 1600000) (h : Fin 4), i = ix2 n h := ⟨i 0, i 1, eq_ix2 i⟩
  rw [unlanes_apply, he, lanes_apply, lanes_apply, blockSum]
  unfold Cert.RHost.edgeLogits
  rw [leaky_apply, addf_apply, addf_apply, edgeTerm_apply]
  dsimp only
  have en : (⟨32 * (n.val / 32) + (n.val % 32 * 4 + h.val) / 4, by omega⟩ : Fin 1600000) = n :=
    Fin.ext (by show 32 * (n.val / 32) + (n.val % 32 * 4 + h.val) / 4 = n.val; omega)
  have eh : (⟨(n.val % 32 * 4 + h.val) % 4, by omega⟩ : Fin 4) = h :=
    Fin.ext (by show (n.val % 32 * 4 + h.val) % 4 = h.val; omega)
  rw [en, eh]

end Cert.BridgeEdge

end
-- ==== Proof.BridgeSoft.lean ====
/-
  The softmax over each destination's incoming edges, in the kernel's program and in the reference. Both shift the
  logits by their global maximum, exponentiate, sum the exponentials per destination node, read each edge's sum back
  at its destination, add f32(1e-9) and divide. The two chains are the same operations on the same arrays; the one
  difference is how the per-node sums are read back at the edges — the kernel by `take` (a range mask and a fill around
  the gather), the reference by plain indexing (the gather alone) — and where every destination names a row of the
  table the two reads agree.
-/
import proofs.«430437_j45698452029991_2_alg».proof.Proof.KHost
import proofs.«430437_j45698452029991_2_alg».proof.Proof.RHost
import proofs.«430437_j45698452029991_2_alg».proof.Proof.LibWords
import proofs.«430437_j45698452029991_2_alg».proof.Proof.BridgeTake

namespace Cert.BridgeSoft

open Idealize.ShloMosaic

variable [Cert.KernelIdeal.Facts] [Cert.ReferenceIdeal.Facts]

/-- The shifted exponentials are one chain of operations in both programs. -/
theorem expShift_eq (e : FVec Ideal Cert.KernelIdeal.S1600000x4 .f32) :
    Cert.KHost.expShift e = Cert.RHost.expShift e := rfl

/-- So are the per-destination sums of any per-edge array. -/
theorem den_eq (ex : FVec Ideal Cert.KernelIdeal.S1600000x4 .f32) (d : IVec Cert.KernelIdeal.S1600000 32) :
    Cert.KHost.den ex d = Cert.RHost.den ex d := rfl

/-- THE ATTENTION WEIGHTS AGREE where every destination names a node: the kernel's `take` of the per-node sums is the
    reference's row read. -/
theorem alpha_eq (e : FVec Ideal Cert.KernelIdeal.S1600000x4 .f32) (d : IVec Cert.KernelIdeal.S1600000 32)
    (hd : Cert.LibWords.InRange d) : Cert.KHost.alpha e d = Cert.RHost.alpha e d := by
  unfold Cert.KHost.alpha Cert.RHost.alpha
  rw [Cert.BridgeTake.take4_eq _ d hd, expShift_eq e, den_eq (Cert.RHost.expShift e) d]

end Cert.BridgeSoft
-- ==== Proof.LibRows.lean ====
/-
  A row gather and a row scatter-add read at an index.

  `x[i]` along axis 0 of a matrix or of a rank-3 array is a gather whose start indices are an `[E, 1]` column of row
  numbers: the operand's axis 0 is collapsed and start-indexed, its other axes are offset axes. Result row `e` is the
  operand's row whose number is entry `e` of the column, read as a signed integer and clamped into `[0, N - 1]`
  (`gather_rows2`, `gather_rows3`).

  A segment sum along axis 0 is a scatter with an add body over the same column: the operand's axis 0 is inserted and
  indexed, the other axes are the updates' window axes. At the extended reals the result at row `n` is the operand's
  element plus the sum of the update rows `e` whose row number, read signed and NOT clamped, is `n`; a row number
  outside `[0, N)` lands nowhere and contributes nothing (`scatterAdd_rows2`, `scatterAdd_rows3`).

  Each is proved by reading the dimension numbers' index functions axis by axis: on the row axis the start is the
  column's entry and the window or offset coordinate is 0; on every other axis the start is 0 and the coordinate is
  the update's or result's own. For the scatters this gives "update `(e, c)` lands at `(n, c')` iff entry `e` is `n` and
  `c = c'`", and the filtered sum over update indices is re-indexed by the row `e` alone.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Axis 1 of two is not axis 0. -/
theorem fin2_one_nmem : (1 : Fin 2) ∉ ([0] : List (Fin 2)) := by decide
/-- Axis 1 of three is not axis 0. -/
theorem fin3_one_nmem : (1 : Fin 3) ∉ ([0] : List (Fin 3)) := by decide
/-- Axis 2 of three is not axis 0. -/
theorem fin3_two_nmem : (2 : Fin 3) ∉ ([0] : List (Fin 3)) := by decide

/-! ## The row scatter-add over a matrix: `[N, C]` operand, `[E, 1]` row numbers, `[E, C]` updates -/

section Scatter2
variable {N C E w : Nat} (d : ScatterDims ⟨2, ![N, C]⟩ ⟨2, ![E, 1]⟩ ⟨2, ![E, C]⟩)

/-- On the row axis the window of update `(e, c)` starts at row number `e`'s entry, read signed. -/
theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On the column axis, which the map does not name, the window starts at 0. -/
theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

/-- The row axis is inserted: its window coordinate is 0. -/
theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

/-- The column axis takes the update's column. -/
theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

/-- Update `(e, c)` lands at `(n, c')` exactly when row number `e`'s entry, read signed, is `n` and the columns agree;
    an entry outside `[0, N)` lands nowhere. -/
theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

/-- THE ROW SCATTER-ADD READ AT `(n, c)` (a segment sum over a matrix: the operand's axis 0 inserted and indexed by the
    `[E, 1]` column of row numbers, its axis 1 the updates' window axis): the operand's element plus the sum of column `c`
    of the update rows `e` whose row number, read signed, is `n`. A row number outside `[0, N)` contributes nowhere. -/
theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

/-! ## The row scatter-add over a rank-3 array: `[N, H, K]` operand, `[E, 1]` row numbers, `[E, H, K]` updates -/

section Scatter3
variable {N H K E w : Nat} (d : ScatterDims ⟨3, ![N, H, K]⟩ ⟨2, ![E, 1]⟩ ⟨3, ![E, H, K]⟩)

/-- On the row axis the window of update `(e, h, k)` starts at row number `e`'s entry, read signed. -/
theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On axis 1, which the map does not name, the window starts at 0. -/
theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

/-- On axis 2, which the map does not name, the window starts at 0. -/
theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

/-- The row axis is inserted: its window coordinate is 0. -/
theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

/-- Axis 1 takes the update's coordinate on its axis 1. -/
theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

/-- Axis 2 takes the update's coordinate on its axis 2. -/
theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

/-- Update `(e, h, k)` lands at `(n, h', k')` exactly when row number `e`'s entry, read signed, is `n` and the other two
    coordinates agree; an entry outside `[0, N)` lands nowhere. -/
theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

/-- THE ROW SCATTER-ADD READ AT `(n, h, k)` (a segment sum over a rank-3 array: the operand's axis 0 inserted and indexed
    by the `[E, 1]` column of row numbers, its axes 1 and 2 the updates' window axes): the operand's element plus the sum
    of entry `(h, k)` of the update rows `e` whose row number, read signed, is `n`. A row number outside `[0, N)`
    contributes nowhere. -/
theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

/-! ## The row gather from a matrix: `[N, C]` operand, `[E, 1]` row numbers, `[E, C]` result -/

section Gather2
variable {N C E w : Nat} (d : GatherDims ⟨2, ![N, C]⟩ ⟨2, ![E, 1]⟩ ⟨2, ![E, C]⟩)

/-- On the row axis the slice of result `(e, c)` starts at row number `e`'s entry, read signed and clamped into
    `[0, N - 1]`. -/
theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On the column axis, which the start index map does not name, the slice starts at 0. -/
theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

/-- The row axis is collapsed: its offset coordinate is 0. -/
theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

/-- The column axis takes the result's column. -/
theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

/-- THE ROW GATHER READ AT `(e, c)` (`x[i]` of a matrix: the operand's axis 0 collapsed and indexed by the `[E, 1]` column
    of row numbers, its axis 1 an offset axis): column `c` of the operand's row whose number is entry `e` of the column,
    read signed and clamped into `[0, N - 1]`. -/
theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

/-! ## The row gather from a rank-3 array: `[N, H, K]` operand, `[E, 1]` row numbers, `[E, H, K]` result -/

section Gather3
variable {N H K E w : Nat} (d : GatherDims ⟨3, ![N, H, K]⟩ ⟨2, ![E, 1]⟩ ⟨3, ![E, H, K]⟩)

/-- On the row axis the slice of result `(e, h, k)` starts at row number `e`'s entry, read signed and clamped into
    `[0, N - 1]`. -/
theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On axis 1, which the start index map does not name, the slice starts at 0. -/
theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

/-- On axis 2, which the start index map does not name, the slice starts at 0. -/
theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

/-- The row axis is collapsed: its offset coordinate is 0. -/
theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

/-- Axis 1 takes the result's coordinate on its axis 1. -/
theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

/-- Axis 2 takes the result's coordinate on its axis 2. -/
theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

/-- THE ROW GATHER READ AT `(e, h, k)` (`x[i]` of a rank-3 array: the operand's axis 0 collapsed and indexed by the
    `[E, 1]` column of row numbers, its axes 1 and 2 offset axes): entry `(h, k)` of the operand's row whose number is entry
    `e` of the column, read signed and clamped into `[0, N - 1]`. -/
theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.BridgeOut.lean ====
/-
  The weighted messages and their sum over each node's incoming edges. The kernel's program takes rows of the
  transformed features (100000, 64) at the edges' sources, views them as (1600000, 4, 16), multiplies by the attention
  weights laid along the 16 channels of a head, flattens to (1600000, 64) and adds each edge's row into its
  destination's row of a (100000, 64) array of zeros. The reference reads rows of the features viewed as
  (100000, 4, 16), multiplies the same way, adds into a (100000, 4, 16) array of zeros and flattens at the end.
  Entry (n, 16·h + k) of both is 0 + Σ over the edges e whose destination is n of Wh[s e, 16·h + k] · α[e, h].
-/
import proofs.«430437_j45698452029991_2_alg».proof.Proof.KHost
import proofs.«430437_j45698452029991_2_alg».proof.Proof.RHost
import proofs.«430437_j45698452029991_2_alg».proof.Proof.LibWords
import proofs.«430437_j45698452029991_2_alg».proof.Proof.BridgeTake
import proofs.«430437_j45698452029991_2_alg».proof.Proof.LibRows
import Idealize.ShloMosaic.Lib.ValueIdx
import Idealize.ShloMosaic.Lib.Pipeline.Value

namespace Cert.BridgeOut

open Idealize.ShloMosaic Idealize.ShloMosaic.ValueIdx

variable [Cert.KernelIdeal.Facts] [Cert.ReferenceIdeal.Facts]

/-- The head that channel c of a row of 64 belongs to … -/
def head (c : Fin 64) : Fin 4 := ⟨c.val / 16, by omega⟩
/-- … and the channel's place among the head's sixteen. -/
def chan (c : Fin 64) : Fin 16 := ⟨c.val % 16, by omega⟩

/-- The row of the feature table that edge e reads: its source index after the negative wrap, read signed and clamped
    into the table. -/
def srcRow (s : IVec Cert.KernelIdeal.S1600000 32) (e : Fin 1600000) : Fin 100000 :=
  ⟨min (Cert.KHost.wrapCol s (ix2 e (0 : Fin 1))).toInt.toNat (100000 - 1), by omega⟩

/-- The column of destinations is one term in both programs. -/
theorem dstCol_eq (d : IVec Cert.KernelIdeal.S1600000 32) : Cert.RHost.dstCol d = Cert.KHost.dstCol d := rfl

/-- The attention weights laid along a head's sixteen channels, (e, h) → (e, h, 1) → (e, h, k), read at (e, h, k): the
    weight of edge e at head h. -/
theorem weights_apply (h₁ : (⟨2, ![1600000, 4]⟩ : Shape).BroadcastsInDim ⟨3, ![1600000, 4, 1]⟩ ![0, 1])
    (h₂ : (⟨3, ![1600000, 4, 1]⟩ : Shape).BroadcastsInDim ⟨3, ![1600000, 4, 16]⟩ ![0, 1, 2])
    (al : (⟨2, ![1600000, 4]⟩ : Shape).Idx → EReal) (e : Fin 1600000) (h : Fin 4) (k : Fin 16) :
    broadcastInDim ⟨3, ![1600000, 4, 16]⟩ ![0, 1, 2] h₂ (broadcastInDim ⟨3, ![1600000, 4, 1]⟩ ![0, 1] h₁ al) (ix3 e h k)
      = al (ix2 e h) := by
  rw [broadcastInDim_apply _ h₂ _ (ix3 e h k) (ix3 e h (0 : Fin 1)) (fun a => by
        match a with
        | ⟨0, _⟩ => rfl
        | ⟨1, _⟩ => rfl
        | ⟨2, _⟩ => rfl),
    broadcastInDim_apply _ h₁ _ (ix3 e h (0 : Fin 1)) (ix2 e h) (fun a => by
        match a with
        | ⟨0, _⟩ => rfl
        | ⟨1, _⟩ => rfl)]

/-- THE KERNEL'S MESSAGE at edge e, channel c: the source row's feature at c times the edge's weight at c's head. -/
theorem kmsg_apply (w : FVec Ideal Cert.KernelIdeal.S100000x64 .f32) (al : FVec Ideal Cert.KernelIdeal.S1600000x4 .f32)
    (s : IVec Cert.KernelIdeal.S1600000 32) (hs : Cert.LibWords.InRange s) (e : Fin 1600000) (c : Fin 64) :
    (shapeCast Cert.KernelIdeal.S1600000x64
      (mulf (shapeCast Cert.KernelIdeal.S1600000x4x16 (Cert.KHost.take64 w s) Cert.KernelIdeal.Facts₀.shapeCasts_S1600000x64_S1600000x4x16)
        (broadcastInDim Cert.KernelIdeal.S1600000x4x16 ![0, 1, 2] Cert.KernelIdeal.Facts₀.bcast_S1600000x4x1_S1600000x4x16_0_1_2
          (broadcastInDim Cert.KernelIdeal.S1600000x4x1 ![0, 1] Cert.KernelIdeal.Facts₀.bcast_S1600000x4_S1600000x4x1_0_1 al)))
      Cert.KernelIdeal.Facts₀.shapeCasts_S1600000x4x16_S1600000x64 : FVec Ideal Cert.KernelIdeal.S1600000x64 .f32) (ix2 e c)
      = w (ix2 (srcRow s e) c) * al (ix2 e (head c)) := by
  rw [shapeCast_apply _ _ (ix2 e c) (ix3 e (head c) (chan c)) (by
      rw [Shape.rowMajor_val_three, Shape.rowMajor_val_two]
      show (e.val * 4 + c.val / 16) * 16 + c.val % 16 = e.val * 64 + c.val
      omega),
    mulf_apply, weights_apply,
    shapeCast_apply _ _ (ix3 e (head c) (chan c)) (ix2 e c) (by
      rw [Shape.rowMajor_val_three, Shape.rowMajor_val_two]
      show e.val * 64 + c.val = (e.val * 4 + c.val / 16) * 16 + c.val % 16
      omega),
    Cert.BridgeTake.take64_eq w s hs]
  exact congrArg (· * al (ix2 e (head c)))
    (Cert.LibRows.gather_rows2 (by decide) Cert.KernelIdeal.gather_S100000x64_S1600000x1_S1600000x64_1_0_n_n_0_1_164
      rfl rfl rfl rfl rfl w (Cert.KHost.wrapCol s) e c)

/-- THE REFERENCE'S MESSAGE at edge e, head h, channel k: the same source row's feature at 16·h + k times the edge's
    weight at h. -/
theorem rmsg_apply (w : FVec Ideal Cert.KernelIdeal.S100000x64 .f32) (al : FVec Ideal Cert.KernelIdeal.S1600000x4 .f32)
    (s : IVec Cert.KernelIdeal.S1600000 32) (e : Fin 1600000) (h : Fin 4) (k : Fin 16) :
    (mulf (Cert.RHost.rows3 (Cert.RHost.wh3 w) s)
      (broadcastInDim Cert.ReferenceIdeal.S1600000x4x16 ![0, 1, 2] Cert.ReferenceIdeal.Facts₀.bcast_S1600000x4x1_S1600000x4x16_0_1_2
        (broadcastInDim Cert.ReferenceIdeal.S1600000x4x1 ![0, 1] Cert.ReferenceIdeal.Facts₀.bcast_S1600000x4_S1600000x4x1_0_1 al))
      : FVec Ideal Cert.ReferenceIdeal.S1600000x4x16 .f32) (ix3 e h k)
      = w (ix2 (srcRow s e) ⟨16 * h.val + k.val, by omega⟩) * al (ix2 e h) := by
  rw [mulf_apply, weights_apply]
  refine congrArg (· * al (ix2 e h)) ?_
  unfold Cert.RHost.rows3
  rw [← Cert.BridgeTake.wrapCol_eq s]
  refine (Cert.LibRows.gather_rows3 (by decide) Cert.ReferenceIdeal.gather_S100000x4x16_S1600000x1_S1600000x4x16_12_0_n_n_0_1_1416
      rfl rfl rfl rfl rfl (Cert.RHost.wh3 w) (Cert.KHost.wrapCol s) e h k).trans ?_
  unfold Cert.RHost.wh3
  exact shapeCast_apply _ _ _ (ix2 (srcRow s e) ⟨16 * h.val + k.val, by omega⟩) (by
      rw [Shape.rowMajor_val_three, Shape.rowMajor_val_two]
      show (srcRow s e).val * 64 + (16 * h.val + k.val) = ((srcRow s e).val * 4 + h.val) * 16 + k.val
      omega)

/-- On the extended reals the host's accumulating scatter is the exact sum. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The kernel's aggregate at node n, channel c: zero plus the messages of the edges whose destination is n. -/
theorem kout_apply (w : FVec Ideal Cert.KernelIdeal.S100000x64 .f32) (al : FVec Ideal Cert.KernelIdeal.S1600000x4 .f32)
    (s d : IVec Cert.KernelIdeal.S1600000 32) (hs : Cert.LibWords.InRange s) (n : Fin 100000) (c : Fin 64) :
    Cert.KHost.out w al s d (ix2 n c)
      = Ideal.ofBits .f32 0x00000000#32
        + ∑ e ∈ Finset.univ.filter (fun e : Fin 1600000 => (Cert.KHost.dstCol d (ix2 e (0 : Fin 1))).toInt = (n.val : Int)),
            w (ix2 (srcRow s e) c) * al (ix2 e (head c)) := by
  unfold Cert.KHost.out
  rw [scatterAdd_ideal,
    Cert.LibRows.scatterAdd_rows2 Cert.KernelIdeal.scatter_S100000x64_S1600000x1_S1600000x64_1_0_0_1 rfl rfl rfl rfl,
    Cert.LibWords.bcast_scalar_apply, constant_apply]
  exact congrArg _ (Finset.sum_congr rfl fun e _ => kmsg_apply w al s hs e c)

/-- The reference's aggregate at node n, head h, channel k. -/
theorem rout_apply (w : FVec Ideal Cert.KernelIdeal.S100000x64 .f32) (al : FVec Ideal Cert.KernelIdeal.S1600000x4 .f32)
    (s d : IVec Cert.KernelIdeal.S1600000 32) (n : Fin 100000) (h : Fin 4) (k : Fin 16) :
    Cert.RHost.out3 (Cert.RHost.wh3 w) al s d (ix3 n h k)
      = Ideal.ofBits .f32 0x00000000#32
        + ∑ e ∈ Finset.univ.filter (fun e : Fin 1600000 => (Cert.KHost.dstCol d (ix2 e (0 : Fin 1))).toInt = (n.val : Int)),
            w (ix2 (srcRow s e) ⟨16 * h.val + k.val, by omega⟩) * al (ix2 e h) := by
  unfold Cert.RHost.out3
  rw [dstCol_eq d, scatterAdd_ideal,
    Cert.LibRows.scatterAdd_rows3 Cert.ReferenceIdeal.scatter_S100000x4x16_S1600000x1_S1600000x4x16_12_0_0_1 rfl rfl rfl rfl,
    Cert.LibWords.bcast_scalar_apply, constant_apply]
  exact congrArg _ (Finset.sum_congr rfl fun e _ => rmsg_apply w al s e h k)

/-- THE AGGREGATES AGREE where every source names a node: entry (n, 16·h + k) of both is zero plus the sum, over the
    edges whose destination is n, of the source row's feature at 16·h + k times the edge's weight at head h. A
    destination that names no node adds its message nowhere in either program. -/
theorem out_eq (w : FVec Ideal Cert.KernelIdeal.S100000x64 .f32) (al : FVec Ideal Cert.KernelIdeal.S1600000x4 .f32)
    (s d : IVec Cert.KernelIdeal.S1600000 32) (hs : Cert.LibWords.InRange s) :
    Cert.KHost.out w al s d = Cert.RHost.flat (Cert.RHost.out3 (Cert.RHost.wh3 w) al s d) := by
  funext j
  obtain ⟨n, c, rfl⟩ : ∃ (n : Fin 100000) (c : Fin 64), j = ix2 n c := ⟨j 0, j 1, eq_ix2 j⟩
  have hflat : Cert.RHost.flat (Cert.RHost.out3 (Cert.RHost.wh3 w) al s d) (ix2 n c)
      = Cert.RHost.out3 (Cert.RHost.wh3 w) al s d (ix3 n (head c) (chan c)) := by
    unfold Cert.RHost.flat
    exact shapeCast_apply _ _ _ _ (by
      rw [Shape.rowMajor_val_three, Shape.rowMajor_val_two]
      show (n.val * 4 + c.val / 16) * 16 + c.val % 16 = n.val * 64 + c.val
      omega)
  have hc : (⟨16 * (head c).val + (chan c).val, by have := (head c).isLt; have := (chan c).isLt; omega⟩ : Fin 64) = c :=
    Fin.ext (by show 16 * (c.val / 16) + c.val % 16 = c.val; omega)
  rw [hflat, kout_apply w al s d hs n c, rout_apply w al s d n (head c) (chan c), hc]

end Cert.BridgeOut
-- ==== Proof.BridgeFinal.lean ====
/-
  The last stage of the two programs is one function. The kernel's program packs node n's 64 channels into row n / 2,
  lanes 64 (n mod 2) + ch of a (50000, 128) array (a row-major reshape), adds the bias laid out twice over as one row of
  128 (lane 64 q + ch holds bias ch), applies y ↦ (y where 0 < y, exp y − 1 elsewhere) entry by entry, and reshapes
  back. The reference adds the bias along the channels and applies its ELU, select (y > 0) y (1 · expm1 (select (y > 0)
  0 y)). On the extended reals expm1 y is exp y − 1, the word of 1.0 is 1, and where y ≤ 0 the inner select is y: the
  reference's ELU is the same scalar function. So the two results agree at every node and channel.
-/
import proofs.«430437_j45698452029991_2_alg».proof.Proof.KHost
import proofs.«430437_j45698452029991_2_alg».proof.Proof.RHost
import proofs.«430437_j45698452029991_2_alg».proof.Proof.Pointwise
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.BridgeFinal

open Idealize.ShloMosaic Idealize.ShloMosaic.ValueIdx

variable [Cert.KernelIdeal.Facts] [Cert.ReferenceIdeal.Facts]

section AnyFamily
variable {F : FTy → Type} [FloatOps F]

/-- Two nodes per row: row p, lane c of the packed features is node n, channel ch when the two row-major positions
    agree, 128 p + c = 64 n + ch. -/
theorem outRows_apply (o : FVec F Cert.KernelIdeal.S100000x64 .f32) (n : Fin 100000) (ch : Fin 64) (p : Fin 50000) (c : Fin 128)
    (h : p.val * 128 + c.val = n.val * 64 + ch.val) : Cert.KHost.outRows o (ix2 p c) = o (ix2 n ch) := by
  unfold Cert.KHost.outRows
  refine shapeCast_apply o _ (ix2 p c) (ix2 n ch) ?_
  rw [Shape.rowMajor_val_two, Shape.rowMajor_val_two]
  show n.val * 64 + ch.val = p.val * 128 + c.val
  exact h.symm

/-- Back to one node per row: node n, channel ch reads the packed array at the row and lane of the same position. -/
theorem unrows_apply (r : FVec F Cert.KernelIdeal.S50000x128 .f32) (n : Fin 100000) (ch : Fin 64) (p : Fin 50000) (c : Fin 128)
    (h : p.val * 128 + c.val = n.val * 64 + ch.val) : Cert.KHost.unrows r (ix2 n ch) = r (ix2 p c) := by
  unfold Cert.KHost.unrows
  refine shapeCast_apply r _ (ix2 n ch) (ix2 p c) ?_
  rw [Shape.rowMajor_val_two, Shape.rowMajor_val_two]
  show p.val * 128 + c.val = n.val * 64 + ch.val
  exact h

/-- The doubled bias row: lane c holds bias ch when c is ch or 64 + ch. -/
theorem bias2_apply (b : FVec F Cert.KernelIdeal.S64 .f32) (ch : Fin 64) (c : Fin 128)
    (h : c.val = ch.val ∨ c.val = ch.val + 64) : Cert.KHost.bias2 b (ix2 (0 : Fin 1) c) = b (ix1 ch) := by
  unfold Cert.KHost.bias2
  refine (shapeCast_a_1a_apply _ _ (0 : Fin 1) c).trans ?_
  have hch : ch.val < 64 := ch.isLt
  rcases h with h | h
  · refine concatenate_pair_apply_left (0 : Fin 1) b b _ (ix1 c) rfl (ix1 ch) fun a => ?_
    match a with
    | ⟨0, _⟩ => exact h.symm
  · refine concatenate_pair_apply_right (0 : Fin 1) b b _ (ix1 c) rfl rfl (ix1 ch) (fun a ha => ?_) ?_
    · match a with
      | ⟨0, _⟩ => exact absurd rfl ha
    · show ch.val + 64 = c.val
      exact h.symm

end AnyFamily

/-- The reference's bias, broadcast along the channels ([64] → [1, 64] → [100000, 64]): at node n, channel ch, bias ch. -/
theorem bias_bcast (b : FVec Ideal Cert.ReferenceIdeal.S64 .f32) (n : Fin 100000) (ch : Fin 64) :
    broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b) (ix2 n ch) = b (ix1 ch) := by
  refine (broadcastInDim_apply _ _ _ (ix2 n ch) (ix2 (0 : Fin 1) ch) fun a => ?_).trans
    (broadcastInDim_apply _ _ b (ix2 (0 : Fin 1) ch) (ix1 ch) fun a => ?_)
  · match a with
    | ⟨0, _⟩ => rfl
    | ⟨1, _⟩ => rfl
  · match a with
    | ⟨0, _⟩ => rfl

/-- The reference's ELU at an entry, on the extended reals, is the ELU tail of the entry. -/
theorem elu_apply (y : FVec Ideal Cert.ReferenceIdeal.S100000x64 .f32) (i : Cert.ReferenceIdeal.S100000x64.Idx) :
    Cert.RHost.elu y i = Cert.Pointwise.eluTail (y i) := by
  show Scalar.select (Ideal.cmp .ogt (y i) (Ideal.ofBits .f32 0x00000000#32)) (y i)
      (Ideal.ofBits .f32 0x3F800000#32
        * (Ideal.exp (Scalar.select (Ideal.cmp .ogt (y i) (Ideal.ofBits .f32 0x00000000#32)) (Ideal.ofBits .f32 0x00000000#32) (y i)) - 1)) = _
  unfold Cert.Pointwise.eluTail
  rw [Ideal.ofBits_zero_f32, Ideal.ofBits_one_f32, one_mul]
  by_cases h : (0 : EReal) < y i
  · have hc : Ideal.cmp .ogt (y i) 0 = 1#1 := by simp [Ideal.cmp, h]
    rw [if_pos h, hc, select_one]
  · have hc : Ideal.cmp .ogt (y i) 0 = 0#1 := by simp [Ideal.cmp, h]
    rw [if_neg h, hc, select_zero, select_zero]

/-- The kernel program's last stage, given its pallas_call as the ELU tail of packed feature plus doubled bias, is the
    reference's bias-and-ELU. -/
theorem res_eq (o : FVec Ideal Cert.KernelIdeal.S100000x64 .f32) (b : FVec Ideal Cert.KernelIdeal.S64 .f32)
    (r : FVec Ideal Cert.KernelIdeal.S50000x128 .f32)
    (hr : ∀ (p : Fin 50000) (c : Fin 128), r (ix2 p c)
      = Cert.Pointwise.eluTail (Cert.KHost.outRows o (ix2 p c) + Cert.KHost.bias2 b (ix2 (0 : Fin 1) c))) :
    Cert.KHost.unrows r = Cert.RHost.res o b := by
  funext i
  obtain ⟨n, ch, rfl⟩ : ∃ (n : Fin 100000) (ch : Fin 64), i = ix2 n ch := ⟨i 0, i 1, eq_ix2 i⟩
  have hn : n.val < 100000 := n.isLt
  have hch : ch.val < 64 := ch.isLt
  have hp : n.val / 2 < 50000 := by omega
  have hc : 64 * (n.val % 2) + ch.val < 128 := by omega
  have hpos : n.val / 2 * 128 + (64 * (n.val % 2) + ch.val) = n.val * 64 + ch.val := by omega
  have hlane : 64 * (n.val % 2) + ch.val = ch.val ∨ 64 * (n.val % 2) + ch.val = ch.val + 64 := by omega
  rw [unrows_apply r n ch ⟨n.val / 2, hp⟩ ⟨64 * (n.val % 2) + ch.val, hc⟩ hpos, hr,
    outRows_apply o n ch ⟨n.val / 2, hp⟩ ⟨64 * (n.val % 2) + ch.val, hc⟩ hpos,
    bias2_apply b ch ⟨64 * (n.val % 2) + ch.val, hc⟩ hlane]
  unfold Cert.RHost.res
  rw [elu_apply, addf_apply, bias_bcast]

end Cert.BridgeFinal

end
-- ==== Proof.Bridge.lean ====
/-
  The two programs compute one function. With every entry of the edge index a node number in [0, 100000), the
  kernel program's result — its three pallas_calls as whole-array functions between the host stages — is the
  reference's result, stage by stage: the transformed features and the per-head attention scalars (the selector
  matmul keeps a head's sixteen terms and adds zeros); the four gathers (`take` never fills inside the range);
  the edge logits (the block-diagonal matmul keeps an edge's sixteen terms; the two leaky ReLUs differ only in how
  they write the test at zero); the softmax over each destination's incoming edges (the same operations); the
  weighted messages and their segment sum (the same sum over the same edges, laid out as (n, 64) or (n, 4, 16));
  the bias and the ELU (expm1 y is exp y − 1). None of the laws used needs a finite value.
-/
import proofs.«430437_j45698452029991_2_alg».proof.Proof.KHost
import proofs.«430437_j45698452029991_2_alg».proof.Proof.RHost
import proofs.«430437_j45698452029991_2_alg».proof.Proof.Region0
import proofs.«430437_j45698452029991_2_alg».proof.Proof.Region1
import proofs.«430437_j45698452029991_2_alg».proof.Proof.Region2
import proofs.«430437_j45698452029991_2_alg».proof.Proof.BridgeTake
import proofs.«430437_j45698452029991_2_alg».proof.Proof.BridgeNode
import proofs.«430437_j45698452029991_2_alg».proof.Proof.BridgeEdge
import proofs.«430437_j45698452029991_2_alg».proof.Proof.BridgeSoft
import proofs.«430437_j45698452029991_2_alg».proof.Proof.BridgeOut
import proofs.«430437_j45698452029991_2_alg».proof.Proof.BridgeFinal

noncomputable section

namespace Cert.Bridge

open Idealize.ShloMosaic Cert.KernelIdeal

variable [Cert.KernelIdeal.Facts] [Cert.ReferenceIdeal.Facts]

/-- The kernel program's value is the reference's, when the edge index holds node numbers. -/
theorem kval_eq (x : FVec Ideal S100000x128 .f32) (ei : IVec S2x1600000 32) (ea : FVec Ideal S1600000x16 .f32)
    (wn : FVec Ideal S64x128 .f32) (we : FVec Ideal S4x16 .f32) (asrc adst : FVec Ideal S1x4x16 .f32) (b : FVec Ideal S64 .f32)
    (hr : ∀ j : S2x1600000.Idx, 0 ≤ (ei j).toInt ∧ (ei j).toInt < 100000) :
    Cert.KHost.kval Cert.Region0.wh Cert.Region0.ac Cert.Region1.er Cert.Region2.rr x ei ea wn we asrc adst b
      = Cert.RHost.val x ei ea wn we asrc adst b := by
  have hs := Cert.BridgeTake.src_inRange ei hr
  have hd := Cert.BridgeTake.dst_inRange ei hr
  have hwh : Cert.Region0.wh x wn = Cert.RHost.wh x wn :=
    Cert.BridgeNode.wh_eq x wn _ (Cert.Region0.wh_apply x wn)
  obtain ⟨has, had⟩ := Cert.BridgeNode.attn_eq (Cert.Region0.wh x wn) asrc adst
    (Cert.Region0.ac x wn (Cert.KHost.mComb asrc adst)) (Cert.Region0.ac_apply x wn _)
  unfold Cert.KHost.kval Cert.RHost.val Cert.RHost.logits
  rw [has, had, Cert.BridgeTake.take4_eq _ _ hs, Cert.BridgeTake.take4_eq _ _ hd]
  rw [Cert.BridgeEdge.logits_eq ea we _ _ _ (Cert.Region1.er_apply _ _ _ _)]
  rw [Cert.BridgeSoft.alpha_eq _ _ hd, Cert.BridgeOut.out_eq _ _ _ _ hs]
  rw [Cert.BridgeFinal.res_eq _ b _ (Cert.Region2.rr_apply _ _)]
  rw [hwh, Cert.BridgeTake.src_eq, Cert.BridgeTake.dst_eq]

end Cert.Bridge

end
-- ==== Proof.lean ====
/-
  The certificate's claim. A graph-attention layer — node features through a weight matrix, per-head attention scalars,
  leaky-ReLU edge logits, a softmax over each node's incoming edges, attention-weighted messages summed per
  destination, bias and ELU — computed by a program of three pallas_calls between host stretches, against its plain
  jnp reference, over the extended reals, for finite float inputs and an edge index of node numbers in [0, 100000).

  The three frames: the kernel program's two (at the word level and idealized) are its frame certificate; the
  reference's is its run with the result dropped. `preserves` states no rewrite. `algebraic`: the kernel program ends
  with its result buffer at the last boundary's contents, which are the three pallas_calls' whole-array functions
  between the host stages (the fold read back stretch by stretch); the reference ends at its operations' composition;
  the two are one function of the arguments (`Cert.Bridge.kval_eq`), the index range read off the precondition.
-/
import proofs.«430437_j45698452029991_2_alg».proof.Defs
import proofs.«430437_j45698452029991_2_alg».proof.Proof.Gen.Kernel
import proofs.«430437_j45698452029991_2_alg».proof.Proof.Gen.KernelIdeal
import proofs.«430437_j45698452029991_2_alg».proof.Proof.Gen.ReferenceIdeal
import proofs.«430437_j45698452029991_2_alg».proof.Proof.Gen.Pre_finite_inputs
import proofs.«430437_j45698452029991_2_alg».proof.Proof.KernelFrame
import proofs.«430437_j45698452029991_2_alg».proof.Proof.KernelIdealFrame
import proofs.«430437_j45698452029991_2_alg».proof.Proof.KRun
import proofs.«430437_j45698452029991_2_alg».proof.Proof.KFoldA
import proofs.«430437_j45698452029991_2_alg».proof.Proof.KFoldB
import proofs.«430437_j45698452029991_2_alg».proof.Proof.Region0Arr
import proofs.«430437_j45698452029991_2_alg».proof.Proof.Region1Arr
import proofs.«430437_j45698452029991_2_alg».proof.Proof.Region2Arr
import proofs.«430437_j45698452029991_2_alg».proof.Proof.RRun
import proofs.«430437_j45698452029991_2_alg».proof.Proof.PreRange
import proofs.«430437_j45698452029991_2_alg».proof.Proof.Bridge
import Idealize.ShloMosaic.Adequacy
import Idealize.ShloMosaic.Init

noncomputable section

namespace Cert.Proof

open Idealize.ShloMosaic Idealize.SL.Sem

/-- The contents of the kernel program's result buffer at the end of the run, as the function of the launch memory's
    arguments that the reference computes. -/
theorem result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W26 m ρ c (Proc.devRef .tc Cert.KernelIdeal.main_v63) =
      Cert.RHost.val (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) :=
  by
  -- the contents at the second pallas_call's entry, then the rest of the fold, then the two programs' one function
  have hB := Cert.KFoldB.result (F := Ideal) m ρ c Cert.Region1.er Cert.Region2.rr
    (fun V c => Cert.Region1.arr_er V c) (fun V c => Cert.Region2.arr_rr V c) _ _ _ _ _ _ _ _
    (Cert.KFoldA.W18_v34 (m := m) (ρ := ρ) (c := c))
    (Cert.KFoldA.W18_v33 (m := m) (ρ := ρ) (c := c))
    (Cert.KFoldA.W18_v35 (m := m) (ρ := ρ) (c := c) (ac := Cert.Region0.ac) (h04 := fun V c => Cert.Region0.arr_ac V c))
    (Cert.KFoldA.W18_v36 (m := m) (ρ := ρ) (c := c) (ac := Cert.Region0.ac) (h04 := fun V c => Cert.Region0.arr_ac V c))
    (Cert.KFoldA.W18_v19_0 (m := m) (ρ := ρ) (c := c) (wh := Cert.Region0.wh) (h03 := fun V c => Cert.Region0.arr_wh V c))
    (Cert.KFoldA.W18_v1 (m := m) (ρ := ρ) (c := c))
    (Cert.KFoldA.W18_v3 (m := m) (ρ := ρ) (c := c))
    (Cert.KFoldA.W18_arg7 (m := m) (ρ := ρ) (c := c))
  exact hB.trans (Cert.Bridge.kval_eq _ _ _ _ _ _ _ _ (fun j => Cert.PreRange.range_of_pre m hpre c j))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.RRun.run (F := Ideal) m ρ),
  trivial,
  by
    intro m ρ m' ρ' hpre hagree
    -- both runs end with the result at the kernel program's last boundary contents
    refine ⟨_, Cert.KernelIdeal.KRun.run_main (F := Ideal) m ρ, ?_⟩
    refine (θ_run Cert.ReferenceIdeal.defs _ _).mono (fun r h c => ⟨(h c).1.trans ?_, (h c).2⟩)
      (Cert.RRun.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact (result_eq m ρ hpre c).symm⟩

end Cert.Proof

end
